-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S4096x16 : Shape := ⟨2, ![4096, 16]⟩
abbrev S32x4096x2 : Shape := ⟨3, ![32, 4096, 2]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x16 : S_.BroadcastsInDim S4096x16 (![] : Fin 0 → Fin S4096x16.rank)
  reducesTo_S4096x16_S_d0_1 : S4096x16.ReducesTo [0, 1] S_
  bcast_S_S32x4096x2 : S_.BroadcastsInDim S32x4096x2 (![] : Fin 0 → Fin S32x4096x2.rank)
  reducesTo_S32x4096x2_S_d0_1_2 : S32x4096x2.ReducesTo [0, 1, 2] S_
  bcast_S_S4096 : S_.BroadcastsInDim S4096 (![] : Fin 0 → Fin S4096.rank)
  reducesTo_S4096_S_d0 : S4096.ReducesTo [0] S_
  bcast_S_S4096x4096 : S_.BroadcastsInDim S4096x4096 (![] : Fin 0 → Fin S4096x4096.rank)
  reducesTo_S4096x4096_S_d0_1 : S4096x4096.ReducesTo [0, 1] S_

variable [Facts]

def fn_part1 {F : FTy → Type} [FloatOps F] (main_arg1 : IVec S4096x4096 32) (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  let main_c_6 : IVec S_ 32 := constantI S_ 32 0#32
  let main_v19 : IVec S4096x4096 32 := broadcastInDim S4096x4096 ![] bcast_S_S4096x4096 main_c_6
  let main_v20 : IVec S4096x4096 1 := cmpi .sge main_arg1 main_v19
  let main_c_7 : IVec S_ 32 := constantI S_ 32 16#32
  let main_v21 : IVec S4096x4096 32 := broadcastInDim S4096x4096 ![] bcast_S_S4096x4096 main_c_7
  let main_v22 : IVec S4096x4096 1 := cmpi .slt main_arg1 main_v21
  let main_v23 : IVec S4096x4096 1 := andi main_v20 main_v22
  let main_c_8 : IVec S_ 1 := constantI S_ 1 1#1
  let main_v24 : IVec S_ 1 := (fun x v => Host.reduce IntOp.andi x v reducesTo_S4096x4096_S_d0_1 h_S_) main_v23 main_c_8
  let main_v25 : IVec S_ 1 := andi main_v18 main_v24
  main_v25

def fn {F : FTy → Type} [FloatOps F] (main_arg0 : FVec F S8192x4096 .f32) (main_arg1 : IVec S4096x4096 32) (main_arg2 : FVec F S4096x16 .f32) (main_arg3 : FVec F S32x4096x2 .f32) (main_arg4 : FVec F S4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x16 .f32 := Host.absf main_arg2
  let main_cst_0 : FVec F S_ .f32 := constant S_ .f32 0x7F800000#32
  let main_v5 : FVec F S4096x16 .f32 := broadcastInDim S4096x16 ![] bcast_S_S4096x16 main_cst_0
  let main_v6 : IVec S4096x16 1 := cmpf .olt main_v4 main_v5
  let main_c_1 : IVec S_ 1 := constantI S_ 1 1#1
  let main_v7 : IVec S_ 1 := (fun x v => Host.reduce IntOp.andi x v reducesTo_S4096x16_S_d0_1 h_S_) main_v6 main_c_1
  let main_v8 : IVec S_ 1 := andi main_v3 main_v7
  let main_v9 : FVec F S32x4096x2 .f32 := Host.absf main_arg3
  let main_cst_2 : FVec F S_ .f32 := constant S_ .f32 0x7F800000#32
  let main_v10 : FVec F S32x4096x2 .f32 := broadcastInDim S32x4096x2 ![] bcast_S_S32x4096x2 main_cst_2
  let main_v11 : IVec S32x4096x2 1 := cmpf .olt main_v9 main_v10
  let main_c_3 : IVec S_ 1 := constantI S_ 1 1#1
  let main_v12 : IVec S_ 1 := (fun x v => Host.reduce IntOp.andi x v reducesTo_S32x4096x2_S_d0_1_2 h_S_) main_v11 main_c_3
  let main_v13 : IVec S_ 1 := andi main_v8 main_v12
  let main_v14 : FVec F S4096 .f32 := Host.absf main_arg4
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_arg1 main_v13 main_v16
-- ==== Kernel.lean ====
abbrev S8192x4096 : Shape := ⟨2, ![8192, 4096]⟩
abbrev S4096x4096 : Shape := ⟨2, ![4096, 4096]⟩
abbrev S4096x16 : Shape := ⟨2, ![4096, 16]⟩
abbrev S32x4096x2 : Shape := ⟨3, ![32, 4096, 2]⟩
abbrev S4096 : Shape := ⟨1, ![4096]⟩
abbrev S32x4096x1 : Shape := ⟨3, ![32, 4096, 1]⟩
abbrev S32x4096 : Shape := ⟨2, ![32, 4096]⟩
abbrev S1x4096x16 : Shape := ⟨3, ![1, 4096, 16]⟩
abbrev S32x4096x16 : Shape := ⟨3, ![32, 4096, 16]⟩
abbrev S1024x128 : Shape := ⟨2, ![1024, 128]⟩
abbrev S1x1024x16 : Shape := ⟨3, ![1, 1024, 16]⟩
abbrev S1024x16 : Shape := ⟨2, ![1024, 16]⟩
abbrev S1024x1 : Shape := ⟨2, ![1024, 1]⟩
abbrev S1x4096 : Shape := ⟨2, ![1, 4096]⟩
abbrev S1024x256 : Shape := ⟨2, ![1024, 256]⟩
abbrev S2048x256 : Shape := ⟨2, ![2048, 256]⟩
abbrev S1x2048 : Shape := ⟨2, ![1, 2048]⟩
abbrev S1024x2048 : Shape := ⟨2, ![1024, 2048]⟩

abbrev nBuf : Space → Nat
  | .hbm => 21
  | .vmem => 15
  | .smem => 0
  | _ => 0

abbrev bufTy : (tb : Table) → Fin (tcTables nBuf tb) → BufTy
  | .hbm, ⟨0, _⟩ => ⟨S8192x4096, .f32⟩
  | .hbm, ⟨1, _⟩ => ⟨S4096x4096, .i32⟩
  | .hbm, ⟨2, _⟩ => ⟨S4096x16, .f32⟩
  | .hbm, ⟨3, _⟩ => ⟨S32x4096x2, .f32⟩
  | .hbm, ⟨4, _⟩ => ⟨S4096, .f32⟩
  | .hbm, ⟨5, _⟩ => ⟨S32x4096x1, .f32⟩
  | .hbm, ⟨6, _⟩ => ⟨S32x4096, .f32⟩
  | .hbm, ⟨7, _⟩ => ⟨S32x4096x1, .f32⟩
  | .hbm, ⟨8, _⟩ => ⟨S32x4096, .f32⟩
  | .hbm, ⟨9, _⟩ => ⟨S1x4096x16, .f32⟩
  | .hbm, ⟨10, _⟩ => ⟨S32x4096x1, .f32⟩
  | .hbm, ⟨11, _⟩ => ⟨S32x4096x16, .f32⟩
  | .hbm, ⟨12, _⟩ => ⟨S32x4096x16, .f32⟩
  | .hbm, ⟨13, _⟩ => ⟨S32x4096x16, .f32⟩
  | .hbm, ⟨14, _⟩ => ⟨S32x4096x1, .f32⟩
  | .hbm, ⟨15, _⟩ => ⟨S32x4096x16, .f32⟩
  | .hbm, ⟨16, _⟩ => ⟨S32x4096x16, .f32⟩
  | .hbm, ⟨17, _⟩ => ⟨S32x4096x16, .bf16⟩
  | .hbm, ⟨18, _⟩ => ⟨S4096x4096, .bf16⟩
  | .hbm, ⟨19, _⟩ => ⟨S1x4096, .f32⟩
  | .hbm, ⟨20, _⟩ => ⟨S8192x4096, .f32⟩
  | .local _ .vmem, ⟨0, _⟩ => ⟨S1024x128, .i32⟩
  | .local _ .vmem, ⟨1, _⟩ => ⟨S1024x128, .i32⟩
  | .local _ .vmem, ⟨2, _⟩ => ⟨S1x1024x16, .bf16⟩
  | .local _ .vmem, ⟨3, _⟩ => ⟨S1x1024x16, .bf16⟩
  | .local _ .vmem, ⟨4, _⟩ => ⟨S1024x128, .bf16⟩
  | .local _ .vmem, ⟨5, _⟩ => ⟨S1024x128, .bf16⟩
  | .local _ .vmem, ⟨6, _⟩ => ⟨S1024x256, .f32⟩
  | .local _ .vmem, ⟨7, _⟩ => ⟨S1024x256, .f32⟩
  | .local _ .vmem, ⟨8, _⟩ => ⟨S2048x256, .bf16⟩
  | .local _ .vmem, ⟨9, _⟩ => ⟨S2048x256, .bf16⟩
  | .local _ .vmem, ⟨10, _⟩ => ⟨S1x2048, .f32⟩
  | .local _ .vmem, ⟨11, _⟩ => ⟨S1x2048, .f32⟩
  | .local _ .vmem, ⟨12, _⟩ => ⟨S1024x2048, .f32⟩
  | .local _ .vmem, ⟨13, _⟩ => ⟨S1024x2048, .f32⟩
  | .local _ .vmem, ⟨14, _⟩ => ⟨S1024x2048, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨2, ![4, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x128 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x16 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨3, ![8, 2, 16], ![false, false, false]⟩

def k1_cond2 (i : grid1.Coords) : BitVec 1 :=
  let arg2 : BitVec 32 := BitVec.ofNat 32 (i 2).val
  let c15_i32 : BitVec 32 := 15#32
  let v13 : BitVec 1 := Scalar.cmpi .eq arg2 c15_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S2048x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true, false]

abbrev stage1_3 : Fin 2 → Memref sig .tc .vmem S1024x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

class Facts₀ : Prop where
  slices_S32x4096x2_S32x4096x1_0_0_0 : S32x4096x2.Slices ![0, 0, 0] S32x4096x1
  shapeCasts_S32x4096x1_S32x4096 : S32x4096x1.ShapeCasts S32x4096
  slices_S32x4096x2_S32x4096x1_0_0_1 : S32x4096x2.Slices ![0, 0, 1] S32x4096x1
  bcast_S4096x16_S1x4096x16_1_2 : S4096x16.BroadcastsInDim S1x4096x16 (![1, 2] : Fin 2 → Fin S1x4096x16.rank)
  bcast_S32x4096_S32x4096x1_0_1 : S32x4096.BroadcastsInDim S32x4096x1 (![0, 1] : Fin 2 → Fin S32x4096x1.rank)
  bcast_S1x4096x16_S32x4096x16_0_1_2 : S1x4096x16.BroadcastsInDim S32x4096x16 (![0, 1, 2] : Fin 3 → Fin S32x4096x16.rank)
  bcast_S32x4096x1_S32x4096x16_0_1_2 : S32x4096x1.BroadcastsInDim S32x4096x16 (![0, 1, 2] : Fin 3 → Fin S32x4096x16.rank)
  bitsLt_bf16_f32 : FTy.bits .bf16 < FTy.bits .f32
  inb_S1024x128_S1024x128_0_0 : ∀ a, (![0, 0] : Fin 2 → Nat) a + S1024x128.size a ≤ S1024x128.size a
  h_S1024x128 : 0 < S1024x128.numel
  inb_S1x1024x16_S1x1024x16_0_0_0 : ∀ a, (![0, 0, 0] : Fin 3 → Nat) a + S1x1024x16.size a ≤ S1x1024x16.size a
  h_S1x1024x16 : 0 < S1x1024x16.numel
  shapeCasts_S1x1024x16_S1024x16 : S1x1024x16.ShapeCasts S1024x16
  slices_S1024x16_o0_0_S1024x1 : S1024x16.Slices ![0, 0] S1024x1
  shapeCasts_S1024x1_S1024x1 : S1024x1.ShapeCasts S1024x1
  broadcasts_S1024x1_S1024x128 : S1024x1.Broadcasts S1024x128
  slices_S1024x16_o0_1_S1024x1 : S1024x16.Slices ![0, 1] S1024x1
  slices_S1024x16_o0_2_S1024x1 : S1024x16.Slices ![0, 2] S1024x1
  slices_S1024x16_o0_3_S1024x1 : S1024x16.Slices ![0, 3] S1024x1
  slices_S1024x16_o0_4_S1024x1 : S1024x16.Slices ![0, 4] S1024x1
  slices_S1024x16_o0_5_S1024x1 : S1024x16.Slices ![0, 5] S1024x1
  slices_S1024x16_o0_6_S1024x1 : S1024x16.Slices ![0, 6] S1024x1
  slices_S1024x16_o0_7_S1024x1 : S1024x16.Slices ![0, 7] S1024x1
  slices_S1024x16_o0_8_S1024x1 : S1024x16.Slices ![0, 8] S1024x1
  slices_S1024x16_o0_9_S1024x1 : S1024x16.Slices ![0, 9] S1024x1
  slices_S1024x16_o0_10_S1024x1 : S1024x16.Slices ![0, 10] S1024x1
  slices_S1024x16_o0_11_S1024x1 : S1024x16.Slices ![0, 11] S1024x1
  slices_S1024x16_o0_12_S1024x1 : S1024x16.Slices ![0, 12] S1024x1
  slices_S1024x16_o0_13_S1024x1 : S1024x16.Slices ![0, 13] S1024x1
  slices_S1024x16_o0_14_S1024x1 : S1024x16.Slices ![0, 14] S1024x1
  slices_S1024x16_o0_15_S1024x1 : S1024x16.Slices ![0, 15] S1024x1
  packedbf16_S1024x128_S1024x128_0_0 : (Rect.unit (s := S1024x128) ![0, 0] S1024x128.size inb_S1024x128_S1024x128_0_0).PackedRows (EltTy.packing .bf16)
  shapeCasts_S4096_S1x4096 : S4096.ShapeCasts S1x4096
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1024x256_S1024x256_0_0 : ∀ a, (![0, 0] : Fin 2 → Nat) a + S1024x256.size a ≤ S1024x256.size a
  h_S1024x256 : 0 < S1024x256.numel
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S1024x2048 : S1x2048.Broadcasts S1024x2048
  dot_S1024x256_S2048x256_S1024x2048_1_1_0_0_n_n_wf : DotDims.WF S1024x256 S2048x256 S1024x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S4096x4096.size a
  hwx0_0 : ∀ i : grid0.Coords, EltTy.bits .i32 = 32 ∨ (Rect.block (s := S4096x4096) S1024x128.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x16.size a ≤ S32x4096x16.size a
  hwx0_1 : ∀ i : grid0.Coords, EltTy.bits .bf16 = 32 ∨ (Rect.block (s := S32x4096x16) S1x1024x16.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x128.size a ≤ S4096x4096.size a
  hwx0_2 : ∀ i : grid0.Coords, EltTy.bits .bf16 = 32 ∨ (Rect.block (s := S4096x4096) S1024x128.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x256.size a ≤ S8192x4096.size a
  hwx1_0 : ∀ i : grid1.Coords, EltTy.bits .f32 = 32 ∨ (Rect.block (s := S8192x4096) S1024x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x256.size a ≤ S4096x4096.size a
  hwx1_1 : ∀ i : grid1.Coords, EltTy.bits .bf16 = 32 ∨ (Rect.block (s := S4096x4096) S2048x256.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048.size a ≤ S1x4096.size a
  hwx1_2 : ∀ i : grid1.Coords, EltTy.bits .f32 = 32 ∨ (Rect.block (s := S1x4096) S1x2048.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x2048.size a ≤ S8192x4096.size a
  hwx1_3 : ∀ i : grid1.Coords, EltTy.bits .f32 = 32 ∨ (Rect.block (s := S8192x4096) S1024x2048.size (cc1_transform_3 i) (hinb1_3 i)).WholeWords (EltTy.packing .f32)

variable [Facts₀]

def dot_S1024x256_S2048x256_S1024x2048_1_1_0_0_n_n : DotDims S1024x256 S2048x256 S1024x2048 where
  lhsContracting := [1]
  rhsContracting := [1]
  lhsNonContracting := [0]
  rhsNonContracting := [0]
  lhsBatch := []
  rhsBatch := []
  wf := dot_S1024x256_S2048x256_S1024x2048_1_1_0_0_n_n_wf

abbrev win0_0 : Pipeline.Window sig grid0 :=
  Pipeline.Window.ofSpec (Memref.whole main_arg1) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S1x1024x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v13) S1024x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S1024x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v13) S2048x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v14) S1x2048.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v15) S1024x2048.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S8192x4096 : Shape := ⟨2, ![8192, 4096]⟩
abbrev S4096x4096 : Shape := ⟨2, ![4096, 4096]⟩
abbrev S4096x16 : Shape := ⟨2, ![4096, 16]⟩
abbrev S32x4096x2 : Shape := ⟨3, ![32, 4096, 2]⟩
abbrev S4096 : Shape := ⟨1, ![4096]⟩
abbrev S_ : Shape := ⟨0, ![]⟩
abbrev S4096x4096x1 : Shape := ⟨3, ![4096, 4096, 1]⟩
abbrev S1 : Shape := ⟨1, ![1]⟩
abbrev S1x1x1 : Shape := ⟨3, ![1, 1, 1]⟩
abbrev S32x4096x1 : Shape := ⟨3, ![32, 4096, 1]⟩
abbrev S32x4096 : Shape := ⟨2, ![32, 4096]⟩
abbrev S4096x32 : Shape := ⟨2, ![4096, 32]⟩
abbrev S4096x32x128 : Shape := ⟨3, ![4096, 32, 128]⟩
abbrev S4096x32x1 : Shape := ⟨3, ![4096, 32, 1]⟩
abbrev S1x4096 : Shape := ⟨2, ![1, 4096]⟩

abbrev nBuf : Space → Nat
  | .hbm => 45
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .i32⟩
  | .hbm, ⟨2, _⟩ => ⟨S4096x16, .f32⟩
  | .hbm, ⟨3, _⟩ => ⟨S32x4096x2, .f32⟩
  | .hbm, ⟨4, _⟩ => ⟨S4096, .f32⟩
  | .hbm, ⟨5, _⟩ => ⟨S_, .i32⟩
  | .hbm, ⟨6, _⟩ => ⟨S4096x4096, .i32⟩
  | .hbm, ⟨7, _⟩ => ⟨S4096x4096, .i1⟩
  | .hbm, ⟨8, _⟩ => ⟨S_, .i32⟩
  | .hbm, ⟨9, _⟩ => ⟨S4096x4096, .i32⟩
  | .hbm, ⟨10, _⟩ => ⟨S4096x4096, .i32⟩
  | .hbm, ⟨11, _⟩ => ⟨S4096x4096, .i32⟩
  | .hbm, ⟨12, _⟩ => ⟨S4096x4096x1, .i32⟩
  | .hbm, ⟨13, _⟩ => ⟨S1, .i32⟩
  | .hbm, ⟨14, _⟩ => ⟨S_, .i32⟩
  | .hbm, ⟨15, _⟩ => ⟨S4096x4096x1, .i32⟩
  | .hbm, ⟨16, _⟩ => ⟨S4096x4096x1, .i1⟩
  | .hbm, ⟨17, _⟩ => ⟨S1x1x1, .i32⟩
  | .hbm, ⟨18, _⟩ => ⟨S4096x4096x1, .i32⟩
  | .hbm, ⟨19, _⟩ => ⟨S4096x4096x1, .i1⟩
  | .hbm, ⟨20, _⟩ => ⟨S4096x4096x1, .i1⟩
  | .hbm, ⟨21, _⟩ => ⟨S_, .i1⟩
  | .hbm, ⟨22, _⟩ => ⟨S4096x4096, .i1⟩
  | .hbm, ⟨23, _⟩ => ⟨S4096x4096, .f32⟩
  | .hbm, ⟨24, _⟩ => ⟨S_, .f32⟩
  | .hbm, ⟨25, _⟩ => ⟨S4096x4096, .f32⟩
  | .hbm, ⟨26, _⟩ => ⟨S4096x4096, .f32⟩
  | .hbm, ⟨27, _⟩ => ⟨S32x4096x1, .f32⟩
  | .hbm, ⟨28, _⟩ => ⟨S32x4096, .f32⟩
  | .hbm, ⟨29, _⟩ => ⟨S4096x32, .f32⟩
  | .hbm, ⟨30, _⟩ => ⟨S32x4096x1, .f32⟩
  | .hbm, ⟨31, _⟩ => ⟨S32x4096, .f32⟩
  | .hbm, ⟨32, _⟩ => ⟨S4096x32, .f32⟩
  | .hbm, ⟨33, _⟩ => ⟨S4096x32x128, .f32⟩
  | .hbm, ⟨34, _⟩ => ⟨S4096x32x1, .f32⟩
  | .hbm, ⟨35, _⟩ => ⟨S4096x32x128, .f32⟩
  | .hbm, ⟨36, _⟩ => ⟨S4096x32x128, .f32⟩
  | .hbm, ⟨37, _⟩ => ⟨S4096x32x1, .f32⟩
  | .hbm, ⟨38, _⟩ => ⟨S4096x32x128, .f32⟩
  | .hbm, ⟨39, _⟩ => ⟨S4096x32x128, .f32⟩
  | .hbm, ⟨40, _⟩ => ⟨S4096x4096, .f32⟩
  | .hbm, ⟨41, _⟩ => ⟨S8192x4096, .f32⟩
  | .hbm, ⟨42, _⟩ => ⟨S1x4096, .f32⟩
  | .hbm, ⟨43, _⟩ => ⟨S8192x4096, .f32⟩
  | .hbm, ⟨44, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_c : Ref sig .tc := ⟨.hbm, 5, rfl⟩
abbrev main_call0_v0 : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_c_1 : Ref sig .tc := ⟨.hbm, 13, rfl⟩
abbrev main_call0_c_2 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_3 : Ref sig .tc := ⟨.hbm, 21, rfl⟩
abbrev main_call0_v12 : Ref sig .tc := ⟨.hbm, 22, rfl⟩
abbrev main_call0_v13 : Ref sig .tc := ⟨.hbm, 23, rfl⟩
abbrev main_call0_cst : Ref sig .tc := ⟨.hbm, 24, rfl⟩
abbrev main_call0_v14 : Ref sig .tc := ⟨.hbm, 25, rfl⟩
abbrev main_v0 : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩

abbrev nD : Nat := 1
abbrev τ : Topo := Topo.v7x

variable {F : FTy → Type} [FloatOps F]

class Facts₀ : Prop where
  bcast_S_S4096x4096 : S_.BroadcastsInDim S4096x4096 (![] : Fin 0 → Fin S4096x4096.rank)
  shapeCasts_S4096x4096_S4096x4096x1 : S4096x4096.ShapeCasts S4096x4096x1
  bcast_S_S4096x4096x1 : S_.BroadcastsInDim S4096x4096x1 (![] : Fin 0 → Fin S4096x4096x1.rank)
  bcast_S1_S1x1x1_2 : S1.BroadcastsInDim S1x1x1 (![2] : Fin 1 → Fin S1x1x1.rank)
  bcast_S1x1x1_S4096x4096x1_0_1_2 : S1x1x1.BroadcastsInDim S4096x4096x1 (![0, 1, 2] : Fin 3 → Fin S4096x4096x1.rank)
  reducesTo_S4096x4096x1_S4096x4096_d2 : S4096x4096x1.ReducesTo [2] S4096x4096
  h_S_ : 0 < S_.numel
  slices_S32x4096x2_S32x4096x1_0_0_0 : S32x4096x2.Slices ![0, 0, 0] S32x4096x1
  shapeCasts_S32x4096x1_S32x4096 : S32x4096x1.ShapeCasts S32x4096
  transposes_S32x4096_S4096x32_1_0 : S32x4096.Transposes [1, 0] S4096x32
  slices_S32x4096x2_S32x4096x1_0_0_1 : S32x4096x2.Slices ![0, 0, 1] S32x4096x1
  shapeCasts_S4096x4096_S4096x32x128 : S4096x4096.ShapeCasts S4096x32x128
  bcast_S4096x32_S4096x32x1_0_1 : S4096x32.BroadcastsInDim S4096x32x1 (![0, 1] : Fin 2 → Fin S4096x32x1.rank)
  bcast_S4096x32x1_S4096x32x128_0_1_2 : S4096x32x1.BroadcastsInDim S4096x32x128 (![0, 1, 2] : Fin 3 → Fin S4096x32x128.rank)
  shapeCasts_S4096x32x128_S4096x4096 : S4096x32x128.ShapeCasts S4096x4096
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  gather_S4096x16_S4096x4096x1_S4096x4096_n_1_0_0_1_2_11_wf : GatherDims.WF S4096x16 S4096x4096x1 S4096x4096 [] [1] [0] [1] [0] 2 ![1, 1]
  dot_S8192x4096_S4096x4096_S8192x4096_1_1_0_0_n_n_wf : DotDims.WF S8192x4096 S4096x4096 S8192x4096 [1] [1] [0] [0] [] []

variable [Facts₀]

def gather_S4096x16_S4096x4096x1_S4096x4096_n_1_0_0_1_2_11 : GatherDims S4096x16 S4096x4096x1 S4096x4096 where
  offsetDims := []
  collapsedSliceDims := [1]
  operandBatchingDims := [0]
  startIndicesBatchingDims := [0]
  startIndexMap := [1]
  indexVectorDim := 2
  sliceSizes := ![1, 1]
  wf := gather_S4096x16_S4096x4096x1_S4096x4096_n_1_0_0_1_2_11_wf
def dot_S8192x4096_S4096x4096_S8192x4096_1_1_0_0_n_n : DotDims S8192x4096 S4096x4096 S8192x4096 where
  lhsContracting := [1]
  rhsContracting := [1]
  lhsNonContracting := [0]
  rhsNonContracting := [0]
  lhsBatch := []
  rhsBatch := []
  wf := dot_S8192x4096_S4096x4096_S8192x4096_1_1_0_0_n_n_wf

class Facts : Prop extends Facts₀ where

variable [Facts]
-- ==== Proof.KReg0.lean ====
/-
  The first pallas_call (the 16-way table lookup that turns 4-bit codes into bf16 weights), as a pipeline
  region entered at arbitrary buffer contents `V`: what each grid point leaves in the output tile, the
  proof data of the pipeline, and the body's Hoare triple at every point.
-/
import proofs.«404060_j2997887172647_3_alg».proof.Proof.Gen.Kernel.Launch
import proofs.«404060_j2997887172647_3_alg».proof.Proof.Gen.Kernel.Skeleton
import proofs.«404060_j2997887172647_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s tile at grid point `t`, cut out of the array the region finds. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The tile the body stores: from a tile of codes `x0` (1024 rows × 128 columns) and the group's table `x1`
    (1 × 1024 rows × 16 entries) the entry each clamped code selects, the 16 selects nested as the body nests them. -/
def deqTile (x0 : Vec F S1024x128 .i32) (x1 : Vec F S1x1024x16 .bf16) : Vec F S1024x128 .bf16 :=
  k0_pay1 (k0_pay2 x0) (k0_pay3 x1) (k0_pay5 (k0_pay2 x0) (k0_pay3 x1) (k0_pay4 x0 x1)) (k0_pay6 (k0_pay3 x1)) (k0_pay7 (k0_pay2 x0))

/-- The pipeline's proof data: arrays as found, inputs left in place, the output tile at `deqTile` of the two input
    tiles; nothing carried between points. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => deqTile (blk0 V c 0 t) (blk0 V c 1 t)
  Φ _ := Pipeline.ΦA spec0 c
  q _ := fullShare
  owed _ := 0

theorem dat0_A (c : Dev nD) (w : Fin cfg0.W) : (dat0 V c).A w = V c (Pipeline.arrRef spec0 w) := by
  dsimp only [dat0]
theorem dat0_after_0 (c : Dev nD) (t : Fin cfg0.N) : (dat0 V c).after 0 t = blk0 V c 0 t := by dsimp only [dat0]
theorem dat0_after_1 (c : Dev nD) (t : Fin cfg0.N) : (dat0 V c).after 1 t = blk0 V c 1 t := by dsimp only [dat0]
theorem dat0_after_2 (c : Dev nD) (t : Fin cfg0.N) : (dat0 V c).after 2 t = deqTile (blk0 V c 0 t) (blk0 V c 1 t) := by dsimp only [dat0]

/-! ## The input tiles in the staging buffers -/

/-- The code tile's window is fetched at every grid point, and the window is uncut: the staging buffer the body is
    handed holds exactly the tile of the array as the region found it. -/
theorem before0_0 (c : Dev nD) (t : Fin cfg0.N) (d) : (dat0 V c).before 0 t d = blk0 V c 0 t := by
  rw [Dat.before_fetched (dat0 V c) 0 t (fetch0_0 t) d]
  unfold Dat.fetched Dat.blockOf blk0
  rw [dat0_A]
  rfl

/-- Likewise the table's window. -/
theorem before0_1 (c : Dev nD) (t : Fin cfg0.N) (d) : (dat0 V c).before 1 t d = blk0 V c 1 t := by
  rw [Dat.before_fetched (dat0 V c) 1 t (fetch0_1 t) d]
  unfold Dat.fetched Dat.blockOf blk0
  rw [dat0_A]
  rfl

/-! ## The body on whole tiles -/

/-- The one store of the body spans the whole output tile, so every index of the tile lies in its rectangle. -/
theorem store_covers0 (p : Vec F S1024x128 .bf16) (y : S1024x128.Idx) :
    ∃ pc ∈ ([⟨Rect.unit (s := S1024x128) ![0, 0] S1024x128.size inb_S1024x128_S1024x128_0_0, p⟩] :
        List (View.Piece (Elt F) S1024x128 .bf16)), y ∈ pc.1.set :=
  View.cover_of_tiled _ S1024x128.size (by rfl) y

set_option maxHeartbeats 1000000 in
/-- The body run on three whole tiles: the code tile at `x0`, the table tile at `x1`, the output tile at anything.
    It reads the two inputs, leaves them as they were, and overwrites all of the output tile with the selected
    table entries `deqTile x0 x1` (the value it loads from the output tile first is never used). -/
theorem dequant_triple (c : Dev nD) (E : Set ℕ) (i : grid0.Coords)
    (arg2 : Memref sig .tc .vmem S1024x128 .i32) (harg2 : arg2.IsWhole)
    (arg3 : Memref sig .tc .vmem S1x1024x16 .bf16) (harg3 : arg3.IsWhole)
    (arg4 : Memref sig .tc .vmem S1024x128 .bf16) (harg4 : arg4.IsWhole)
    (x0 : Vec F S1024x128 .i32) (x1 : Vec F S1x1024x16 .bf16) (K : PUnit → sProp 𝕄) :
    iprop(owns (c : Thread nD τ) arg2 fullShare x0 ∗ owns (c : Thread nD τ) arg3 fullShare x1
        ∗ (∃ d, owns (c : Thread nD τ) arg4 fullShare d)
        ∗ (iprop(owns (c : Thread nD τ) arg2 fullShare x0 ∗ owns (c : Thread nD τ) arg3 fullShare x1
            ∗ owns (c : Thread nD τ) arg4 fullShare (deqTile x0 x1)) -∗ K ⟨⟩))
      ⊢ wp frame (wpE (defs₀ (F := F)) Variants.none c none) E
          (cc0__dequant_kernel i arg2 harg2 arg3 harg3 arg4 harg4) K := by
  simp only [cc0__dequant_kernel_eq_skeleton]; unfold cc0__dequant_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  rw [View.read_writes_eq_canon _ _ _ (store_covers0 _)]
  rw [View.canon_unit_zero (by funext a; fin_cases a <;> rfl)]
  unfold deqTile
  sl_unfold_words
  have hz2 : (![0, 0] : Fin S1024x128.rank → ℕ) = fun _ => 0 := by funext a; fin_cases a <;> rfl
  have hz3 : (![0, 0, 0] : Fin S1x1024x16.rank → ℕ) = fun _ => 0 := by funext a; fin_cases a <;> rfl
  simp only [View.readAt_eq_ld, View.ld_unit_zero (S := S1024x128) hz2, View.ld_unit_zero (S := S1x1024x16) hz3]
  rfl

/-- The body meets the pipeline's obligation at every grid point. -/
theorem body_obligation0 (c : Dev nD) : BodyObligation (dat0 (F := F) V c) (defs₀ (F := F)) Variants.none () Set.univ := by
  intro t
  rw [bigSep_W0, bigSep_W0]
  -- No window is forgotten or idle, the invariant is the same at every point and nothing is ever owed: the
  -- obligation at `t` is the body's triple between plain ownerships of the three current staging tiles.
  change iprop((dat0 V c).Φ t.castSucc ∗ (dat0 V c).owesAt () t.castSucc
        ∗ (∃ d, owns (c : Thread nD τ) (st0_0 t) fullShare ((dat0 V c).before 0 t d))
        ∗ (∃ d, owns (c : Thread nD τ) (st0_1 t) fullShare ((dat0 V c).before 1 t d))
        ∗ (∃ d, owns (c : Thread nD τ) (st0_2 t) fullShare ((dat0 V c).before 2 t d)))
      ⊢ wp frame (wpE (defs₀ (F := F)) Variants.none c none) Set.univ (bodyAt0 t) (fun _ =>
          iprop((dat0 V c).Φ t.castSucc ∗ (dat0 V c).owesAt () t.castSucc
            ∗ owns (c : Thread nD τ) (st0_0 t) fullShare ((dat0 V c).after 0 t)
            ∗ owns (c : Thread nD τ) (st0_1 t) fullShare ((dat0 V c).after 1 t)
            ∗ owns (c : Thread nD τ) (st0_2 t) fullShare ((dat0 V c).after 2 t)))
  -- the two inputs' buffers hold their tiles; what the body must leave is named by the proof data
  simp only [before0_0, before0_1, dat0_after_0, dat0_after_1, dat0_after_2]
  iintro ⟨HΦ, Ho, ⟨%d0, H0⟩, ⟨%d1, H1⟩, ⟨%d2, H2⟩⟩
  iapply (dequant_triple c Set.univ _ _ _ _ _ _ _ (blk0 V c 0 t) (blk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

end Cert.Kernel.Hand

end
-- ==== Proof.KReg1.lean ====
/-
  The second pallas_call (the K-blocked matmul with a carried accumulator), as a pipeline region entered at
  arbitrary buffer contents `V`: the accumulator after every grid point, what the output tile receives at the
  last K-step, the region invariant that carries the accumulator, the proof data and the body's triple.
-/
import proofs.«404060_j2997887172647_3_alg».proof.Proof.Gen.Kernel.Launch
import proofs.«404060_j2997887172647_3_alg».proof.Proof.Gen.Kernel.Skeleton
import proofs.«404060_j2997887172647_3_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s tile at grid point `t`, cut out of the array the region finds. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The accumulator scratch as a memref. -/
abbrev accM : Memref sig .tc .vmem S1024x2048 .f32 := Memref.whole cc1_scratch0

/-- One K-step: the accumulator `a` plus the product of the activation tile `x` (rounded to bf16) with the weight tile `w`. -/
def accStep (x : Vec F S1024x256 .f32) (w : Vec F S2048x256 .bf16) (a : Vec F S1024x2048 .f32) : Vec F S1024x2048 .f32 :=
  k1_pay2 x w a
/-- The accumulator's reset value (all zero). -/
def accZero : Vec F S1024x2048 .f32 := k1_pay1 (F := F)
/-- What the last K-step writes out: accumulator plus the bias row broadcast down the rows. -/
def withBias (a : Vec F S1024x2048 .f32) (b : Vec F S1x2048 .f32) : Vec F S1024x2048 .f32 := k1_pay3 a b

/-- The accumulator after grid point `n` (points run with the K index fastest, 16 K-steps per output tile):
    reset at every K-step 0, otherwise continued from the point before. -/
def accAt1 (c : Dev nD) : (n : ℕ) → n < cfg1.N → Vec F S1024x2048 .f32
  | 0, hn => accStep (blk1 V c 0 ⟨0, hn⟩) (blk1 V c 1 ⟨0, hn⟩) accZero
  | n + 1, hn =>
    if (n + 1) % 16 = 0 then accStep (blk1 V c 0 ⟨n + 1, hn⟩) (blk1 V c 1 ⟨n + 1, hn⟩) accZero
    else accStep (blk1 V c 0 ⟨n + 1, hn⟩) (blk1 V c 1 ⟨n + 1, hn⟩) (accAt1 c n (Nat.lt_of_succ_lt hn))

theorem accAt1_reset (c : Dev nD) (t : Fin cfg1.N) (h : t.val % 16 = 0) :
    accAt1 V c t.val t.isLt = accStep (blk1 V c 0 t) (blk1 V c 1 t) accZero := by
  obtain ⟨n, hn⟩ := t
  cases n with
  | zero => rfl
  | succ n => exact if_pos h

theorem accAt1_step (c : Dev nD) (t : Fin cfg1.N) (h : ¬ t.val % 16 = 0) :
    accAt1 V c t.val t.isLt = accStep (blk1 V c 0 t) (blk1 V c 1 t)
      (accAt1 V c (t.val - 1) (Nat.lt_of_le_of_lt (Nat.sub_le _ _) t.isLt)) := by
  obtain ⟨n, hn⟩ := t
  cases n with
  | zero => exact absurd (Nat.zero_mod _) h
  | succ n => exact if_neg h

/-- The core's scoped buffers other than the accumulator scratch (the first region's staging buffers), each at some contents. -/
def otherScoped (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f))

/-- The region invariant before grid point `n`: before the first point the scratch holds anything (the plain class
    invariant); afterwards it holds the accumulator the point before left. -/
def inv1 (c : Dev nD) : (n : ℕ) → n ≤ cfg1.N → sProp 𝕄
  | 0, _ => Pipeline.ΦA spec1 c
  | n + 1, hn => iprop(otherScoped (F := F) c ∗ owns (c : Thread nD τ) accM fullShare (accAt1 V c n hn) ∗ (∃ r, prngReg c r))

/-- The pipeline's proof data: arrays as found, inputs left in place, the output tile at accumulator-plus-bias
    (consulted only at the last K-step, where it is stored and written back), the invariant carrying the accumulator. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => withBias (accAt1 V c t.val t.isLt) (blk1 V c 2 t)
  Φ t := inv1 V c t.val (Nat.le_of_lt_succ t.isLt)
  q _ := fullShare
  owed _ := 0

theorem dat1_A (c : Dev nD) (w : Fin cfg1.W) : (dat1 V c).A w = V c (Pipeline.arrRef spec1 w) := by
  dsimp only [dat1]
theorem dat1_after_0 (c : Dev nD) (t : Fin cfg1.N) : (dat1 V c).after 0 t = blk1 V c 0 t := by dsimp only [dat1]
theorem dat1_after_1 (c : Dev nD) (t : Fin cfg1.N) : (dat1 V c).after 1 t = blk1 V c 1 t := by dsimp only [dat1]
theorem dat1_after_2 (c : Dev nD) (t : Fin cfg1.N) : (dat1 V c).after 2 t = blk1 V c 2 t := by dsimp only [dat1]
theorem dat1_after_3 (c : Dev nD) (t : Fin cfg1.N) :
    (dat1 V c).after 3 t = withBias (accAt1 V c t.val t.isLt) (blk1 V c 2 t) := by dsimp only [dat1]

/-! ## The body's branch conditions over the grid -/

/-- The condition of the reset branch (K-step 0), from the grid coordinates. -/
abbrev cond1_0 (i : grid1.Coords) : Prop :=
  (Scalar.cmpi .ne (Scalar.extui (Scalar.cmpi .eq (BitVec.ofNat 32 (i 2).val) 0#32)) 0#32) = 1#1
/-- The condition of the write-out branch (K-step 15). -/
abbrev cond1_1 (i : grid1.Coords) : Prop := k1_cond2 i = 1#1

/-- Both offsets zero, however spelt. -/
theorem off1_zero : (![0, 0] : Fin 2 → ℕ) = fun _ => 0 := by
  funext a; fin_cases a <;> rfl

/-- Stores into a tile of the accumulator's shape, the last of them over all of it: the buffer then reads as that store's payload. -/
theorem acc1_read_last (v : View sig .tc .vmem S1024x2048 .f32) (f : v.ty.Contents (Elt F))
    (p : Vec F S1024x2048 .f32) (L : List (View.Piece (Elt F) S1024x2048 .f32)) :
    v.read (Elt F) (v.writes (Elt F) f
      ((⟨Rect.unit ![0, 0] S1024x2048.size inb_S1024x2048_S1024x2048_0_0, p⟩ : View.Piece (Elt F) S1024x2048 .f32) :: L)) = p := by
  rw [View.read_writes_eq_canon _ _ _ (fun y => ⟨_, List.mem_cons.mpr (Or.inl rfl),
      View.mem_set_unit_zero off1_zero inb_S1024x2048_S1024x2048_0_0 y⟩),
    View.canon_cons_unit_zero off1_zero]

/-! ## The body on whole memrefs, one triple per control case, with explicit contents -/

set_option maxHeartbeats 1000000 in
/-- K-step 0: the scratch (at anything) is zeroed, then holds one product; the output tile is handed back as found. -/
theorem run1A (c : Dev nD) (i : grid1.Coords)
    (arg3 : Memref sig .tc .vmem S1024x256 .f32) (harg3 : arg3.IsWhole)
    (arg4 : Memref sig .tc .vmem S2048x256 .bf16) (harg4 : arg4.IsWhole)
    (arg5 : Memref sig .tc .vmem S1x2048 .f32) (harg5 : arg5.IsWhole)
    (arg6 : Memref sig .tc .vmem S1024x2048 .f32) (harg6 : arg6.IsWhole)
    (arg7 : Memref sig .tc .vmem S1024x2048 .f32) (harg7 : arg7.IsWhole)
    (hc0 : cond1_0 i) (hc1 : ¬cond1_1 i)
    (x : Vec F S1024x256 .f32) (w : Vec F S2048x256 .bf16) (b : Vec F S1x2048 .f32) (o : Vec F S1024x2048 .f32)
    (E : Set ℕ) (K : PUnit → sProp 𝕄) :
    iprop(owns (c : Thread nD τ) arg3 fullShare x ∗ owns (c : Thread nD τ) arg4 fullShare w
        ∗ owns (c : Thread nD τ) arg5 fullShare b ∗ owns (c : Thread nD τ) arg6 fullShare o
        ∗ (∃ d, owns (c : Thread nD τ) arg7 fullShare d)
        ∗ (iprop(owns (c : Thread nD τ) arg3 fullShare x ∗ owns (c : Thread nD τ) arg4 fullShare w
            ∗ owns (c : Thread nD τ) arg5 fullShare b ∗ owns (c : Thread nD τ) arg6 fullShare o
            ∗ owns (c : Thread nD τ) arg7 fullShare (accStep x w accZero)) -∗ K ⟨⟩))
      ⊢ wp frame (wpE (defs₀ (F := F)) Variants.none c none) E
          (cc1__matmul_kernel i arg3 harg3 arg4 harg4 arg5 harg5 arg6 harg6 arg7 harg7) K := by
  simp only [cc1__matmul_kernel_eq_skeleton]; unfold cc1__matmul_kernel_skel
  unfold owns
  iintro ⟨⟨%f3, %hf3, H3⟩, ⟨%f4, %hf4, H4⟩, ⟨%f5, %hf5, H5⟩, ⟨%f6, %hf6, H6⟩, ⟨%d7, %f7, -, H7⟩, Hk⟩
  obtain rfl := harg3.eq_unread hf3; obtain rfl := harg4.eq_unread hf4
  obtain rfl := harg5.eq_unread hf5; obtain rfl := harg6.eq_unread hf6
  sl_exec (disch := first | exact hc0 | exact hc1)
  sl_step
  iapply Hk
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  iexists _; isplitr
  swap; · iexact H7
  ipureintro
  sl_unfold_words
  rw [acc1_read_last]
  simp only [View.readAt_eq_ld, Memref.IsWhole.read_unread, View.ld_unit_zero (S := S1024x256) off1_zero,
    View.ld_unit_zero (S := S2048x256) off1_zero, View.ld_unit_zero (S := S1024x2048) off1_zero, View.ld_unit_zero (S := S1x2048) off1_zero,
    View.readCov_unit_zero (S := S1024x2048) _ off1_zero]
  rfl

set_option maxHeartbeats 1000000 in
/-- A middle K-step: one more product onto the scratch; the output tile is handed back as found. -/
theorem run1B (c : Dev nD) (i : grid1.Coords)
    (arg3 : Memref sig .tc .vmem S1024x256 .f32) (harg3 : arg3.IsWhole)
    (arg4 : Memref sig .tc .vmem S2048x256 .bf16) (harg4 : arg4.IsWhole)
    (arg5 : Memref sig .tc .vmem S1x2048 .f32) (harg5 : arg5.IsWhole)
    (arg6 : Memref sig .tc .vmem S1024x2048 .f32) (harg6 : arg6.IsWhole)
    (arg7 : Memref sig .tc .vmem S1024x2048 .f32) (harg7 : arg7.IsWhole)
    (hc0 : ¬cond1_0 i) (hc1 : ¬cond1_1 i)
    (x : Vec F S1024x256 .f32) (w : Vec F S2048x256 .bf16) (b : Vec F S1x2048 .f32) (o : Vec F S1024x2048 .f32)
    (a : Vec F S1024x2048 .f32) (E : Set ℕ) (K : PUnit → sProp 𝕄) :
    iprop(owns (c : Thread nD τ) arg3 fullShare x ∗ owns (c : Thread nD τ) arg4 fullShare w
        ∗ owns (c : Thread nD τ) arg5 fullShare b ∗ owns (c : Thread nD τ) arg6 fullShare o
        ∗ owns (c : Thread nD τ) arg7 fullShare a
        ∗ (iprop(owns (c : Thread nD τ) arg3 fullShare x ∗ owns (c : Thread nD τ) arg4 fullShare w
            ∗ owns (c : Thread nD τ) arg5 fullShare b ∗ owns (c : Thread nD τ) arg6 fullShare o
            ∗ owns (c : Thread nD τ) arg7 fullShare (accStep x w a)) -∗ K ⟨⟩))
      ⊢ wp frame (wpE (defs₀ (F := F)) Variants.none c none) E
          (cc1__matmul_kernel i arg3 harg3 arg4 harg4 arg5 harg5 arg6 harg6 arg7 harg7) K := by
  simp only [cc1__matmul_kernel_eq_skeleton]; unfold cc1__matmul_kernel_skel
  unfold owns
  iintro ⟨⟨%f3, %hf3, H3⟩, ⟨%f4, %hf4, H4⟩, ⟨%f5, %hf5, H5⟩, ⟨%f6, %hf6, H6⟩, ⟨%f7, %hf7, H7⟩, Hk⟩
  obtain rfl := harg3.eq_unread hf3; obtain rfl := harg4.eq_unread hf4
  obtain rfl := harg5.eq_unread hf5; obtain rfl := harg6.eq_unread hf6; obtain rfl := harg7.eq_unread hf7
  sl_exec (disch := first | exact hc0 | exact hc1)
  sl_step
  iapply Hk
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  iexists _; isplitr
  swap; · iexact H7
  ipureintro
  sl_unfold_words
  rw [acc1_read_last]
  simp only [View.readAt_eq_ld, Memref.IsWhole.read_unread, View.ld_unit_zero (S := S1024x256) off1_zero,
    View.ld_unit_zero (S := S2048x256) off1_zero, View.ld_unit_zero (S := S1024x2048) off1_zero]
  rfl

set_option maxHeartbeats 1000000 in
/-- K-step 15: one more product onto the scratch, then scratch plus bias stored over the whole output tile (found at anything). -/
theorem run1C (c : Dev nD) (i : grid1.Coords)
    (arg3 : Memref sig .tc .vmem S1024x256 .f32) (harg3 : arg3.IsWhole)
    (arg4 : Memref sig .tc .vmem S2048x256 .bf16) (harg4 : arg4.IsWhole)
    (arg5 : Memref sig .tc .vmem S1x2048 .f32) (harg5 : arg5.IsWhole)
    (arg6 : Memref sig .tc .vmem S1024x2048 .f32) (harg6 : arg6.IsWhole)
    (arg7 : Memref sig .tc .vmem S1024x2048 .f32) (harg7 : arg7.IsWhole)
    (hc0 : ¬cond1_0 i) (hc1 : cond1_1 i)
    (x : Vec F S1024x256 .f32) (w : Vec F S2048x256 .bf16) (b : Vec F S1x2048 .f32)
    (a : Vec F S1024x2048 .f32) (E : Set ℕ) (K : PUnit → sProp 𝕄) :
    iprop(owns (c : Thread nD τ) arg3 fullShare x ∗ owns (c : Thread nD τ) arg4 fullShare w
        ∗ owns (c : Thread nD τ) arg5 fullShare b ∗ (∃ d, owns (c : Thread nD τ) arg6 fullShare d)
        ∗ owns (c : Thread nD τ) arg7 fullShare a
        ∗ (iprop(owns (c : Thread nD τ) arg3 fullShare x ∗ owns (c : Thread nD τ) arg4 fullShare w
            ∗ owns (c : Thread nD τ) arg5 fullShare b ∗ owns (c : Thread nD τ) arg6 fullShare (withBias (accStep x w a) b)
            ∗ owns (c : Thread nD τ) arg7 fullShare (accStep x w a)) -∗ K ⟨⟩))
      ⊢ wp frame (wpE (defs₀ (F := F)) Variants.none c none) E
          (cc1__matmul_kernel i arg3 harg3 arg4 harg4 arg5 harg5 arg6 harg6 arg7 harg7) K := by
  simp only [cc1__matmul_kernel_eq_skeleton]; unfold cc1__matmul_kernel_skel
  unfold owns
  iintro ⟨⟨%f3, %hf3, H3⟩, ⟨%f4, %hf4, H4⟩, ⟨%f5, %hf5, H5⟩, ⟨%d6, %f6, -, H6⟩, ⟨%f7, %hf7, H7⟩, Hk⟩
  obtain rfl := harg3.eq_unread hf3; obtain rfl := harg4.eq_unread hf4
  obtain rfl := harg5.eq_unread hf5; obtain rfl := harg7.eq_unread hf7
  sl_exec (disch := first | exact hc0 | exact hc1)
  sl_step
  iapply Hk
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr
    swap; · iexact H6
    ipureintro
    sl_unfold_words
    rw [acc1_read_last]
    simp only [View.readAt_eq_ld, Memref.IsWhole.read_unread, View.ld_unit_zero (S := S1024x256) off1_zero,
    View.ld_unit_zero (S := S2048x256) off1_zero, View.ld_unit_zero (S := S1024x2048) off1_zero, View.ld_unit_zero (S := S1x2048) off1_zero,
    View.readCov_unit_zero (S := S1024x2048) _ off1_zero]
    rfl
  iexists _; isplitr
  swap; · iexact H7
  ipureintro
  sl_unfold_words
  rw [acc1_read_last]
  simp only [View.readAt_eq_ld, Memref.IsWhole.read_unread, View.ld_unit_zero (S := S1024x256) off1_zero,
    View.ld_unit_zero (S := S2048x256) off1_zero, View.ld_unit_zero (S := S1024x2048) off1_zero]
  rfl

/-! ## The conditions and the schedule in closed form -/

/-- The reset branch is taken at the points ≡ 0 (mod 16): decided over the grid. -/
theorem hcond1_0 : ∀ t : Fin cfg1.N, cond1_0 (grid1.coords t) ↔ t.val % 16 = 0 :=
  (by decide +kernel : ∀ t : Fin grid1.N, cond1_0 (grid1.coords t) ↔ t.val % 16 = 0)
/-- The write-out branch is taken at the points ≡ 15 (mod 16). -/
theorem hcond1_1 : ∀ t : Fin cfg1.N, cond1_1 (grid1.coords t) ↔ t.val % 16 = 15 :=
  (by decide +kernel : ∀ t : Fin grid1.N, cond1_1 (grid1.coords t) ↔ t.val % 16 = 15)

/-- Where the write-out branch is not taken the output window is idle, -/
theorem idle1_3_of (i : grid1.Coords) (h : ¬cond1_1 i) : cfg1.idle 3 i = true := by
  show (!(k1_cond2 i == 1#1)) = true
  rw [Bool.not_eq_true', beq_eq_false_iff_ne]; exact h
/-- and where it is taken the window is live. -/
theorem live1_3_of (i : grid1.Coords) (h : cond1_1 i) : cfg1.idle 3 i = false := by
  show (!(k1_cond2 i == 1#1)) = false
  rw [Bool.not_eq_false', beq_iff_eq]; exact h
/-- The output tile is not written back before the last K-step. -/
theorem noFlush1_3 (t : Fin cfg1.N) (h : ¬t.val % 16 = 15) : (cfg1.win 3).flush t = false :=
  Bool.eq_false_iff.mpr fun hf => h ((flush1_3 t).mp hf)

/-! ## What the body finds in the input windows -/

/-- Each input's current staging buffer holds its tile at every point, fetched there or not. -/
theorem before1_0 (c : Dev nD) (t : Fin cfg1.N) (d) : (dat1 V c).before 0 t d = blk1 V c 0 t :=
  ((dat1 V c).before_in_eq_fetched 0 rfl (fun _ => rfl) (fun _ _ _ => rfl)
      (fun t => by rw [dat1_after_0]; unfold Dat.blockOf blk1; rw [dat1_A]; try rfl) t d).trans
    (by unfold Dat.fetched Dat.blockOf blk1; rw [dat1_A]; try rfl)
theorem before1_1 (c : Dev nD) (t : Fin cfg1.N) (d) : (dat1 V c).before 1 t d = blk1 V c 1 t :=
  ((dat1 V c).before_in_eq_fetched 1 rfl (fun _ => rfl) (fun _ _ _ => rfl)
      (fun t => by rw [dat1_after_1]; unfold Dat.blockOf blk1; rw [dat1_A]; try rfl) t d).trans
    (by unfold Dat.fetched Dat.blockOf blk1; rw [dat1_A]; try rfl)
theorem before1_2 (c : Dev nD) (t : Fin cfg1.N) (d) : (dat1 V c).before 2 t d = blk1 V c 2 t :=
  ((dat1 V c).before_in_eq_fetched 2 rfl (fun _ => rfl) (fun _ _ _ => rfl)
      (fun t => by rw [dat1_after_2]; unfold Dat.blockOf blk1; rw [dat1_A]; try rfl) t d).trans
    (by unfold Dat.fetched Dat.blockOf blk1; rw [dat1_A]; try rfl)

/-! ## The invariant, opened -/

/-- The class invariant with the accumulator scratch split off as a memref owned at some contents. -/
theorem PhiA1_open (c : Dev nD) :
    (Pipeline.ΦA spec1 c : sProp 𝕄)
      ⊢ iprop(otherScoped (F := F) c ∗ (∃ d, owns (c : Thread nD τ) accM fullShare d) ∗ (∃ r, prngReg c r)) := by
  unfold Pipeline.ΦA; rw [scopedRest1_eq]; unfold otherScoped; simp only [accM, owns_whole]
  iintro ⟨⟨H1, H2, H3, H4, H5, H6, H7⟩, Hr⟩
  isplitl [H1 H2 H3 H4 H5 H6]
  · isplitl [H1]; · iexact H1
    isplitl [H2]; · iexact H2
    isplitl [H3]; · iexact H3
    isplitl [H4]; · iexact H4
    isplitl [H5]; · iexact H5
    iexact H6
  isplitl [H7]; · iexact H7
  iexact Hr

/-- And put back. -/
theorem PhiA1_close (c : Dev nD) :
    iprop(otherScoped (F := F) c ∗ (∃ d, owns (c : Thread nD τ) accM fullShare d) ∗ (∃ r, prngReg c r))
      ⊢ (Pipeline.ΦA spec1 c : sProp 𝕄) := by
  unfold Pipeline.ΦA; rw [scopedRest1_eq]; unfold otherScoped; simp only [accM, owns_whole]
  iintro ⟨⟨H1, H2, H3, H4, H5, H6⟩, H7, Hr⟩
  isplitl [H1 H2 H3 H4 H5 H6 H7]
  · isplitl [H1]; · iexact H1
    isplitl [H2]; · iexact H2
    isplitl [H3]; · iexact H3
    isplitl [H4]; · iexact H4
    isplitl [H5]; · iexact H5
    isplitl [H6]; · iexact H6
    iexact H7
  iexact Hr

theorem inv1_succ (c : Dev nD) (n : ℕ) (hn : n < cfg1.N) :
    inv1 V c (n + 1) hn
      = iprop(otherScoped (F := F) c ∗ owns (c : Thread nD τ) accM fullShare (accAt1 V c n hn) ∗ (∃ r, prngReg c r)) := rfl

/-- Before a point that is not the first the scratch holds what the point before left. -/
theorem inv1_pos (c : Dev nD) (n : ℕ) (h : n ≤ cfg1.N) (hz : n ≠ 0) :
    inv1 V c n h
      = iprop(otherScoped (F := F) c ∗ owns (c : Thread nD τ) accM fullShare (accAt1 V c (n - 1) (by omega)) ∗ (∃ r, prngReg c r)) := by
  cases n with
  | zero => exact absurd rfl hz
  | succ n => rfl

/-- Before any point the scratch holds something. -/
theorem inv1_any (c : Dev nD) (n : ℕ) (h : n ≤ cfg1.N) :
    inv1 V c n h ⊢ iprop(otherScoped (F := F) c ∗ (∃ d, owns (c : Thread nD τ) accM fullShare d) ∗ (∃ r, prngReg c r)) := by
  cases n with
  | zero => exact PhiA1_open c
  | succ n =>
    rw [inv1_succ]
    iintro ⟨Ho, Ha, Hr⟩
    isplitl [Ho]; · iexact Ho
    isplitl [Ha]; · iexists _; iexact Ha
    iexact Hr

theorem Phi_castSucc1 (c : Dev nD) (t : Fin cfg1.N) :
    (dat1 V c).Φ t.castSucc = inv1 V c t.val (Nat.le_of_lt t.isLt) := rfl

/-! ## The body obligation at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4000000 in
/-- The body at any point: the K-step (the point's number mod 16) selects the case; the inputs' buffers hold their tiles;
    the invariant hands over the scratch (at anything for a reset point, at the previous accumulator otherwise) and takes
    it back at this point's accumulator; the output tile is handed back as found except at the last K-step, where it
    receives accumulator plus bias. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = inv1 V c (t.val + 1) t.isLt from rfl, inv1_succ, Phi_castSucc1]
  rw [show (dat1 V c).leavesExact 0 t = owns (c : Thread nD τ) (st1_0 t) fullShare ((dat1 V c).after 0 t) from rfl, dat1_after_0]
  rw [show (dat1 V c).leavesExact 1 t = owns (c : Thread nD τ) (st1_1 t) fullShare ((dat1 V c).after 1 t) from rfl, dat1_after_1]
  rw [show (dat1 V c).leavesExact 2 t = owns (c : Thread nD τ) (st1_2 t) fullShare ((dat1 V c).after 2 t) from rfl, dat1_after_2]
  by_cases h0 : t.val % 16 = 0
  · -- K-step 0
    have h1 : ¬t.val % 16 = 15 := by omega
    have hc0 : cond1_0 (grid1.coords t) := (hcond1_0 t).mpr h0
    have hc1 : ¬cond1_1 (grid1.coords t) := fun h => h1 ((hcond1_1 t).mp h)
    rw [Dat.leavesExact_idle (dat1 V c) 3 t (idle1_3_of _ hc1) (noFlush1_3 t h1)]
    rw [accAt1_reset V c t h0]
    iintro ⟨Hinv, Ho, ⟨%d0, H0⟩, ⟨%d1, H1⟩, ⟨%d2, H2⟩, ⟨%d3, H3⟩⟩
    icases (inv1_any V c t.val (Nat.le_of_lt t.isLt)) $$ Hinv with ⟨Hoth, ⟨%d7, HS⟩, Hg⟩
    iapply (run1A c (grid1.coords t) _ _ _ _ _ _ _ _ _ _ hc0 hc1 (blk1 V c 0 t) (blk1 V c 1 t) (blk1 V c 2 t)
      ((dat1 V c).before 3 t d3) Set.univ _)
    isplitl [H0]; · iexact H0
    isplitl [H1]; · iexact H1
    isplitl [H2]; · iexact H2
    isplitl [H3]; · iexact H3
    isplitl [HS]; · iexists _; iexact HS
    iintro ⟨H0, H1, H2, H3, HS⟩
    isplitl [Hoth HS Hg]
    · isplitl [Hoth]; · iexact Hoth
      isplitl [HS]; · iexact HS
      iexact Hg
    isplitl [Ho]; · iexact Ho
    isplitl [H0]; · iexact H0
    isplitl [H1]; · iexact H1
    isplitl [H2]; · iexact H2
    iexists _; iexact H3
  · have hz : t.val ≠ 0 := fun e => h0 (by rw [e])
    have hc0 : ¬cond1_0 (grid1.coords t) := fun h => h0 ((hcond1_0 t).mp h)
    rw [accAt1_step V c t h0, inv1_pos V c _ _ hz]
    by_cases h1 : t.val % 16 = 15
    · -- K-step 15
      have hc1 : cond1_1 (grid1.coords t) := (hcond1_1 t).mpr h1
      rw [show (dat1 V c).leavesExact 3 t = owns (c : Thread nD τ) (st1_3 t) fullShare ((dat1 V c).after 3 t) from by
        unfold Dat.leavesExact; rw [live1_3_of _ hc1], dat1_after_3, accAt1_step V c t h0]
      iintro ⟨⟨Hoth, HS, Hg⟩, Ho, ⟨%d0, H0⟩, ⟨%d1, H1⟩, ⟨%d2, H2⟩, ⟨%d3, H3⟩⟩
      iapply (run1C c (grid1.coords t) _ _ _ _ _ _ _ _ _ _ hc0 hc1 (blk1 V c 0 t) (blk1 V c 1 t) (blk1 V c 2 t)
        (accAt1 V c (t.val - 1) (Nat.lt_of_le_of_lt (Nat.sub_le _ _) t.isLt)) Set.univ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [Hoth HS Hg]
      · isplitl [Hoth]; · iexact Hoth
        isplitl [HS]; · iexact HS
        iexact Hg
      isplitl [Ho]; · iexact Ho
      isplitl [H0]; · iexact H0
      isplitl [H1]; · iexact H1
      isplitl [H2]; · iexact H2
      iexact H3
    · -- a middle K-step
      have hc1 : ¬cond1_1 (grid1.coords t) := fun h => h1 ((hcond1_1 t).mp h)
      rw [Dat.leavesExact_idle (dat1 V c) 3 t (idle1_3_of _ hc1) (noFlush1_3 t h1)]
      iintro ⟨⟨Hoth, HS, Hg⟩, Ho, ⟨%d0, H0⟩, ⟨%d1, H1⟩, ⟨%d2, H2⟩, ⟨%d3, H3⟩⟩
      iapply (run1B c (grid1.coords t) _ _ _ _ _ _ _ _ _ _ hc0 hc1 (blk1 V c 0 t) (blk1 V c 1 t) (blk1 V c 2 t)
        ((dat1 V c).before 3 t d3) (accAt1 V c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [Hoth HS Hg]
      · isplitl [Hoth]; · iexact Hoth
        isplitl [HS]; · iexact HS
        iexact Hg
      isplitl [Ho]; · iexact Ho
      isplitl [H0]; · iexact H0
      isplitl [H1]; · iexact H1
      isplitl [H2]; · iexact H2
      iexists _; iexact H3

/-- The body meets the pipeline's obligation at every grid point. -/
theorem body_obligation1 (c : Dev nD) : BodyObligation (dat1 (F := F) V c) (defs₀ (F := F)) Variants.none () Set.univ := fun t => by
  rw [bigSep_W1, bigSep_W1]
  exact sound_body1 V c t

/-- Entering the region: the class invariant is the invariant before the first point. -/
theorem inv1_enter (c : Dev nD) : Pipeline.ΦA spec1 c ⊢ (dat1 V c).Φ 0 := by
  rw [show (dat1 V c).Φ 0 = inv1 V c 0 (Nat.zero_le _) from rfl]
  exact Idealize.SL.BI.Entails.refl _

/-- Leaving the region: the accumulator's contents are forgotten again. -/
theorem inv1_leave (c : Dev nD) : (dat1 V c).Φ (Fin.last cfg1.N) ⊢ Pipeline.ΦA spec1 c := by
  rw [show (dat1 V c).Φ (Fin.last cfg1.N)
      = inv1 V c (Fin.last cfg1.N).val (Nat.le_of_lt_succ (Fin.last cfg1.N).isLt) from rfl]
  exact (inv1_any V c _ _).trans (PhiA1_close c)

end Cert.Kernel.Hand

end
-- ==== Proof.KRun.lean ====
/-
  The whole program as a run of four segments — a stretch of host operations, the table-lookup region, one more
  host operation, the matmul region — from any launch memory: the buffer contents at every segment boundary as a
  fold from the launch memory, and the theorem that every weakly fair execution terminates with every unscoped
  buffer at the last boundary's contents.
-/
import proofs.«404060_j2997887172647_3_alg».proof.Proof.Gen.Kernel.Launch
import proofs.«404060_j2997887172647_3_alg».proof.Proof.Gen.Kernel.Skeleton
import proofs.«404060_j2997887172647_3_alg».proof.Proof.Gen.Kernel.Points
import proofs.«404060_j2997887172647_3_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«404060_j2997887172647_3_alg».proof.Proof.KReg0
import proofs.«404060_j2997887172647_3_alg».proof.Proof.KReg1

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-! ## The buffers' contents at the segment boundaries -/

/-- At launch. -/
abbrev W0 : Dev nD → Valuation τ sig (Elt F) := fun c b => m (c, b)
/-- After the first host stretch (entry of the lookup region). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- After the lookup region: its output array at what the write-backs leave, everything else as entered. -/
def W2 (c : Dev nD) : Valuation τ sig (Elt F) :=
  Pipeline.withArrays spec0 c (W1 m c) fun w => (dat0 (V1 m) c).arrAt w cfg0.N
abbrev V2 : (c : Dev nD) → (b : Ref sig .tc) → Buf (Elt F) ((c : Thread nD τ).loc b) := fun c b => W2 m c b
/-- After the second host stretch (entry of the matmul region). -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- After the matmul region. -/
def W4 (c : Dev nD) : Valuation τ sig (Elt F) :=
  Pipeline.withArrays spec1 c (W3 m c) fun w => (dat1 (V3 m) c).arrAt w cfg1.N

/-- An unscoped TensorCore reference is among those the run tracks. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## Reading the fold -/

/-- A window's array of the lookup region, once the region is over: what its write-backs leave. -/
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
/-- Any other buffer is as the lookup region found it. -/
theorem W2_off (c : Dev nD) (r : Ref sig .tc) (hr : ∀ w, Pipeline.arrRef spec0 w ≠ r) :
    W2 m c (Proc.devRef .tc r) = W1 m c (Proc.devRef .tc r) := by
  unfold W2; exact Pipeline.withArrays_of_ne spec0 c _ _ r hr
/-- A window's array of the matmul region, once the region is over. -/
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
/-- Any other buffer is as the matmul region found it. -/
theorem W4_off (c : Dev nD) (r : Ref sig .tc) (hr : ∀ w, Pipeline.arrRef spec1 w ≠ r) :
    W4 m c (Proc.devRef .tc r) = W3 m c (Proc.devRef .tc r) := by
  unfold W4; exact Pipeline.withArrays_of_ne spec1 c _ _ r hr
/-- The first host stretch writes its thirteen temporaries only. -/
theorem W1_off (c : Dev nD) (r : Ref sig .tc) (hr : r ∉ hostOps0_W) :
    W1 m c (Proc.devRef .tc r) = m ((c : Thread nD τ).loc r) :=
  StableHlo.after_of_writes_sub hostOps0 _ hostOps0_writes hr
/-- The second host stretch writes the reshaped bias only. -/
theorem W3_off (c : Dev nD) (r : Ref sig .tc) (hr : r ∉ hostOps1_W) :
    W3 m c (Proc.devRef .tc r) = W2 m c (Proc.devRef .tc r) :=
  StableHlo.after_of_writes_sub hostOps1 _ hostOps1_writes hr

/-- A buffer that no host operation writes and that is no window's array of either region holds its launch
    contents at every boundary. -/
theorem W4_bystander (c : Dev nD) (r : Ref sig .tc) (h0 : r ∉ hostOps0_W) (h1 : r ∉ hostOps1_W)
    (ha0 : ∀ w, Pipeline.arrRef spec0 w ≠ r) (ha1 : ∀ w, Pipeline.arrRef spec1 w ≠ r) :
    W4 m c (Proc.devRef .tc r) = m ((c : Thread nD τ).loc r) :=
  (W4_off m c r ha1).trans <| (W3_off m c r h1).trans <| (W2_off m c r ha0).trans (W1_off m c r h0)

/-- What the lookup region finds: the codes as launched. -/
theorem V1_main_arg1 (c : Dev nD) : V1 m c main_arg1 = m ((c : Thread nD τ).loc main_arg1) :=
  W1_off m c main_arg1 (by decide)

/-- What the matmul region finds: the activations as launched, the weights as the lookup region left them. -/
theorem V3_main_arg0 (c : Dev nD) : V3 m c main_arg0 = m ((c : Thread nD τ).loc main_arg0) :=
  (W3_off m c main_arg0 (by decide)).trans <| (W2_off m c main_arg0 (by decide)).trans (W1_off m c main_arg0 (by decide))
theorem V3_main_v13 (c : Dev nD) : V3 m c main_v13 = (dat0 (V1 m) c).arrAt 2 cfg0.N :=
  (W3_off m c main_v13 (by decide)).trans (W2_arr m c 2)
theorem V3_main_v14 (c : Dev nD) : V3 m c main_v14 = StableHlo.after hostOps1 (W2 m c) (Proc.devRef .tc main_v14) := rfl

/-- The activations are an input window of the matmul region: it leaves them as entered. -/
theorem W4_main_arg0 (c : Dev nD) : W4 m c (Proc.devRef .tc main_arg0) = m ((c : Thread nD τ).loc main_arg0) :=
  (W4_arr m c 0).trans <| ((dat1 (V3 m) c).arrAt_in 0 rfl _).trans <| (dat1_A (V3 m) c 0).trans (V3_main_arg0 m c)
/-- The codes are an input window of the lookup region, and nothing after it touches them. -/
theorem W4_main_arg1 (c : Dev nD) : W4 m c (Proc.devRef .tc main_arg1) = m ((c : Thread nD τ).loc main_arg1) :=
  (W4_off m c main_arg1 (by decide)).trans <| (W3_off m c main_arg1 (by decide)).trans <| (W2_arr m c 0).trans <|
    ((dat0 (V1 m) c).arrAt_in 0 rfl _).trans <| (dat0_A (V1 m) c 0).trans (V1_main_arg1 m c)
theorem W4_main_arg2 (c : Dev nD) : W4 m c (Proc.devRef .tc main_arg2) = m ((c : Thread nD τ).loc main_arg2) :=
  W4_bystander m c main_arg2 (by decide) (by decide) (by decide) (by decide)
theorem W4_main_arg3 (c : Dev nD) : W4 m c (Proc.devRef .tc main_arg3) = m ((c : Thread nD τ).loc main_arg3) :=
  W4_bystander m c main_arg3 (by decide) (by decide) (by decide) (by decide)
theorem W4_main_arg4 (c : Dev nD) : W4 m c (Proc.devRef .tc main_arg4) = m ((c : Thread nD τ).loc main_arg4) :=
  W4_bystander m c main_arg4 (by decide) (by decide) (by decide) (by decide)
/-- The result array at the end is what the matmul region's write-backs leave. -/
theorem W4_main_v15 (c : Dev nD) : W4 m c (Proc.devRef .tc main_v15) = (dat1 (V3 m) c).arrAt 3 cfg1.N :=
  W4_arr m c 3

/-! ## The run -/

/-! ### What a core holds between segments -/

/-- Every pipeline's proof data, each taken at the contents its region is entered at. -/
def regData : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c

/-- No core waits on another: no cell has a level. -/
abbrev noPairs : GSem nD τ sig → Finset Unit := fun _ => ∅
abbrev noLevel : GSem nD τ sig → Unit → ℕ := fun _ _ => 0

/-- All unscoped buffers of core `c` at the contents `W`. -/
abbrev allAt (c : Dev nD) (W : Valuation τ sig (Elt F)) : sProp 𝕄 :=
  StableHlo.held (c : Thread nD τ) (Pipeline.ucRefs τ sig) W
/-- The generator register at some state. -/
abbrev someReg (c : Dev nD) : sProp 𝕄 := iprop(∃ r, prngReg c r)
/-- The core owes nothing. -/
abbrev owesNone (c : Dev nD) : sProp 𝕄 := iprop(∃ W, owes (c : Thread nD τ) (0 : CellTallies nD τ sig Unit) W)
/-- What accompanies the buffers across every boundary. -/
abbrev beside (c : Dev nD) : sProp 𝕄 := iprop(someReg (F := F) c ∗ owesNone (F := F) c)

theorem hostOps0_noalloc : (hostOps0 : List (HloOp τ sig (Elt F))).Forall fun op => op.fresh = ∅ := hostOps0_fresh
theorem hostOps1_noalloc : (hostOps1 : List (HloOp τ sig (Elt F))).Forall fun op => op.fresh = ∅ := hostOps1_fresh

/-- A stretch of host operations run from the contents `W`: it ends at `StableHlo.after ops (W c)`. -/
abbrev stretch (ops : List (HloOp τ sig (Elt F))) (hsub : ops.Forall fun op => op.bufs ⊆ StableHlo.tcRefs τ sig)
    (hnew : ops.Forall fun op => op.fresh = ∅) (W : Dev nD → Valuation τ sig (Elt F)) :
    Pipeline.HostSeg (Name := ℕ) (U := UR sig nD τ) (pcfgs (F := F)) defs₀ Variants.none noPairs noLevel :=
  Pipeline.HostSeg.ofOps _ _ _ _ _ (Pipeline.ucRefs τ sig) ops
    (fun op hop => Pipeline.sub_ucRefs op (List.forall_iff_forall_mem.mp hsub op hop))
    (fun op hop => List.forall_iff_forall_mem.mp hnew op hop) W (beside (F := F))

/-! ### Small steps shared by the two regions -/

/-- A pipeline without prefetched tables holds none. -/
theorem noTables (pre : Pipeline.Prefetch sig) (hK : pre.K = 0) (c : Dev nD) (q : Fin pre.K → PosShare TreeShare) (T : pre.Contents (Elt F)) :
    (BI.emp : sProp 𝕄) ⊢ Pipeline.prefHeld (Ix := Unit) (Name := ℕ) (U := UR sig nD τ) (Lvl := ℕ) pre c q T := by
  unfold Pipeline.prefHeld
  have : (Finset.univ : Finset (Fin pre.K)) = ∅ := by
    apply Finset.eq_empty_of_forall_notMem; intro k; exact absurd k.isLt (by omega)
  rw [this, BI.bigSep_empty]

section Steps

variable {cfg : Cfg sig Λ₀} {c : Dev nD} (d : Dat τ (Elt F) Unit ℕ (UR sig nD τ) ℕ cfg c)

/-- A core that owes nothing meets the pipeline's account before point `t`, when the proof data owe nothing there
    and bound the recorded pairs by everything. -/
theorem owesAt_intro (t : Fin (cfg.N + 1)) (ho : d.owed t = 0) (hr : d.recorded t = Set.univ) :
    owesNone (F := F) c ⊢ d.owesAt () t := by
  unfold Pipeline.Dat.owesAt Pipeline.owesWithin
  rw [ho]
  iintro ⟨%W, H⟩
  iexists W
  isplitr
  · ipureintro; intro x _; exact Or.inl (hr ▸ Set.mem_univ x)
  iexact H

/-- And back: the pipeline's account at nothing owed is a core that owes nothing. -/
theorem owesAt_elim (t : Fin (cfg.N + 1)) (ho : d.owed t = 0) :
    d.owesAt () t ⊢ owesNone (F := F) c := by
  unfold Pipeline.Dat.owesAt Pipeline.owesWithin
  rw [ho]
  iintro ⟨%W, -, H⟩
  iexists W
  iexact H

end Steps

/-- ENTRY of a region, the bookkeeping: the unscoped buffers cut into the region's arrays `A` and the bypassing rest
    `Z`; the tables (there are none) from nothing; the account from the core owing nothing; the register passed on. -/
theorem enter_region {A Z T O : sProp 𝕄} (c : Dev nD) (W : Valuation τ sig (Elt F))
    (hcut : allAt c W ⊢ iprop(A ∗ Z)) (htab : (BI.emp : sProp 𝕄) ⊢ T) (hacc : owesNone (F := F) c ⊢ O) :
    iprop((allAt c W ∗ beside (F := F) c) ∗ BI.emp ∗ levAts noPairs noLevel)
      ⊢ |={Set.univ}=> iprop(A ∗ T ∗ O ∗ someReg (F := F) c ∗ Z) := by
  iintro ⟨⟨Hall, Hreg, Howe⟩, -, -⟩
  ihave Hcut := hcut $$ Hall
  icases Hcut with ⟨HA, HZ⟩
  ihave HO := hacc $$ Howe
  imodintro
  isplitl [HA]; · iexact HA
  isplitr
  · iapply htab; iempintro
  isplitl [HO]; · iexact HO
  isplitl [Hreg]; · iexact Hreg
  iexact HZ

/-- EXIT of a region, the bookkeeping: the arrays at their last contents `A` and the bypassing rest `Z` make all the
    unscoped buffers at the next boundary's contents; the account closes at nothing owed. -/
theorem leave_region {A Z O : sProp 𝕄} (c : Dev nD) (W : Valuation τ sig (Elt F))
    (hjoin : iprop(A ∗ Z) ⊢ allAt c W) (hacc : O ⊢ owesNone (F := F) c) :
    iprop(A ∗ O ∗ someReg (F := F) c ∗ Z) ⊢ |={Set.univ}=> iprop(allAt c W ∗ beside (F := F) c) := by
  iintro ⟨HA, HO, Hreg, HZ⟩
  ihave Hall := hjoin $$ [HA HZ]
  · isplitl [HA]; · iexact HA
    iexact HZ
  ihave Howe := hacc $$ HO
  imodintro
  isplitl [Hall]; · iexact Hall
  isplitl [Hreg]; · iexact Hreg
  iexact Howe

/-- The class invariant from its two parts and back. -/
theorem ΦA_intro {gr W : ℕ} (win : Fin W → Pipeline.WinSpec sig gr) (c : Dev nD) (T : sProp 𝕄) :
    iprop(someReg (F := F) c ∗ T ∗ Pipeline.scopedRest win c) ⊢ (Pipeline.ΦA win c : sProp 𝕄) := by
  unfold Pipeline.ΦA
  iintro ⟨Hreg, -, Hs⟩
  isplitl [Hs]; · iexact Hs
  iexact Hreg
theorem ΦA_elim {gr W : ℕ} (win : Fin W → Pipeline.WinSpec sig gr) (c : Dev nD) :
    (Pipeline.ΦA win c : sProp 𝕄) ⊢ iprop(someReg (F := F) c ∗ BI.emp ∗ Pipeline.scopedRest win c) := by
  unfold Pipeline.ΦA
  iintro ⟨Hs, Hreg⟩
  isplitl [Hreg]; · iexact Hreg
  isplitr; · iempintro
  iexact Hs

/-! ### The two regions as segments -/

set_option backward.isDefEq.respectTransparency.types false in
/-- The table-lookup region: entered with every unscoped buffer at `W1`, left with them at `W2`. -/
def lookupSeg : Pipeline.RegionSeg (pcfgs (F := F)) adm (regData m) () defs₀ Variants.none noPairs noLevel 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ noPairs noLevel 0 fun _ _ => rfl
  pre c := iprop(allAt c (W1 m c) ∗ beside (F := F) c)
  post c := iprop(allAt c (W2 m c) ∗ beside (F := F) c)
  X c := someReg (F := F) c
  Y c := someReg (F := F) c
  Z c := Pipeline.unscopedRest (Ix := Unit) (Name := ℕ) (U := UR sig nD τ) (Lvl := ℕ) spec0 c (V1 m c)
  hentry c := by
    rw [Pipeline.ownSems0_none]
    have hcut := Pipeline.arrays_of_unscopedBufs (p := 0) (pcfgs (F := F)) adm (regData m) launch0.win launch0.arr_whole c
      ((regData m 0 c).share_full fun _ => rfl) (V1 m c) fun _ => rfl
    rw [Pipeline.unscopedBufs_held] at hcut
    exact enter_region c (W1 m c) hcut (noTables _ rfl c _ _) (owesAt_intro (regData m 0 c) 0 rfl rfl)
  hin c := ΦA_intro spec0 c _
  hout c := by
    rw [Pipeline.ownSems0_none]; exact ΦA_elim spec0 c
  hexit c := by
    have hjoin := Pipeline.unscopedBufs_of_arrays (p := 0) (pcfgs (F := F)) adm (Ix := Unit) (Name := ℕ) (U := UR sig nD τ) (Lvl := ℕ)
      launch0.win launch0.arr_whole c (regData m) ((regData m 0 c).share_full fun _ => rfl)
      (V1 m c) (V2 m c) ((regData m 0 c).arrAt · cfg0.N) (fun w => (W2_arr m c w).symm)
      (fun b hb => W2_off m c b fun w e => hb (Finset.mem_image.mpr ⟨w, Finset.mem_univ _, e⟩))
    rw [Pipeline.unscopedBufs_held] at hjoin
    exact leave_region c (W2 m c) hjoin (owesAt_elim (regData m 0 c) _ rfl)

set_option backward.isDefEq.respectTransparency.types false in
/-- The matmul region: entered with every unscoped buffer at `W3`, left with them at `W4`. Its invariant is not the
    class invariant itself but one that follows the accumulator: it is entered from the class invariant and gives it back. -/
def matmulSeg : Pipeline.RegionSeg (pcfgs (F := F)) adm (regData m) () defs₀ Variants.none noPairs noLevel 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ noPairs noLevel 1 fun _ _ => rfl
  pre c := iprop(allAt c (W3 m c) ∗ beside (F := F) c)
  post c := iprop(allAt c (W4 m c) ∗ beside (F := F) c)
  X c := someReg (F := F) c
  Y c := someReg (F := F) c
  Z c := Pipeline.unscopedRest (Ix := Unit) (Name := ℕ) (U := UR sig nD τ) (Lvl := ℕ) spec1 c (V3 m c)
  hentry c := by
    rw [Pipeline.ownSems0_none]
    have hcut := Pipeline.arrays_of_unscopedBufs (p := 1) (pcfgs (F := F)) adm (regData m) launch1.win launch1.arr_whole c
      ((regData m 1 c).share_full fun _ => rfl) (V3 m c) fun _ => rfl
    rw [Pipeline.unscopedBufs_held] at hcut
    exact enter_region c (W3 m c) hcut (noTables _ rfl c _ _) (owesAt_intro (regData m 1 c) 0 rfl rfl)
  hin c := (ΦA_intro spec1 c _).trans (inv1_enter (V3 m) c)
  hout c := by
    rw [Pipeline.ownSems0_none]; exact (inv1_leave (V3 m) c).trans (ΦA_elim spec1 c)
  hexit c := by
    have hjoin := Pipeline.unscopedBufs_of_arrays (p := 1) (pcfgs (F := F)) adm (Ix := Unit) (Name := ℕ) (U := UR sig nD τ) (Lvl := ℕ)
      launch1.win launch1.arr_whole c (regData m) ((regData m 1 c).share_full fun _ => rfl)
      (V3 m c) (fun b => W4 m c b) ((regData m 1 c).arrAt · cfg1.N) (fun w => (W4_arr m c w).symm)
      (fun b hb => W4_off m c b fun w e => hb (Finset.mem_image.mpr ⟨w, Finset.mem_univ _, e⟩))
    rw [Pipeline.unscopedBufs_held] at hjoin
    exact leave_region c (W4 m c) hjoin (owesAt_elim (regData m 1 c) _ rfl)

/-! ### The program as its four segments, and the launch -/

/-- Nothing, on every core. -/
theorem emp_on_every_core : (BI.emp : sProp 𝕄) ⊢ bigSep Finset.univ (fun _ : Dev nD => (BI.emp : sProp 𝕄)) := by
  rw [BI.bigSep_emp_const]
/-- Three conjuncts bracketed the other way. -/
theorem regroup (A B C : sProp 𝕄) : iprop(A ∗ B ∗ C) ⊢ iprop((A ∗ B) ∗ C) := by
  iintro ⟨HA, HB, HC⟩
  isplitl [HA HB]
  · isplitl [HA]; · iexact HA
    iexact HB
  iexact HC
/-- All unscoped buffers held at `W` beside a machine state: that state's memory holds `W` at each of them. -/
theorem read_allAt (c : Dev nD) (W : Valuation τ sig (Elt F)) (s' : Phys nD τ sig (Elt F)) :
    iprop(allAt c W ∗ SI s') ⊢ (iprop(⌜∀ b ∈ Pipeline.ucRefs τ sig, s'.mem.mem (((c : Thread nD τ)).1, b) = W b⌝ ∗ SI s') : sProp 𝕄) :=
  pointsTo_read_all (Pipeline.ucRefs τ sig) (fun b => (((c : Thread nD τ)).1, b)) W s'

abbrev fourSegs : List (Pipeline.Seg (pcfgs (F := F)) adm (regData m) () defs₀ Variants.none noPairs noLevel) :=
  [ .host (stretch hostOps0 hostOps0_sub hostOps0_noalloc (W0 m)),
    .region (lookupSeg m),
    .host (stretch hostOps1 hostOps1_sub hostOps1_noalloc (W2 m)),
    .region (matmulSeg m) ]

/-- The program is the run of the four segments. -/
theorem main_is_run (c : Dev nD) : main (F := F) c = Pipeline.Seg.run (fourSegs m) :=
  (main_chain c).trans (by chain_rfl)

set_option backward.isDefEq.respectTransparency.types false in
/-- From any memory with zero counters every weakly fair execution of the program terminates, nothing faulting, and
    every unscoped buffer ends at the last boundary's contents. -/
theorem run_main (ρ : Dev nD → PrngReg) :
    θ_run defs (onTc (τ := τ) (main (F := F))) ⟨m, fun _ => 0, ρ⟩
      (fun r => ∀ c : Dev nD, ∀ b ∈ Pipeline.ucRefs τ sig, r.2.mem (((c : Thread nD τ)).1, b) = W4 m c b) :=
  Pipeline.θ_run_regions_kit (pcfgs (F := F)) adm (regData m) () cellOf_inj emb₁ defs₀ Variants.none noPairs noLevel m ρ main
    (fourSegs m)
    (fun c Q => by rw [main_is_run m c])
    (by simp only [fourSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply emp_on_every_core (F := F); iempintro)
    (T₀ := fun c => iprop(allAt c (W0 m c) ∗ beside (F := F) c))
    (Tₙ := fun c => iprop(allAt c (W4 m c) ∗ someReg (F := F) c))
    (hch := ⟨fun _ => .rfl, fun _ => .rfl, fun _ => .rfl, fun _ => .rfl, fun c => regroup _ _ _⟩)
    (hinit := by
      refine Pipeline.initEach noPairs noLevel fun c => ?_
      rw [show unscopedBufs c (fun b => m ((c : Thread nD τ).loc b)) = allAt c (W0 m c)
        from Pipeline.unscopedBufs_held c (W0 m c)]
      iintro ⟨⟨Hall, -, Howe, -, Hreg, -⟩, -⟩
      imodintro
      isplitl [Hall]; · iexact Hall
      isplitl [Hreg]; · iexists _; iexact Hreg
      iexists ∅; iexact Howe)
    (QY := fun c s => ∀ b ∈ Pipeline.ucRefs τ sig, s.mem (((c : Thread nD τ)).1, b) = W4 m c b)
    (hfin := fun c s' => by
      iintro ⟨⟨Hall, -⟩, HSI⟩
      imodintro
      iapply read_allAt c (W4 m c) s'
      isplitl [Hall]; · iexact Hall
      iexact HSI)
    (hQ := fun s h => h)

/-- The frame: the five argument arrays end as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_arg0 (by decide))).trans (W4_main_arg0 m c),
     (h c _ (mem_uc main_arg1 (by decide))).trans (W4_main_arg1 m c),
     (h c _ (mem_uc main_arg2 (by decide))).trans (W4_main_arg2 m c),
     (h c _ (mem_uc main_arg3 (by decide))).trans (W4_main_arg3 m c),
     (h c _ (mem_uc main_arg4 (by decide))).trans (W4_main_arg4 m c)⟩) (run_main m ρ)

end Cert.Kernel.Hand

end
-- ==== Proof.KIReg0.lean ====
/-
  The first pallas_call (the 16-way table lookup that turns 4-bit codes into bf16 weights), as a pipeline
  region entered at arbitrary buffer contents `V`: what each grid point leaves in the output tile, the
  proof data of the pipeline, and the body's Hoare triple at every point.
-/
import proofs.«404060_j2997887172647_3_alg».proof.Proof.Gen.KernelIdeal.Launch
import proofs.«404060_j2997887172647_3_alg».proof.Proof.Gen.KernelIdeal.Skeleton
import proofs.«404060_j2997887172647_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s tile at grid point `t`, cut out of the array the region finds. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The tile the body stores: from a tile of codes `x0` (1024 rows × 128 columns) and the group's table `x1`
    (1 × 1024 rows × 16 entries) the entry each clamped code selects, the 16 selects nested as the body nests them. -/
def deqTile (x0 : Vec F S1024x128 .i32) (x1 : Vec F S1x1024x16 .bf16) : Vec F S1024x128 .bf16 :=
  k0_pay1 (k0_pay2 x0) (k0_pay3 x1) (k0_pay5 (k0_pay2 x0) (k0_pay3 x1) (k0_pay4 x0 x1)) (k0_pay6 (k0_pay3 x1)) (k0_pay7 (k0_pay2 x0))

/-- The pipeline's proof data: arrays as found, inputs left in place, the output tile at `deqTile` of the two input
    tiles; nothing carried between points. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => deqTile (blk0 V c 0 t) (blk0 V c 1 t)
  Φ _ := Pipeline.ΦA spec0 c
  q _ := fullShare
  owed _ := 0

theorem dat0_A (c : Dev nD) (w : Fin cfg0.W) : (dat0 V c).A w = V c (Pipeline.arrRef spec0 w) := by
  dsimp only [dat0]
theorem dat0_after_0 (c : Dev nD) (t : Fin cfg0.N) : (dat0 V c).after 0 t = blk0 V c 0 t := by dsimp only [dat0]
theorem dat0_after_1 (c : Dev nD) (t : Fin cfg0.N) : (dat0 V c).after 1 t = blk0 V c 1 t := by dsimp only [dat0]
theorem dat0_after_2 (c : Dev nD) (t : Fin cfg0.N) : (dat0 V c).after 2 t = deqTile (blk0 V c 0 t) (blk0 V c 1 t) := by dsimp only [dat0]

/-! ## The input tiles in the staging buffers -/

/-- The code tile's window is fetched at every grid point, and the window is uncut: the staging buffer the body is
    handed holds exactly the tile of the array as the region found it. -/
theorem before0_0 (c : Dev nD) (t : Fin cfg0.N) (d) : (dat0 V c).before 0 t d = blk0 V c 0 t := by
  rw [Dat.before_fetched (dat0 V c) 0 t (fetch0_0 t) d]
  unfold Dat.fetched Dat.blockOf blk0
  rw [dat0_A]
  rfl

/-- Likewise the table's window. -/
theorem before0_1 (c : Dev nD) (t : Fin cfg0.N) (d) : (dat0 V c).before 1 t d = blk0 V c 1 t := by
  rw [Dat.before_fetched (dat0 V c) 1 t (fetch0_1 t) d]
  unfold Dat.fetched Dat.blockOf blk0
  rw [dat0_A]
  rfl

/-! ## The body on whole tiles -/

/-- The one store of the body spans the whole output tile, so every index of the tile lies in its rectangle. -/
theorem store_covers0 (p : Vec F S1024x128 .bf16) (y : S1024x128.Idx) :
    ∃ pc ∈ ([⟨Rect.unit (s := S1024x128) ![0, 0] S1024x128.size inb_S1024x128_S1024x128_0_0, p⟩] :
        List (View.Piece (Elt F) S1024x128 .bf16)), y ∈ pc.1.set :=
  View.cover_of_tiled _ S1024x128.size (by rfl) y

set_option maxHeartbeats 1000000 in
/-- The body run on three whole tiles: the code tile at `x0`, the table tile at `x1`, the output tile at anything.
    It reads the two inputs, leaves them as they were, and overwrites all of the output tile with the selected
    table entries `deqTile x0 x1` (the value it loads from the output tile first is never used). -/
theorem dequant_triple (c : Dev nD) (E : Set ℕ) (i : grid0.Coords)
    (arg2 : Memref sig .tc .vmem S1024x128 .i32) (harg2 : arg2.IsWhole)
    (arg3 : Memref sig .tc .vmem S1x1024x16 .bf16) (harg3 : arg3.IsWhole)
    (arg4 : Memref sig .tc .vmem S1024x128 .bf16) (harg4 : arg4.IsWhole)
    (x0 : Vec F S1024x128 .i32) (x1 : Vec F S1x1024x16 .bf16) (K : PUnit → sProp 𝕄) :
    iprop(owns (c : Thread nD τ) arg2 fullShare x0 ∗ owns (c : Thread nD τ) arg3 fullShare x1
        ∗ (∃ d, owns (c : Thread nD τ) arg4 fullShare d)
        ∗ (iprop(owns (c : Thread nD τ) arg2 fullShare x0 ∗ owns (c : Thread nD τ) arg3 fullShare x1
            ∗ owns (c : Thread nD τ) arg4 fullShare (deqTile x0 x1)) -∗ K ⟨⟩))
      ⊢ wp frame (wpE (defs₀ (F := F)) Variants.none c none) E
          (cc0__dequant_kernel i arg2 harg2 arg3 harg3 arg4 harg4) K := by
  simp only [cc0__dequant_kernel_eq_skeleton]; unfold cc0__dequant_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  rw [View.read_writes_eq_canon _ _ _ (store_covers0 _)]
  rw [View.canon_unit_zero (by funext a; fin_cases a <;> rfl)]
  unfold deqTile
  sl_unfold_words
  have hz2 : (![0, 0] : Fin S1024x128.rank → ℕ) = fun _ => 0 := by funext a; fin_cases a <;> rfl
  have hz3 : (![0, 0, 0] : Fin S1x1024x16.rank → ℕ) = fun _ => 0 := by funext a; fin_cases a <;> rfl
  simp only [View.readAt_eq_ld, View.ld_unit_zero (S := S1024x128) hz2, View.ld_unit_zero (S := S1x1024x16) hz3]
  rfl

/-- The body meets the pipeline's obligation at every grid point. -/
theorem body_obligation0 (c : Dev nD) : BodyObligation (dat0 (F := F) V c) (defs₀ (F := F)) Variants.none () Set.univ := by
  intro t
  rw [bigSep_W0, bigSep_W0]
  -- No window is forgotten or idle, the invariant is the same at every point and nothing is ever owed: the
  -- obligation at `t` is the body's triple between plain ownerships of the three current staging tiles.
  change iprop((dat0 V c).Φ t.castSucc ∗ (dat0 V c).owesAt () t.castSucc
        ∗ (∃ d, owns (c : Thread nD τ) (st0_0 t) fullShare ((dat0 V c).before 0 t d))
        ∗ (∃ d, owns (c : Thread nD τ) (st0_1 t) fullShare ((dat0 V c).before 1 t d))
        ∗ (∃ d, owns (c : Thread nD τ) (st0_2 t) fullShare ((dat0 V c).before 2 t d)))
      ⊢ wp frame (wpE (defs₀ (F := F)) Variants.none c none) Set.univ (bodyAt0 t) (fun _ =>
          iprop((dat0 V c).Φ t.castSucc ∗ (dat0 V c).owesAt () t.castSucc
            ∗ owns (c : Thread nD τ) (st0_0 t) fullShare ((dat0 V c).after 0 t)
            ∗ owns (c : Thread nD τ) (st0_1 t) fullShare ((dat0 V c).after 1 t)
            ∗ owns (c : Thread nD τ) (st0_2 t) fullShare ((dat0 V c).after 2 t)))
  -- the two inputs' buffers hold their tiles; what the body must leave is named by the proof data
  simp only [before0_0, before0_1, dat0_after_0, dat0_after_1, dat0_after_2]
  iintro ⟨HΦ, Ho, ⟨%d0, H0⟩, ⟨%d1, H1⟩, ⟨%d2, H2⟩⟩
  iapply (dequant_triple c Set.univ _ _ _ _ _ _ _ (blk0 V c 0 t) (blk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

end Cert.KernelIdeal.Hand

end
-- ==== Proof.KIReg1.lean ====
/-
  The second pallas_call (the K-blocked matmul with a carried accumulator), as a pipeline region entered at
  arbitrary buffer contents `V`: the accumulator after every grid point, what the output tile receives at the
  last K-step, the region invariant that carries the accumulator, the proof data and the body's triple.
-/
import proofs.«404060_j2997887172647_3_alg».proof.Proof.Gen.KernelIdeal.Launch
import proofs.«404060_j2997887172647_3_alg».proof.Proof.Gen.KernelIdeal.Skeleton
import proofs.«404060_j2997887172647_3_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s tile at grid point `t`, cut out of the array the region finds. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The accumulator scratch as a memref. -/
abbrev accM : Memref sig .tc .vmem S1024x2048 .f32 := Memref.whole cc1_scratch0

/-- One K-step: the accumulator `a` plus the product of the activation tile `x` (rounded to bf16) with the weight tile `w`. -/
def accStep (x : Vec F S1024x256 .f32) (w : Vec F S2048x256 .bf16) (a : Vec F S1024x2048 .f32) : Vec F S1024x2048 .f32 :=
  k1_pay2 x w a
/-- The accumulator's reset value (all zero). -/
def accZero : Vec F S1024x2048 .f32 := k1_pay1 (F := F)
/-- What the last K-step writes out: accumulator plus the bias row broadcast down the rows. -/
def withBias (a : Vec F S1024x2048 .f32) (b : Vec F S1x2048 .f32) : Vec F S1024x2048 .f32 := k1_pay3 a b

/-- The accumulator after grid point `n` (points run with the K index fastest, 16 K-steps per output tile):
    reset at every K-step 0, otherwise continued from the point before. -/
def accAt1 (c : Dev nD) : (n : ℕ) → n < cfg1.N → Vec F S1024x2048 .f32
  | 0, hn => accStep (blk1 V c 0 ⟨0, hn⟩) (blk1 V c 1 ⟨0, hn⟩) accZero
  | n + 1, hn =>
    if (n + 1) % 16 = 0 then accStep (blk1 V c 0 ⟨n + 1, hn⟩) (blk1 V c 1 ⟨n + 1, hn⟩) accZero
    else accStep (blk1 V c 0 ⟨n + 1, hn⟩) (blk1 V c 1 ⟨n + 1, hn⟩) (accAt1 c n (Nat.lt_of_succ_lt hn))

theorem accAt1_reset (c : Dev nD) (t : Fin cfg1.N) (h : t.val % 16 = 0) :
    accAt1 V c t.val t.isLt = accStep (blk1 V c 0 t) (blk1 V c 1 t) accZero := by
  obtain ⟨n, hn⟩ := t
  cases n with
  | zero => rfl
  | succ n => exact if_pos h

theorem accAt1_step (c : Dev nD) (t : Fin cfg1.N) (h : ¬ t.val % 16 = 0) :
    accAt1 V c t.val t.isLt = accStep (blk1 V c 0 t) (blk1 V c 1 t)
      (accAt1 V c (t.val - 1) (Nat.lt_of_le_of_lt (Nat.sub_le _ _) t.isLt)) := by
  obtain ⟨n, hn⟩ := t
  cases n with
  | zero => exact absurd (Nat.zero_mod _) h
  | succ n => exact if_neg h

/-- The core's scoped buffers other than the accumulator scratch (the first region's staging buffers), each at some contents. -/
def otherScoped (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f))

/-- The region invariant before grid point `n`: before the first point the scratch holds anything (the plain class
    invariant); afterwards it holds the accumulator the point before left. -/
def inv1 (c : Dev nD) : (n : ℕ) → n ≤ cfg1.N → sProp 𝕄
  | 0, _ => Pipeline.ΦA spec1 c
  | n + 1, hn => iprop(otherScoped (F := F) c ∗ owns (c : Thread nD τ) accM fullShare (accAt1 V c n hn) ∗ (∃ r, prngReg c r))

/-- The pipeline's proof data: arrays as found, inputs left in place, the output tile at accumulator-plus-bias
    (consulted only at the last K-step, where it is stored and written back), the invariant carrying the accumulator. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => withBias (accAt1 V c t.val t.isLt) (blk1 V c 2 t)
  Φ t := inv1 V c t.val (Nat.le_of_lt_succ t.isLt)
  q _ := fullShare
  owed _ := 0

theorem dat1_A (c : Dev nD) (w : Fin cfg1.W) : (dat1 V c).A w = V c (Pipeline.arrRef spec1 w) := by
  dsimp only [dat1]
theorem dat1_after_0 (c : Dev nD) (t : Fin cfg1.N) : (dat1 V c).after 0 t = blk1 V c 0 t := by dsimp only [dat1]
theorem dat1_after_1 (c : Dev nD) (t : Fin cfg1.N) : (dat1 V c).after 1 t = blk1 V c 1 t := by dsimp only [dat1]
theorem dat1_after_2 (c : Dev nD) (t : Fin cfg1.N) : (dat1 V c).after 2 t = blk1 V c 2 t := by dsimp only [dat1]
theorem dat1_after_3 (c : Dev nD) (t : Fin cfg1.N) :
    (dat1 V c).after 3 t = withBias (accAt1 V c t.val t.isLt) (blk1 V c 2 t) := by dsimp only [dat1]

/-! ## The body's branch conditions over the grid -/

/-- The condition of the reset branch (K-step 0), from the grid coordinates. -/
abbrev cond1_0 (i : grid1.Coords) : Prop :=
  (Scalar.cmpi .ne (Scalar.extui (Scalar.cmpi .eq (BitVec.ofNat 32 (i 2).val) 0#32)) 0#32) = 1#1
/-- The condition of the write-out branch (K-step 15). -/
abbrev cond1_1 (i : grid1.Coords) : Prop := k1_cond2 i = 1#1

/-- Both offsets zero, however spelt. -/
theorem off1_zero : (![0, 0] : Fin 2 → ℕ) = fun _ => 0 := by
  funext a; fin_cases a <;> rfl

/-- Stores into a tile of the accumulator's shape, the last of them over all of it: the buffer then reads as that store's payload. -/
theorem acc1_read_last (v : View sig .tc .vmem S1024x2048 .f32) (f : v.ty.Contents (Elt F))
    (p : Vec F S1024x2048 .f32) (L : List (View.Piece (Elt F) S1024x2048 .f32)) :
    v.read (Elt F) (v.writes (Elt F) f
      ((⟨Rect.unit ![0, 0] S1024x2048.size inb_S1024x2048_S1024x2048_0_0, p⟩ : View.Piece (Elt F) S1024x2048 .f32) :: L)) = p := by
  rw [View.read_writes_eq_canon _ _ _ (fun y => ⟨_, List.mem_cons.mpr (Or.inl rfl),
      View.mem_set_unit_zero off1_zero inb_S1024x2048_S1024x2048_0_0 y⟩),
    View.canon_cons_unit_zero off1_zero]

/-! ## The body on whole memrefs, one triple per control case, with explicit contents -/

set_option maxHeartbeats 1000000 in
/-- K-step 0: the scratch (at anything) is zeroed, then holds one product; the output tile is handed back as found. -/
theorem run1A (c : Dev nD) (i : grid1.Coords)
    (arg3 : Memref sig .tc .vmem S1024x256 .f32) (harg3 : arg3.IsWhole)
    (arg4 : Memref sig .tc .vmem S2048x256 .bf16) (harg4 : arg4.IsWhole)
    (arg5 : Memref sig .tc .vmem S1x2048 .f32) (harg5 : arg5.IsWhole)
    (arg6 : Memref sig .tc .vmem S1024x2048 .f32) (harg6 : arg6.IsWhole)
    (arg7 : Memref sig .tc .vmem S1024x2048 .f32) (harg7 : arg7.IsWhole)
    (hc0 : cond1_0 i) (hc1 : ¬cond1_1 i)
    (x : Vec F S1024x256 .f32) (w : Vec F S2048x256 .bf16) (b : Vec F S1x2048 .f32) (o : Vec F S1024x2048 .f32)
    (E : Set ℕ) (K : PUnit → sProp 𝕄) :
    iprop(owns (c : Thread nD τ) arg3 fullShare x ∗ owns (c : Thread nD τ) arg4 fullShare w
        ∗ owns (c : Thread nD τ) arg5 fullShare b ∗ owns (c : Thread nD τ) arg6 fullShare o
        ∗ (∃ d, owns (c : Thread nD τ) arg7 fullShare d)
        ∗ (iprop(owns (c : Thread nD τ) arg3 fullShare x ∗ owns (c : Thread nD τ) arg4 fullShare w
            ∗ owns (c : Thread nD τ) arg5 fullShare b ∗ owns (c : Thread nD τ) arg6 fullShare o
            ∗ owns (c : Thread nD τ) arg7 fullShare (accStep x w accZero)) -∗ K ⟨⟩))
      ⊢ wp frame (wpE (defs₀ (F := F)) Variants.none c none) E
          (cc1__matmul_kernel i arg3 harg3 arg4 harg4 arg5 harg5 arg6 harg6 arg7 harg7) K := by
  simp only [cc1__matmul_kernel_eq_skeleton]; unfold cc1__matmul_kernel_skel
  unfold owns
  iintro ⟨⟨%f3, %hf3, H3⟩, ⟨%f4, %hf4, H4⟩, ⟨%f5, %hf5, H5⟩, ⟨%f6, %hf6, H6⟩, ⟨%d7, %f7, -, H7⟩, Hk⟩
  obtain rfl := harg3.eq_unread hf3; obtain rfl := harg4.eq_unread hf4
  obtain rfl := harg5.eq_unread hf5; obtain rfl := harg6.eq_unread hf6
  sl_exec (disch := first | exact hc0 | exact hc1)
  sl_step
  iapply Hk
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  iexists _; isplitr
  swap; · iexact H7
  ipureintro
  sl_unfold_words
  rw [acc1_read_last]
  simp only [View.readAt_eq_ld, Memref.IsWhole.read_unread, View.ld_unit_zero (S := S1024x256) off1_zero,
    View.ld_unit_zero (S := S2048x256) off1_zero, View.ld_unit_zero (S := S1024x2048) off1_zero, View.ld_unit_zero (S := S1x2048) off1_zero,
    View.readCov_unit_zero (S := S1024x2048) _ off1_zero]
  rfl

set_option maxHeartbeats 1000000 in
/-- A middle K-step: one more product onto the scratch; the output tile is handed back as found. -/
theorem run1B (c : Dev nD) (i : grid1.Coords)
    (arg3 : Memref sig .tc .vmem S1024x256 .f32) (harg3 : arg3.IsWhole)
    (arg4 : Memref sig .tc .vmem S2048x256 .bf16) (harg4 : arg4.IsWhole)
    (arg5 : Memref sig .tc .vmem S1x2048 .f32) (harg5 : arg5.IsWhole)
    (arg6 : Memref sig .tc .vmem S1024x2048 .f32) (harg6 : arg6.IsWhole)
    (arg7 : Memref sig .tc .vmem S1024x2048 .f32) (harg7 : arg7.IsWhole)
    (hc0 : ¬cond1_0 i) (hc1 : ¬cond1_1 i)
    (x : Vec F S1024x256 .f32) (w : Vec F S2048x256 .bf16) (b : Vec F S1x2048 .f32) (o : Vec F S1024x2048 .f32)
    (a : Vec F S1024x2048 .f32) (E : Set ℕ) (K : PUnit → sProp 𝕄) :
    iprop(owns (c : Thread nD τ) arg3 fullShare x ∗ owns (c : Thread nD τ) arg4 fullShare w
        ∗ owns (c : Thread nD τ) arg5 fullShare b ∗ owns (c : Thread nD τ) arg6 fullShare o
        ∗ owns (c : Thread nD τ) arg7 fullShare a
        ∗ (iprop(owns (c : Thread nD τ) arg3 fullShare x ∗ owns (c : Thread nD τ) arg4 fullShare w
            ∗ owns (c : Thread nD τ) arg5 fullShare b ∗ owns (c : Thread nD τ) arg6 fullShare o
            ∗ owns (c : Thread nD τ) arg7 fullShare (accStep x w a)) -∗ K ⟨⟩))
      ⊢ wp frame (wpE (defs₀ (F := F)) Variants.none c none) E
          (cc1__matmul_kernel i arg3 harg3 arg4 harg4 arg5 harg5 arg6 harg6 arg7 harg7) K := by
  simp only [cc1__matmul_kernel_eq_skeleton]; unfold cc1__matmul_kernel_skel
  unfold owns
  iintro ⟨⟨%f3, %hf3, H3⟩, ⟨%f4, %hf4, H4⟩, ⟨%f5, %hf5, H5⟩, ⟨%f6, %hf6, H6⟩, ⟨%f7, %hf7, H7⟩, Hk⟩
  obtain rfl := harg3.eq_unread hf3; obtain rfl := harg4.eq_unread hf4
  obtain rfl := harg5.eq_unread hf5; obtain rfl := harg6.eq_unread hf6; obtain rfl := harg7.eq_unread hf7
  sl_exec (disch := first | exact hc0 | exact hc1)
  sl_step
  iapply Hk
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  iexists _; isplitr
  swap; · iexact H7
  ipureintro
  sl_unfold_words
  rw [acc1_read_last]
  simp only [View.readAt_eq_ld, Memref.IsWhole.read_unread, View.ld_unit_zero (S := S1024x256) off1_zero,
    View.ld_unit_zero (S := S2048x256) off1_zero, View.ld_unit_zero (S := S1024x2048) off1_zero]
  rfl

set_option maxHeartbeats 1000000 in
/-- K-step 15: one more product onto the scratch, then scratch plus bias stored over the whole output tile (found at anything). -/
theorem run1C (c : Dev nD) (i : grid1.Coords)
    (arg3 : Memref sig .tc .vmem S1024x256 .f32) (harg3 : arg3.IsWhole)
    (arg4 : Memref sig .tc .vmem S2048x256 .bf16) (harg4 : arg4.IsWhole)
    (arg5 : Memref sig .tc .vmem S1x2048 .f32) (harg5 : arg5.IsWhole)
    (arg6 : Memref sig .tc .vmem S1024x2048 .f32) (harg6 : arg6.IsWhole)
    (arg7 : Memref sig .tc .vmem S1024x2048 .f32) (harg7 : arg7.IsWhole)
    (hc0 : ¬cond1_0 i) (hc1 : cond1_1 i)
    (x : Vec F S1024x256 .f32) (w : Vec F S2048x256 .bf16) (b : Vec F S1x2048 .f32)
    (a : Vec F S1024x2048 .f32) (E : Set ℕ) (K : PUnit → sProp 𝕄) :
    iprop(owns (c : Thread nD τ) arg3 fullShare x ∗ owns (c : Thread nD τ) arg4 fullShare w
        ∗ owns (c : Thread nD τ) arg5 fullShare b ∗ (∃ d, owns (c : Thread nD τ) arg6 fullShare d)
        ∗ owns (c : Thread nD τ) arg7 fullShare a
        ∗ (iprop(owns (c : Thread nD τ) arg3 fullShare x ∗ owns (c : Thread nD τ) arg4 fullShare w
            ∗ owns (c : Thread nD τ) arg5 fullShare b ∗ owns (c : Thread nD τ) arg6 fullShare (withBias (accStep x w a) b)
            ∗ owns (c : Thread nD τ) arg7 fullShare (accStep x w a)) -∗ K ⟨⟩))
      ⊢ wp frame (wpE (defs₀ (F := F)) Variants.none c none) E
          (cc1__matmul_kernel i arg3 harg3 arg4 harg4 arg5 harg5 arg6 harg6 arg7 harg7) K := by
  simp only [cc1__matmul_kernel_eq_skeleton]; unfold cc1__matmul_kernel_skel
  unfold owns
  iintro ⟨⟨%f3, %hf3, H3⟩, ⟨%f4, %hf4, H4⟩, ⟨%f5, %hf5, H5⟩, ⟨%d6, %f6, -, H6⟩, ⟨%f7, %hf7, H7⟩, Hk⟩
  obtain rfl := harg3.eq_unread hf3; obtain rfl := harg4.eq_unread hf4
  obtain rfl := harg5.eq_unread hf5; obtain rfl := harg7.eq_unread hf7
  sl_exec (disch := first | exact hc0 | exact hc1)
  sl_step
  iapply Hk
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr
    swap; · iexact H6
    ipureintro
    sl_unfold_words
    rw [acc1_read_last]
    simp only [View.readAt_eq_ld, Memref.IsWhole.read_unread, View.ld_unit_zero (S := S1024x256) off1_zero,
    View.ld_unit_zero (S := S2048x256) off1_zero, View.ld_unit_zero (S := S1024x2048) off1_zero, View.ld_unit_zero (S := S1x2048) off1_zero,
    View.readCov_unit_zero (S := S1024x2048) _ off1_zero]
    rfl
  iexists _; isplitr
  swap; · iexact H7
  ipureintro
  sl_unfold_words
  rw [acc1_read_last]
  simp only [View.readAt_eq_ld, Memref.IsWhole.read_unread, View.ld_unit_zero (S := S1024x256) off1_zero,
    View.ld_unit_zero (S := S2048x256) off1_zero, View.ld_unit_zero (S := S1024x2048) off1_zero]
  rfl

/-! ## The conditions and the schedule in closed form -/

/-- The reset branch is taken at the points ≡ 0 (mod 16): decided over the grid. -/
theorem hcond1_0 : ∀ t : Fin cfg1.N, cond1_0 (grid1.coords t) ↔ t.val % 16 = 0 :=
  (by decide +kernel : ∀ t : Fin grid1.N, cond1_0 (grid1.coords t) ↔ t.val % 16 = 0)
/-- The write-out branch is taken at the points ≡ 15 (mod 16). -/
theorem hcond1_1 : ∀ t : Fin cfg1.N, cond1_1 (grid1.coords t) ↔ t.val % 16 = 15 :=
  (by decide +kernel : ∀ t : Fin grid1.N, cond1_1 (grid1.coords t) ↔ t.val % 16 = 15)

/-- Where the write-out branch is not taken the output window is idle, -/
theorem idle1_3_of (i : grid1.Coords) (h : ¬cond1_1 i) : cfg1.idle 3 i = true := by
  show (!(k1_cond2 i == 1#1)) = true
  rw [Bool.not_eq_true', beq_eq_false_iff_ne]; exact h
/-- and where it is taken the window is live. -/
theorem live1_3_of (i : grid1.Coords) (h : cond1_1 i) : cfg1.idle 3 i = false := by
  show (!(k1_cond2 i == 1#1)) = false
  rw [Bool.not_eq_false', beq_iff_eq]; exact h
/-- The output tile is not written back before the last K-step. -/
theorem noFlush1_3 (t : Fin cfg1.N) (h : ¬t.val % 16 = 15) : (cfg1.win 3).flush t = false :=
  Bool.eq_false_iff.mpr fun hf => h ((flush1_3 t).mp hf)

/-! ## What the body finds in the input windows -/

/-- Each input's current staging buffer holds its tile at every point, fetched there or not. -/
theorem before1_0 (c : Dev nD) (t : Fin cfg1.N) (d) : (dat1 V c).before 0 t d = blk1 V c 0 t :=
  ((dat1 V c).before_in_eq_fetched 0 rfl (fun _ => rfl) (fun _ _ _ => rfl)
      (fun t => by rw [dat1_after_0]; unfold Dat.blockOf blk1; rw [dat1_A]; try rfl) t d).trans
    (by unfold Dat.fetched Dat.blockOf blk1; rw [dat1_A]; try rfl)
theorem before1_1 (c : Dev nD) (t : Fin cfg1.N) (d) : (dat1 V c).before 1 t d = blk1 V c 1 t :=
  ((dat1 V c).before_in_eq_fetched 1 rfl (fun _ => rfl) (fun _ _ _ => rfl)
      (fun t => by rw [dat1_after_1]; unfold Dat.blockOf blk1; rw [dat1_A]; try rfl) t d).trans
    (by unfold Dat.fetched Dat.blockOf blk1; rw [dat1_A]; try rfl)
theorem before1_2 (c : Dev nD) (t : Fin cfg1.N) (d) : (dat1 V c).before 2 t d = blk1 V c 2 t :=
  ((dat1 V c).before_in_eq_fetched 2 rfl (fun _ => rfl) (fun _ _ _ => rfl)
      (fun t => by rw [dat1_after_2]; unfold Dat.blockOf blk1; rw [dat1_A]; try rfl) t d).trans
    (by unfold Dat.fetched Dat.blockOf blk1; rw [dat1_A]; try rfl)

/-! ## The invariant, opened -/

/-- The class invariant with the accumulator scratch split off as a memref owned at some contents. -/
theorem PhiA1_open (c : Dev nD) :
    (Pipeline.ΦA spec1 c : sProp 𝕄)
      ⊢ iprop(otherScoped (F := F) c ∗ (∃ d, owns (c : Thread nD τ) accM fullShare d) ∗ (∃ r, prngReg c r)) := by
  unfold Pipeline.ΦA; rw [scopedRest1_eq]; unfold otherScoped; simp only [accM, owns_whole]
  iintro ⟨⟨H1, H2, H3, H4, H5, H6, H7⟩, Hr⟩
  isplitl [H1 H2 H3 H4 H5 H6]
  · isplitl [H1]; · iexact H1
    isplitl [H2]; · iexact H2
    isplitl [H3]; · iexact H3
    isplitl [H4]; · iexact H4
    isplitl [H5]; · iexact H5
    iexact H6
  isplitl [H7]; · iexact H7
  iexact Hr

/-- And put back. -/
theorem PhiA1_close (c : Dev nD) :
    iprop(otherScoped (F := F) c ∗ (∃ d, owns (c : Thread nD τ) accM fullShare d) ∗ (∃ r, prngReg c r))
      ⊢ (Pipeline.ΦA spec1 c : sProp 𝕄) := by
  unfold Pipeline.ΦA; rw [scopedRest1_eq]; unfold otherScoped; simp only [accM, owns_whole]
  iintro ⟨⟨H1, H2, H3, H4, H5, H6⟩, H7, Hr⟩
  isplitl [H1 H2 H3 H4 H5 H6 H7]
  · isplitl [H1]; · iexact H1
    isplitl [H2]; · iexact H2
    isplitl [H3]; · iexact H3
    isplitl [H4]; · iexact H4
    isplitl [H5]; · iexact H5
    isplitl [H6]; · iexact H6
    iexact H7
  iexact Hr

theorem inv1_succ (c : Dev nD) (n : ℕ) (hn : n < cfg1.N) :
    inv1 V c (n + 1) hn
      = iprop(otherScoped (F := F) c ∗ owns (c : Thread nD τ) accM fullShare (accAt1 V c n hn) ∗ (∃ r, prngReg c r)) := rfl

/-- Before a point that is not the first the scratch holds what the point before left. -/
theorem inv1_pos (c : Dev nD) (n : ℕ) (h : n ≤ cfg1.N) (hz : n ≠ 0) :
    inv1 V c n h
      = iprop(otherScoped (F := F) c ∗ owns (c : Thread nD τ) accM fullShare (accAt1 V c (n - 1) (by omega)) ∗ (∃ r, prngReg c r)) := by
  cases n with
  | zero => exact absurd rfl hz
  | succ n => rfl

/-- Before any point the scratch holds something. -/
theorem inv1_any (c : Dev nD) (n : ℕ) (h : n ≤ cfg1.N) :
    inv1 V c n h ⊢ iprop(otherScoped (F := F) c ∗ (∃ d, owns (c : Thread nD τ) accM fullShare d) ∗ (∃ r, prngReg c r)) := by
  cases n with
  | zero => exact PhiA1_open c
  | succ n =>
    rw [inv1_succ]
    iintro ⟨Ho, Ha, Hr⟩
    isplitl [Ho]; · iexact Ho
    isplitl [Ha]; · iexists _; iexact Ha
    iexact Hr

theorem Phi_castSucc1 (c : Dev nD) (t : Fin cfg1.N) :
    (dat1 V c).Φ t.castSucc = inv1 V c t.val (Nat.le_of_lt t.isLt) := rfl

/-! ## The body obligation at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4000000 in
/-- The body at any point: the K-step (the point's number mod 16) selects the case; the inputs' buffers hold their tiles;
    the invariant hands over the scratch (at anything for a reset point, at the previous accumulator otherwise) and takes
    it back at this point's accumulator; the output tile is handed back as found except at the last K-step, where it
    receives accumulator plus bias. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = inv1 V c (t.val + 1) t.isLt from rfl, inv1_succ, Phi_castSucc1]
  rw [show (dat1 V c).leavesExact 0 t = owns (c : Thread nD τ) (st1_0 t) fullShare ((dat1 V c).after 0 t) from rfl, dat1_after_0]
  rw [show (dat1 V c).leavesExact 1 t = owns (c : Thread nD τ) (st1_1 t) fullShare ((dat1 V c).after 1 t) from rfl, dat1_after_1]
  rw [show (dat1 V c).leavesExact 2 t = owns (c : Thread nD τ) (st1_2 t) fullShare ((dat1 V c).after 2 t) from rfl, dat1_after_2]
  by_cases h0 : t.val % 16 = 0
  · -- K-step 0
    have h1 : ¬t.val % 16 = 15 := by omega
    have hc0 : cond1_0 (grid1.coords t) := (hcond1_0 t).mpr h0
    have hc1 : ¬cond1_1 (grid1.coords t) := fun h => h1 ((hcond1_1 t).mp h)
    rw [Dat.leavesExact_idle (dat1 V c) 3 t (idle1_3_of _ hc1) (noFlush1_3 t h1)]
    rw [accAt1_reset V c t h0]
    iintro ⟨Hinv, Ho, ⟨%d0, H0⟩, ⟨%d1, H1⟩, ⟨%d2, H2⟩, ⟨%d3, H3⟩⟩
    icases (inv1_any V c t.val (Nat.le_of_lt t.isLt)) $$ Hinv with ⟨Hoth, ⟨%d7, HS⟩, Hg⟩
    iapply (run1A c (grid1.coords t) _ _ _ _ _ _ _ _ _ _ hc0 hc1 (blk1 V c 0 t) (blk1 V c 1 t) (blk1 V c 2 t)
      ((dat1 V c).before 3 t d3) Set.univ _)
    isplitl [H0]; · iexact H0
    isplitl [H1]; · iexact H1
    isplitl [H2]; · iexact H2
    isplitl [H3]; · iexact H3
    isplitl [HS]; · iexists _; iexact HS
    iintro ⟨H0, H1, H2, H3, HS⟩
    isplitl [Hoth HS Hg]
    · isplitl [Hoth]; · iexact Hoth
      isplitl [HS]; · iexact HS
      iexact Hg
    isplitl [Ho]; · iexact Ho
    isplitl [H0]; · iexact H0
    isplitl [H1]; · iexact H1
    isplitl [H2]; · iexact H2
    iexists _; iexact H3
  · have hz : t.val ≠ 0 := fun e => h0 (by rw [e])
    have hc0 : ¬cond1_0 (grid1.coords t) := fun h => h0 ((hcond1_0 t).mp h)
    rw [accAt1_step V c t h0, inv1_pos V c _ _ hz]
    by_cases h1 : t.val % 16 = 15
    · -- K-step 15
      have hc1 : cond1_1 (grid1.coords t) := (hcond1_1 t).mpr h1
      rw [show (dat1 V c).leavesExact 3 t = owns (c : Thread nD τ) (st1_3 t) fullShare ((dat1 V c).after 3 t) from by
        unfold Dat.leavesExact; rw [live1_3_of _ hc1], dat1_after_3, accAt1_step V c t h0]
      iintro ⟨⟨Hoth, HS, Hg⟩, Ho, ⟨%d0, H0⟩, ⟨%d1, H1⟩, ⟨%d2, H2⟩, ⟨%d3, H3⟩⟩
      iapply (run1C c (grid1.coords t) _ _ _ _ _ _ _ _ _ _ hc0 hc1 (blk1 V c 0 t) (blk1 V c 1 t) (blk1 V c 2 t)
        (accAt1 V c (t.val - 1) (Nat.lt_of_le_of_lt (Nat.sub_le _ _) t.isLt)) Set.univ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [Hoth HS Hg]
      · isplitl [Hoth]; · iexact Hoth
        isplitl [HS]; · iexact HS
        iexact Hg
      isplitl [Ho]; · iexact Ho
      isplitl [H0]; · iexact H0
      isplitl [H1]; · iexact H1
      isplitl [H2]; · iexact H2
      iexact H3
    · -- a middle K-step
      have hc1 : ¬cond1_1 (grid1.coords t) := fun h => h1 ((hcond1_1 t).mp h)
      rw [Dat.leavesExact_idle (dat1 V c) 3 t (idle1_3_of _ hc1) (noFlush1_3 t h1)]
      iintro ⟨⟨Hoth, HS, Hg⟩, Ho, ⟨%d0, H0⟩, ⟨%d1, H1⟩, ⟨%d2, H2⟩, ⟨%d3, H3⟩⟩
      iapply (run1B c (grid1.coords t) _ _ _ _ _ _ _ _ _ _ hc0 hc1 (blk1 V c 0 t) (blk1 V c 1 t) (blk1 V c 2 t)
        ((dat1 V c).before 3 t d3) (accAt1 V c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [Hoth HS Hg]
      · isplitl [Hoth]; · iexact Hoth
        isplitl [HS]; · iexact HS
        iexact Hg
      isplitl [Ho]; · iexact Ho
      isplitl [H0]; · iexact H0
      isplitl [H1]; · iexact H1
      isplitl [H2]; · iexact H2
      iexists _; iexact H3

/-- The body meets the pipeline's obligation at every grid point. -/
theorem body_obligation1 (c : Dev nD) : BodyObligation (dat1 (F := F) V c) (defs₀ (F := F)) Variants.none () Set.univ := fun t => by
  rw [bigSep_W1, bigSep_W1]
  exact sound_body1 V c t

/-- Entering the region: the class invariant is the invariant before the first point. -/
theorem inv1_enter (c : Dev nD) : Pipeline.ΦA spec1 c ⊢ (dat1 V c).Φ 0 := by
  rw [show (dat1 V c).Φ 0 = inv1 V c 0 (Nat.zero_le _) from rfl]
  exact Idealize.SL.BI.Entails.refl _

/-- Leaving the region: the accumulator's contents are forgotten again. -/
theorem inv1_leave (c : Dev nD) : (dat1 V c).Φ (Fin.last cfg1.N) ⊢ Pipeline.ΦA spec1 c := by
  rw [show (dat1 V c).Φ (Fin.last cfg1.N)
      = inv1 V c (Fin.last cfg1.N).val (Nat.le_of_lt_succ (Fin.last cfg1.N).isLt) from rfl]
  exact (inv1_any V c _ _).trans (PhiA1_close c)

end Cert.KernelIdeal.Hand

end
-- ==== Proof.KIRun.lean ====
/-
  The whole program as a run of four segments — a stretch of host operations, the table-lookup region, one more
  host operation, the matmul region — from any launch memory: the buffer contents at every segment boundary as a
  fold from the launch memory, and the theorem that every weakly fair execution terminates with every unscoped
  buffer at the last boundary's contents.
-/
import proofs.«404060_j2997887172647_3_alg».proof.Proof.Gen.KernelIdeal.Launch
import proofs.«404060_j2997887172647_3_alg».proof.Proof.Gen.KernelIdeal.Skeleton
import proofs.«404060_j2997887172647_3_alg».proof.Proof.Gen.KernelIdeal.Points
import proofs.«404060_j2997887172647_3_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«404060_j2997887172647_3_alg».proof.Proof.KIReg0
import proofs.«404060_j2997887172647_3_alg».proof.Proof.KIReg1

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## The buffers' contents at the segment boundaries -/

/-- At launch. -/
abbrev W0 : Dev nD → Valuation τ sig (Elt F) := fun c b => m (c, b)
/-- After the first host stretch (entry of the lookup region). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- After the lookup region: its output array at what the write-backs leave, everything else as entered. -/
def W2 (c : Dev nD) : Valuation τ sig (Elt F) :=
  Pipeline.withArrays spec0 c (W1 m c) fun w => (dat0 (V1 m) c).arrAt w cfg0.N
abbrev V2 : (c : Dev nD) → (b : Ref sig .tc) → Buf (Elt F) ((c : Thread nD τ).loc b) := fun c b => W2 m c b
/-- After the second host stretch (entry of the matmul region). -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- After the matmul region. -/
def W4 (c : Dev nD) : Valuation τ sig (Elt F) :=
  Pipeline.withArrays spec1 c (W3 m c) fun w => (dat1 (V3 m) c).arrAt w cfg1.N

/-- An unscoped TensorCore reference is among those the run tracks. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## Reading the fold -/

/-- A window's array of the lookup region, once the region is over: what its write-backs leave. -/
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
/-- Any other buffer is as the lookup region found it. -/
theorem W2_off (c : Dev nD) (r : Ref sig .tc) (hr : ∀ w, Pipeline.arrRef spec0 w ≠ r) :
    W2 m c (Proc.devRef .tc r) = W1 m c (Proc.devRef .tc r) := by
  unfold W2; exact Pipeline.withArrays_of_ne spec0 c _ _ r hr
/-- A window's array of the matmul region, once the region is over. -/
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
/-- Any other buffer is as the matmul region found it. -/
theorem W4_off (c : Dev nD) (r : Ref sig .tc) (hr : ∀ w, Pipeline.arrRef spec1 w ≠ r) :
    W4 m c (Proc.devRef .tc r) = W3 m c (Proc.devRef .tc r) := by
  unfold W4; exact Pipeline.withArrays_of_ne spec1 c _ _ r hr
/-- The first host stretch writes its thirteen temporaries only. -/
theorem W1_off (c : Dev nD) (r : Ref sig .tc) (hr : r ∉ hostOps0_W) :
    W1 m c (Proc.devRef .tc r) = m ((c : Thread nD τ).loc r) :=
  StableHlo.after_of_writes_sub hostOps0 _ hostOps0_writes hr
/-- The second host stretch writes the reshaped bias only. -/
theorem W3_off (c : Dev nD) (r : Ref sig .tc) (hr : r ∉ hostOps1_W) :
    W3 m c (Proc.devRef .tc r) = W2 m c (Proc.devRef .tc r) :=
  StableHlo.after_of_writes_sub hostOps1 _ hostOps1_writes hr

/-- A buffer that no host operation writes and that is no window's array of either region holds its launch
    contents at every boundary. -/
theorem W4_bystander (c : Dev nD) (r : Ref sig .tc) (h0 : r ∉ hostOps0_W) (h1 : r ∉ hostOps1_W)
    (ha0 : ∀ w, Pipeline.arrRef spec0 w ≠ r) (ha1 : ∀ w, Pipeline.arrRef spec1 w ≠ r) :
    W4 m c (Proc.devRef .tc r) = m ((c : Thread nD τ).loc r) :=
  (W4_off m c r ha1).trans <| (W3_off m c r h1).trans <| (W2_off m c r ha0).trans (W1_off m c r h0)

/-- What the lookup region finds: the codes as launched. -/
theorem V1_main_arg1 (c : Dev nD) : V1 m c main_arg1 = m ((c : Thread nD τ).loc main_arg1) :=
  W1_off m c main_arg1 (by decide)

/-- What the matmul region finds: the activations as launched, the weights as the lookup region left them. -/
theorem V3_main_arg0 (c : Dev nD) : V3 m c main_arg0 = m ((c : Thread nD τ).loc main_arg0) :=
  (W3_off m c main_arg0 (by decide)).trans <| (W2_off m c main_arg0 (by decide)).trans (W1_off m c main_arg0 (by decide))
theorem V3_main_v13 (c : Dev nD) : V3 m c main_v13 = (dat0 (V1 m) c).arrAt 2 cfg0.N :=
  (W3_off m c main_v13 (by decide)).trans (W2_arr m c 2)
theorem V3_main_v14 (c : Dev nD) : V3 m c main_v14 = StableHlo.after hostOps1 (W2 m c) (Proc.devRef .tc main_v14) := rfl

/-- The activations are an input window of the matmul region: it leaves them as entered. -/
theorem W4_main_arg0 (c : Dev nD) : W4 m c (Proc.devRef .tc main_arg0) = m ((c : Thread nD τ).loc main_arg0) :=
  (W4_arr m c 0).trans <| ((dat1 (V3 m) c).arrAt_in 0 rfl _).trans <| (dat1_A (V3 m) c 0).trans (V3_main_arg0 m c)
/-- The codes are an input window of the lookup region, and nothing after it touches them. -/
theorem W4_main_arg1 (c : Dev nD) : W4 m c (Proc.devRef .tc main_arg1) = m ((c : Thread nD τ).loc main_arg1) :=
  (W4_off m c main_arg1 (by decide)).trans <| (W3_off m c main_arg1 (by decide)).trans <| (W2_arr m c 0).trans <|
    ((dat0 (V1 m) c).arrAt_in 0 rfl _).trans <| (dat0_A (V1 m) c 0).trans (V1_main_arg1 m c)
theorem W4_main_arg2 (c : Dev nD) : W4 m c (Proc.devRef .tc main_arg2) = m ((c : Thread nD τ).loc main_arg2) :=
  W4_bystander m c main_arg2 (by decide) (by decide) (by decide) (by decide)
theorem W4_main_arg3 (c : Dev nD) : W4 m c (Proc.devRef .tc main_arg3) = m ((c : Thread nD τ).loc main_arg3) :=
  W4_bystander m c main_arg3 (by decide) (by decide) (by decide) (by decide)
theorem W4_main_arg4 (c : Dev nD) : W4 m c (Proc.devRef .tc main_arg4) = m ((c : Thread nD τ).loc main_arg4) :=
  W4_bystander m c main_arg4 (by decide) (by decide) (by decide) (by decide)
/-- The result array at the end is what the matmul region's write-backs leave. -/
theorem W4_main_v15 (c : Dev nD) : W4 m c (Proc.devRef .tc main_v15) = (dat1 (V3 m) c).arrAt 3 cfg1.N :=
  W4_arr m c 3

/-! ## The run -/

/-! ### What a core holds between segments -/

/-- Every pipeline's proof data, each taken at the contents its region is entered at. -/
def regData : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c

/-- No core waits on another: no cell has a level. -/
abbrev noPairs : GSem nD τ sig → Finset Unit := fun _ => ∅
abbrev noLevel : GSem nD τ sig → Unit → ℕ := fun _ _ => 0

/-- All unscoped buffers of core `c` at the contents `W`. -/
abbrev allAt (c : Dev nD) (W : Valuation τ sig (Elt F)) : sProp 𝕄 :=
  StableHlo.held (c : Thread nD τ) (Pipeline.ucRefs τ sig) W
/-- The generator register at some state. -/
abbrev someReg (c : Dev nD) : sProp 𝕄 := iprop(∃ r, prngReg c r)
/-- The core owes nothing. -/
abbrev owesNone (c : Dev nD) : sProp 𝕄 := iprop(∃ W, owes (c : Thread nD τ) (0 : CellTallies nD τ sig Unit) W)
/-- What accompanies the buffers across every boundary. -/
abbrev beside (c : Dev nD) : sProp 𝕄 := iprop(someReg (F := F) c ∗ owesNone (F := F) c)

theorem hostOps0_noalloc : (hostOps0 : List (HloOp τ sig (Elt F))).Forall fun op => op.fresh = ∅ := hostOps0_fresh
theorem hostOps1_noalloc : (hostOps1 : List (HloOp τ sig (Elt F))).Forall fun op => op.fresh = ∅ := hostOps1_fresh

/-- A stretch of host operations run from the contents `W`: it ends at `StableHlo.after ops (W c)`. -/
abbrev stretch (ops : List (HloOp τ sig (Elt F))) (hsub : ops.Forall fun op => op.bufs ⊆ StableHlo.tcRefs τ sig)
    (hnew : ops.Forall fun op => op.fresh = ∅) (W : Dev nD → Valuation τ sig (Elt F)) :
    Pipeline.HostSeg (Name := ℕ) (U := UR sig nD τ) (pcfgs (F := F)) defs₀ Variants.none noPairs noLevel :=
  Pipeline.HostSeg.ofOps _ _ _ _ _ (Pipeline.ucRefs τ sig) ops
    (fun op hop => Pipeline.sub_ucRefs op (List.forall_iff_forall_mem.mp hsub op hop))
    (fun op hop => List.forall_iff_forall_mem.mp hnew op hop) W (beside (F := F))

/-! ### Small steps shared by the two regions -/

/-- A pipeline without prefetched tables holds none. -/
theorem noTables (pre : Pipeline.Prefetch sig) (hK : pre.K = 0) (c : Dev nD) (q : Fin pre.K → PosShare TreeShare) (T : pre.Contents (Elt F)) :
    (BI.emp : sProp 𝕄) ⊢ Pipeline.prefHeld (Ix := Unit) (Name := ℕ) (U := UR sig nD τ) (Lvl := ℕ) pre c q T := by
  unfold Pipeline.prefHeld
  have : (Finset.univ : Finset (Fin pre.K)) = ∅ := by
    apply Finset.eq_empty_of_forall_notMem; intro k; exact absurd k.isLt (by omega)
  rw [this, BI.bigSep_empty]

section Steps

variable {cfg : Cfg sig Λ₀} {c : Dev nD} (d : Dat τ (Elt F) Unit ℕ (UR sig nD τ) ℕ cfg c)

/-- A core that owes nothing meets the pipeline's account before point `t`, when the proof data owe nothing there
    and bound the recorded pairs by everything. -/
theorem owesAt_intro (t : Fin (cfg.N + 1)) (ho : d.owed t = 0) (hr : d.recorded t = Set.univ) :
    owesNone (F := F) c ⊢ d.owesAt () t := by
  unfold Pipeline.Dat.owesAt Pipeline.owesWithin
  rw [ho]
  iintro ⟨%W, H⟩
  iexists W
  isplitr
  · ipureintro; intro x _; exact Or.inl (hr ▸ Set.mem_univ x)
  iexact H

/-- And back: the pipeline's account at nothing owed is a core that owes nothing. -/
theorem owesAt_elim (t : Fin (cfg.N + 1)) (ho : d.owed t = 0) :
    d.owesAt () t ⊢ owesNone (F := F) c := by
  unfold Pipeline.Dat.owesAt Pipeline.owesWithin
  rw [ho]
  iintro ⟨%W, -, H⟩
  iexists W
  iexact H

end Steps

/-- ENTRY of a region, the bookkeeping: the unscoped buffers cut into the region's arrays `A` and the bypassing rest
    `Z`; the tables (there are none) from nothing; the account from the core owing nothing; the register passed on. -/
theorem enter_region {A Z T O : sProp 𝕄} (c : Dev nD) (W : Valuation τ sig (Elt F))
    (hcut : allAt c W ⊢ iprop(A ∗ Z)) (htab : (BI.emp : sProp 𝕄) ⊢ T) (hacc : owesNone (F := F) c ⊢ O) :
    iprop((allAt c W ∗ beside (F := F) c) ∗ BI.emp ∗ levAts noPairs noLevel)
      ⊢ |={Set.univ}=> iprop(A ∗ T ∗ O ∗ someReg (F := F) c ∗ Z) := by
  iintro ⟨⟨Hall, Hreg, Howe⟩, -, -⟩
  ihave Hcut := hcut $$ Hall
  icases Hcut with ⟨HA, HZ⟩
  ihave HO := hacc $$ Howe
  imodintro
  isplitl [HA]; · iexact HA
  isplitr
  · iapply htab; iempintro
  isplitl [HO]; · iexact HO
  isplitl [Hreg]; · iexact Hreg
  iexact HZ

/-- EXIT of a region, the bookkeeping: the arrays at their last contents `A` and the bypassing rest `Z` make all the
    unscoped buffers at the next boundary's contents; the account closes at nothing owed. -/
theorem leave_region {A Z O : sProp 𝕄} (c : Dev nD) (W : Valuation τ sig (Elt F))
    (hjoin : iprop(A ∗ Z) ⊢ allAt c W) (hacc : O ⊢ owesNone (F := F) c) :
    iprop(A ∗ O ∗ someReg (F := F) c ∗ Z) ⊢ |={Set.univ}=> iprop(allAt c W ∗ beside (F := F) c) := by
  iintro ⟨HA, HO, Hreg, HZ⟩
  ihave Hall := hjoin $$ [HA HZ]
  · isplitl [HA]; · iexact HA
    iexact HZ
  ihave Howe := hacc $$ HO
  imodintro
  isplitl [Hall]; · iexact Hall
  isplitl [Hreg]; · iexact Hreg
  iexact Howe

/-- The class invariant from its two parts and back. -/
theorem ΦA_intro {gr W : ℕ} (win : Fin W → Pipeline.WinSpec sig gr) (c : Dev nD) (T : sProp 𝕄) :
    iprop(someReg (F := F) c ∗ T ∗ Pipeline.scopedRest win c) ⊢ (Pipeline.ΦA win c : sProp 𝕄) := by
  unfold Pipeline.ΦA
  iintro ⟨Hreg, -, Hs⟩
  isplitl [Hs]; · iexact Hs
  iexact Hreg
theorem ΦA_elim {gr W : ℕ} (win : Fin W → Pipeline.WinSpec sig gr) (c : Dev nD) :
    (Pipeline.ΦA win c : sProp 𝕄) ⊢ iprop(someReg (F := F) c ∗ BI.emp ∗ Pipeline.scopedRest win c) := by
  unfold Pipeline.ΦA
  iintro ⟨Hs, Hreg⟩
  isplitl [Hreg]; · iexact Hreg
  isplitr; · iempintro
  iexact Hs

/-! ### The two regions as segments -/

set_option backward.isDefEq.respectTransparency.types false in
/-- The table-lookup region: entered with every unscoped buffer at `W1`, left with them at `W2`. -/
def lookupSeg : Pipeline.RegionSeg (pcfgs (F := F)) adm (regData m) () defs₀ Variants.none noPairs noLevel 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ noPairs noLevel 0 fun _ _ => rfl
  pre c := iprop(allAt c (W1 m c) ∗ beside (F := F) c)
  post c := iprop(allAt c (W2 m c) ∗ beside (F := F) c)
  X c := someReg (F := F) c
  Y c := someReg (F := F) c
  Z c := Pipeline.unscopedRest (Ix := Unit) (Name := ℕ) (U := UR sig nD τ) (Lvl := ℕ) spec0 c (V1 m c)
  hentry c := by
    rw [Pipeline.ownSems0_none]
    have hcut := Pipeline.arrays_of_unscopedBufs (p := 0) (pcfgs (F := F)) adm (regData m) launch0.win launch0.arr_whole c
      ((regData m 0 c).share_full fun _ => rfl) (V1 m c) fun _ => rfl
    rw [Pipeline.unscopedBufs_held] at hcut
    exact enter_region c (W1 m c) hcut (noTables _ rfl c _ _) (owesAt_intro (regData m 0 c) 0 rfl rfl)
  hin c := ΦA_intro spec0 c _
  hout c := by
    rw [Pipeline.ownSems0_none]; exact ΦA_elim spec0 c
  hexit c := by
    have hjoin := Pipeline.unscopedBufs_of_arrays (p := 0) (pcfgs (F := F)) adm (Ix := Unit) (Name := ℕ) (U := UR sig nD τ) (Lvl := ℕ)
      launch0.win launch0.arr_whole c (regData m) ((regData m 0 c).share_full fun _ => rfl)
      (V1 m c) (V2 m c) ((regData m 0 c).arrAt · cfg0.N) (fun w => (W2_arr m c w).symm)
      (fun b hb => W2_off m c b fun w e => hb (Finset.mem_image.mpr ⟨w, Finset.mem_univ _, e⟩))
    rw [Pipeline.unscopedBufs_held] at hjoin
    exact leave_region c (W2 m c) hjoin (owesAt_elim (regData m 0 c) _ rfl)

set_option backward.isDefEq.respectTransparency.types false in
/-- The matmul region: entered with every unscoped buffer at `W3`, left with them at `W4`. Its invariant is not the
    class invariant itself but one that follows the accumulator: it is entered from the class invariant and gives it back. -/
def matmulSeg : Pipeline.RegionSeg (pcfgs (F := F)) adm (regData m) () defs₀ Variants.none noPairs noLevel 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ noPairs noLevel 1 fun _ _ => rfl
  pre c := iprop(allAt c (W3 m c) ∗ beside (F := F) c)
  post c := iprop(allAt c (W4 m c) ∗ beside (F := F) c)
  X c := someReg (F := F) c
  Y c := someReg (F := F) c
  Z c := Pipeline.unscopedRest (Ix := Unit) (Name := ℕ) (U := UR sig nD τ) (Lvl := ℕ) spec1 c (V3 m c)
  hentry c := by
    rw [Pipeline.ownSems0_none]
    have hcut := Pipeline.arrays_of_unscopedBufs (p := 1) (pcfgs (F := F)) adm (regData m) launch1.win launch1.arr_whole c
      ((regData m 1 c).share_full fun _ => rfl) (V3 m c) fun _ => rfl
    rw [Pipeline.unscopedBufs_held] at hcut
    exact enter_region c (W3 m c) hcut (noTables _ rfl c _ _) (owesAt_intro (regData m 1 c) 0 rfl rfl)
  hin c := (ΦA_intro spec1 c _).trans (inv1_enter (V3 m) c)
  hout c := by
    rw [Pipeline.ownSems0_none]; exact (inv1_leave (V3 m) c).trans (ΦA_elim spec1 c)
  hexit c := by
    have hjoin := Pipeline.unscopedBufs_of_arrays (p := 1) (pcfgs (F := F)) adm (Ix := Unit) (Name := ℕ) (U := UR sig nD τ) (Lvl := ℕ)
      launch1.win launch1.arr_whole c (regData m) ((regData m 1 c).share_full fun _ => rfl)
      (V3 m c) (fun b => W4 m c b) ((regData m 1 c).arrAt · cfg1.N) (fun w => (W4_arr m c w).symm)
      (fun b hb => W4_off m c b fun w e => hb (Finset.mem_image.mpr ⟨w, Finset.mem_univ _, e⟩))
    rw [Pipeline.unscopedBufs_held] at hjoin
    exact leave_region c (W4 m c) hjoin (owesAt_elim (regData m 1 c) _ rfl)

/-! ### The program as its four segments, and the launch -/

/-- Nothing, on every core. -/
theorem emp_on_every_core : (BI.emp : sProp 𝕄) ⊢ bigSep Finset.univ (fun _ : Dev nD => (BI.emp : sProp 𝕄)) := by
  rw [BI.bigSep_emp_const]
/-- Three conjuncts bracketed the other way. -/
theorem regroup (A B C : sProp 𝕄) : iprop(A ∗ B ∗ C) ⊢ iprop((A ∗ B) ∗ C) := by
  iintro ⟨HA, HB, HC⟩
  isplitl [HA HB]
  · isplitl [HA]; · iexact HA
    iexact HB
  iexact HC
/-- All unscoped buffers held at `W` beside a machine state: that state's memory holds `W` at each of them. -/
theorem read_allAt (c : Dev nD) (W : Valuation τ sig (Elt F)) (s' : Phys nD τ sig (Elt F)) :
    iprop(allAt c W ∗ SI s') ⊢ (iprop(⌜∀ b ∈ Pipeline.ucRefs τ sig, s'.mem.mem (((c : Thread nD τ)).1, b) = W b⌝ ∗ SI s') : sProp 𝕄) :=
  pointsTo_read_all (Pipeline.ucRefs τ sig) (fun b => (((c : Thread nD τ)).1, b)) W s'

abbrev fourSegs : List (Pipeline.Seg (pcfgs (F := F)) adm (regData m) () defs₀ Variants.none noPairs noLevel) :=
  [ .host (stretch hostOps0 hostOps0_sub hostOps0_noalloc (W0 m)),
    .region (lookupSeg m),
    .host (stretch hostOps1 hostOps1_sub hostOps1_noalloc (W2 m)),
    .region (matmulSeg m) ]

/-- The program is the run of the four segments. -/
theorem main_is_run (c : Dev nD) : main (F := F) c = Pipeline.Seg.run (fourSegs m) :=
  (main_chain c).trans (by chain_rfl)

set_option backward.isDefEq.respectTransparency.types false in
/-- From any memory with zero counters every weakly fair execution of the program terminates, nothing faulting, and
    every unscoped buffer ends at the last boundary's contents. -/
theorem run_main (ρ : Dev nD → PrngReg) :
    θ_run defs (onTc (τ := τ) (main (F := F))) ⟨m, fun _ => 0, ρ⟩
      (fun r => ∀ c : Dev nD, ∀ b ∈ Pipeline.ucRefs τ sig, r.2.mem (((c : Thread nD τ)).1, b) = W4 m c b) :=
  Pipeline.θ_run_regions_kit (pcfgs (F := F)) adm (regData m) () cellOf_inj emb₁ defs₀ Variants.none noPairs noLevel m ρ main
    (fourSegs m)
    (fun c Q => by rw [main_is_run m c])
    (by simp only [fourSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply emp_on_every_core (F := F); iempintro)
    (T₀ := fun c => iprop(allAt c (W0 m c) ∗ beside (F := F) c))
    (Tₙ := fun c => iprop(allAt c (W4 m c) ∗ someReg (F := F) c))
    (hch := ⟨fun _ => .rfl, fun _ => .rfl, fun _ => .rfl, fun _ => .rfl, fun c => regroup _ _ _⟩)
    (hinit := by
      refine Pipeline.initEach noPairs noLevel fun c => ?_
      rw [show unscopedBufs c (fun b => m ((c : Thread nD τ).loc b)) = allAt c (W0 m c)
        from Pipeline.unscopedBufs_held c (W0 m c)]
      iintro ⟨⟨Hall, -, Howe, -, Hreg, -⟩, -⟩
      imodintro
      isplitl [Hall]; · iexact Hall
      isplitl [Hreg]; · iexists _; iexact Hreg
      iexists ∅; iexact Howe)
    (QY := fun c s => ∀ b ∈ Pipeline.ucRefs τ sig, s.mem (((c : Thread nD τ)).1, b) = W4 m c b)
    (hfin := fun c s' => by
      iintro ⟨⟨Hall, -⟩, HSI⟩
      imodintro
      iapply read_allAt c (W4 m c) s'
      isplitl [Hall]; · iexact Hall
      iexact HSI)
    (hQ := fun s h => h)

/-- The frame: the five argument arrays end as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_arg0 (by decide))).trans (W4_main_arg0 m c),
     (h c _ (mem_uc main_arg1 (by decide))).trans (W4_main_arg1 m c),
     (h c _ (mem_uc main_arg2 (by decide))).trans (W4_main_arg2 m c),
     (h c _ (mem_uc main_arg3 (by decide))).trans (W4_main_arg3 m c),
     (h c _ (mem_uc main_arg4 (by decide))).trans (W4_main_arg4 m c)⟩) (run_main m ρ)

end Cert.KernelIdeal.Hand

end
-- ==== Proof.Spec.lean ====
/-
  The mathematics of the operator, stated once over the argument arrays as extended reals.

  A 4-bit code `w[o,i]` selects one of the 16 entries of row `o` of a table `lut`; the entry is scaled and shifted
  by the scale and zero point of the group `i / 128` of row `o`; the resulting weight matrix multiplies the
  activations from the right (contracting the input axis) and a bias is added per output column:

      y[r, o] = (∑ i, x[r, i] · (lut[o, code w[o,i]] · scale[i/128, o] + zero[i/128, o])) + bias[o].

  The kernel folds scale and zero point into an effective table first (`effLut`), looks codes up in it clamped to
  0..15 (`deqArr`), and multiplies (`outArr`).  No step needs distributivity, so none needs finiteness.
-/
import Idealize.ShloMosaic.PureOps.Ideal
import Idealize.ShloMosaic.Lib.ValueIdx

noncomputable section

namespace Cert.Spec

open Idealize.ShloMosaic Idealize.ShloMosaic.ValueIdx

abbrev SX : Shape := ⟨2, ![8192, 4096]⟩
abbrev SW : Shape := ⟨2, ![4096, 4096]⟩
abbrev SLut : Shape := ⟨2, ![4096, 16]⟩
abbrev SSz : Shape := ⟨3, ![32, 4096, 2]⟩
abbrev SB : Shape := ⟨1, ![4096]⟩
abbrev SE : Shape := ⟨3, ![32, 4096, 16]⟩
abbrev SB2 : Shape := ⟨2, ![1, 4096]⟩

/-- A code clamped into 0..15 (signed maximum with 0, then signed minimum with 15). -/
def clampCode (w : BitVec 32) : BitVec 32 := IntOp.minsi 15#32 (IntOp.maxsi 0#32 w)

/-- The table column a code selects. -/
def codeIx (w : BitVec 32) : Fin 16 := ⟨(clampCode w).toNat % 16, Nat.mod_lt _ (by decide)⟩

/-- The effective table entry of group `g`, row `o`, column `k`: the entry scaled and shifted. -/
def effLutAt (lut : FVec Ideal SLut .f32) (sz : FVec Ideal SSz .f32) (g : Fin 32) (o : Fin 4096) (k : Fin 16) : EReal :=
  lut (ix2 o k) * sz (ix3 g o (0 : Fin 2)) + sz (ix3 g o (1 : Fin 2))

/-- The effective table as an array `[32, 4096, 16]`. -/
def effLut (lut : FVec Ideal SLut .f32) (sz : FVec Ideal SSz .f32) : FVec Ideal SE .bf16 :=
  fun j => effLutAt lut sz (j 0) (j 1) (j 2)

/-- The weight at row `o`, input column `i`: the effective table of group `i / 128` at the clamped code. -/
def deqAt (w : IVec SW 32) (E : FVec Ideal SE .bf16) (o : Fin 4096) (i : Fin 4096) : EReal :=
  E (ix3 (⟨i.val / 128, by omega⟩ : Fin 32) o (codeIx (w (ix2 o i))))

/-- The weight matrix `[4096, 4096]`. -/
def deqArr (w : IVec SW 32) (E : FVec Ideal SE .bf16) : FVec Ideal SW .bf16 :=
  fun j => deqAt w E (j 0) (j 1)

/-- One output entry: the contraction over the input axis plus the bias. -/
def outAt (x : FVec Ideal SX .f32) (q : FVec Ideal SW .bf16) (b : FVec Ideal SB2 .f32) (r : Fin 8192) (o : Fin 4096) : EReal :=
  (∑ i : Fin 4096, x (ix2 r i) * q (ix2 o i)) + b (ix2 (0 : Fin 1) o)

/-- The output `[8192, 4096]`. -/
def outArr (x : FVec Ideal SX .f32) (q : FVec Ideal SW .bf16) (b : FVec Ideal SB2 .f32) : FVec Ideal SX .f32 :=
  fun j => outAt x q b (j 0) (j 1)

/-- The bias as a row `[1, 4096]`. -/
def biasRow (b : FVec Ideal SB .f32) : FVec Ideal SB2 .f32 := fun j => b (ix1 (j 1))

/-- The operator as one function of its five arguments. -/
def G (x : FVec Ideal SX .f32) (w : IVec SW 32) (lut : FVec Ideal SLut .f32) (sz : FVec Ideal SSz .f32)
    (b : FVec Ideal SB .f32) : FVec Ideal SX .f32 :=
  outArr x (deqArr w (effLut lut sz)) (biasRow b)

/-- A clamped code is a number below 16. -/
theorem clampCode_lt (w : BitVec 32) : (clampCode w).toNat < 16 := by
  unfold clampCode IntOp.minsi IntOp.maxsi
  split <;> split <;> simp_all [BitVec.slt, BitVec.toInt] <;> omega

/-- A code already in 0..15 is its own clamp. -/
theorem clampCode_of_lt (w : BitVec 32) (h : w.toNat < 16) : clampCode w = w := by
  unfold clampCode IntOp.minsi IntOp.maxsi
  have h0 : w.slt 0#32 = false := by simp [BitVec.slt, BitVec.toInt]; omega
  have h1 : (15#32 : BitVec 32).slt w = false := by simp [BitVec.slt, BitVec.toInt]; omega
  simp [h0, h1]

theorem codeIx_of_lt (w : BitVec 32) (h : w.toNat < 16) : codeIx w = ⟨w.toNat, h⟩ := by
  apply Fin.ext; simp only [codeIx, clampCode_of_lt w h]; exact Nat.mod_eq_of_lt h

end Cert.Spec

end
-- ==== Proof.KIVal0.lean ====
/-
  The value of the lookup region: after its 128 grid points (4 row tiles × 32 groups) the output array holds, at
  row `o` and column `i`, the effective-table entry of group `i / 128`, row `o`, at the clamped code `w[o, i]`
  — each point writes one 1024 × 128 tile, the tiles partition the array, and inside a tile the 16 nested selects
  pick the table column equal to the clamped code.
-/
import proofs.«404060_j2997887172647_3_alg».proof.Proof.KIReg0
import proofs.«404060_j2997887172647_3_alg».proof.Proof.Spec
import Idealize.ShloMosaic.Lib.ValueIdx
import Idealize.ShloMosaic.Lib.ValueLayout
import Idealize.ShloMosaic.Lib.Pipeline.Value
import Idealize.ShloMosaic.PureOps.Ideal.Laws
import Idealize.ShloMosaic.Lib.StableHlo.Run

set_option maxRecDepth 16384

noncomputable section

namespace Cert.KernelIdeal.Val

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Hand

namespace Lookup

/-! ## The sixteen selects, on one code -/

/-- The body's nested selects on a single code `k`: entry `n` of `e` where `k = n`, the comparison with 15 outermost
    and the one with 0 innermost, over the initial value `z`. -/
def pick (k : BitVec 32) (e : Fin 16 → EReal) (z : EReal) : EReal :=
  Scalar.select (IntOp.cmpi .eq k 15#32) (e ⟨15, by decide⟩) <|
  Scalar.select (IntOp.cmpi .eq k 14#32) (e ⟨14, by decide⟩) <|
  Scalar.select (IntOp.cmpi .eq k 13#32) (e ⟨13, by decide⟩) <|
  Scalar.select (IntOp.cmpi .eq k 12#32) (e ⟨12, by decide⟩) <|
  Scalar.select (IntOp.cmpi .eq k 11#32) (e ⟨11, by decide⟩) <|
  Scalar.select (IntOp.cmpi .eq k 10#32) (e ⟨10, by decide⟩) <|
  Scalar.select (IntOp.cmpi .eq k 9#32) (e ⟨9, by decide⟩) <|
  Scalar.select (IntOp.cmpi .eq k 8#32) (e ⟨8, by decide⟩) <|
  Scalar.select (IntOp.cmpi .eq k 7#32) (e ⟨7, by decide⟩) <|
  Scalar.select (IntOp.cmpi .eq k 6#32) (e ⟨6, by decide⟩) <|
  Scalar.select (IntOp.cmpi .eq k 5#32) (e ⟨5, by decide⟩) <|
  Scalar.select (IntOp.cmpi .eq k 4#32) (e ⟨4, by decide⟩) <|
  Scalar.select (IntOp.cmpi .eq k 3#32) (e ⟨3, by decide⟩) <|
  Scalar.select (IntOp.cmpi .eq k 2#32) (e ⟨2, by decide⟩) <|
  Scalar.select (IntOp.cmpi .eq k 1#32) (e ⟨1, by decide⟩) <|
  Scalar.select (IntOp.cmpi .eq k 0#32) (e ⟨0, by decide⟩) z

/-- A code below 16 equals exactly one of the sixteen constants, so the selects return that entry; the initial value
    is never reached. -/
theorem pick_eq (k : BitVec 32) (hk : k.toNat < 16) (e : Fin 16 → EReal) (z : EReal) :
    pick k e z = e ⟨k.toNat, hk⟩ := by
  obtain ⟨n, rfl⟩ : ∃ n : Fin 16, k = BitVec.ofNat 32 n.val := ⟨⟨k.toNat, hk⟩, by simp⟩
  revert hk
  fin_cases n <;> intro hk <;> rfl

/-! ## One column of the table, spread over a tile -/

/-- A one-column slice of a `1024 × 16` table can only start at a column below 16. -/
theorem col_lt {cN : ℕ} (hs : S1024x16.Slices ![0, cN] S1024x1) : cN < 16 := by
  obtain ⟨h, hb⟩ := hs
  have h1 : cN + 1 ≤ 16 := hb 1
  omega

/-- Column `cN` of the table, cut out as a `1024 × 1` slice and broadcast along the tile's 128 columns, read at
    row `p`, column `q`: the table's entry at row `p`, column `cN`. -/
theorem col_at (y : FVec Ideal S1024x16 .bf16) (cN : ℕ) (hs : S1024x16.Slices ![0, cN] S1024x1)
    (h2 : S1024x1.ShapeCasts S1024x1) (h3 : S1024x1.Broadcasts S1024x128) (p : Fin 1024) (q : Fin 128) :
    broadcastTo S1024x128 (shapeCast S1024x1 (extractStridedSlice S1024x1 ![0, cN] y hs) h2) h3 (ix2 p q)
      = y (ix2 p ⟨cN, col_lt hs⟩) := by
  refine (broadcastTo_apply _ h3 (ix2 p q) (ix2 p (0 : Fin 1)) ?_).trans ?_
  · intro a
    match a with
    | ⟨0, _⟩ => rfl
    | ⟨1, _⟩ => rfl
  rw [shapeCast_self]
  refine extractStridedSlice_apply _ y hs (ix2 p (0 : Fin 1)) (ix2 p ⟨cN, col_lt hs⟩) ?_
  intro a
  match a with
  | ⟨0, _⟩ => show p.val = 0 + p.val; omega
  | ⟨1, _⟩ => show cN = cN + 0; omega

/-- The table tile with its leading unit axis dropped, read at row `p`, column `cc`. -/
theorem table_at (x1 : Vec Ideal S1x1024x16 .bf16) (p : Fin 1024) (cc : Fin 16) :
    k0_pay3 x1 (ix2 p cc) = x1 (ix3 (0 : Fin 1) p cc) := by
  unfold k0_pay3
  refine shapeCast_apply x1 _ (ix2 p cc) (ix3 (0 : Fin 1) p cc) ?_
  rw [Shape.rowMajor_val_three, Shape.rowMajor_val_two]
  show ((0 : ℕ) * 1024 + p.val) * 16 + cc.val = p.val * 16 + cc.val
  omega

/-! ## The stored tile at an index -/

/-- The tile the body stores, read at row `p`, column `q`: the sixteen selects on the clamped code at that place,
    over row `p` of the table tile. Every vector operation of the payload is pointwise except the column reads. -/
theorem tile_pick (x0 : Vec Ideal S1024x128 .i32) (x1 : Vec Ideal S1x1024x16 .bf16) (p : Fin 1024) (q : Fin 128) :
    deqTile x0 x1 (ix2 p q)
      = pick (Cert.Spec.clampCode (x0 (ix2 p q))) (fun cc => k0_pay3 x1 (ix2 p cc))
          (Scalar.ofBits (F := Ideal) .bf16 0x0000#16) := by
  unfold deqTile k0_pay1 k0_pay5 k0_pay4 k0_pay6 k0_pay7
  simp only [select_apply, col_at]
  rfl

/-- So the stored tile holds, at row `p` and column `q`, the table tile's entry of row `p` at the column the code there
    selects: the clamped code is below 16, and the selects return the entry of that number. -/
theorem tile_at (x0 : Vec Ideal S1024x128 .i32) (x1 : Vec Ideal S1x1024x16 .bf16) (p : Fin 1024) (q : Fin 128) :
    deqTile x0 x1 (ix2 p q) = x1 (ix3 (0 : Fin 1) p (Cert.Spec.codeIx (x0 (ix2 p q)))) := by
  rw [tile_pick, pick_eq _ (Cert.Spec.clampCode_lt _), table_at]
  refine congrArg (fun cc => x1 (ix3 (0 : Fin 1) p cc)) (Fin.ext ?_)
  exact (Nat.mod_eq_of_lt (Cert.Spec.clampCode_lt _)).symm

/-! ## From tiles to the array -/

/-- The printed index maps, decided over the 128 grid points: the code tile moves with the output tile; the table
    tile's group is the output's column block and its row block the output's row block; the output's block indices
    stay in `0..3` and `0..31`. -/
theorem idx_facts : ∀ t : Fin cfg0.N,
    win0_0.index t (0 : Fin 2) = win0_2.index t (0 : Fin 2)
    ∧ win0_0.index t (1 : Fin 2) = win0_2.index t (1 : Fin 2)
    ∧ win0_1.index t (0 : Fin 3) = win0_2.index t (1 : Fin 2)
    ∧ win0_1.index t (1 : Fin 3) = win0_2.index t (0 : Fin 2)
    ∧ win0_1.index t (2 : Fin 3) = 0
    ∧ win0_2.index t (0 : Fin 2) ≤ 3 ∧ win0_2.index t (1 : Fin 2) ≤ 31 :=
  (by decide +kernel : ∀ t : Fin grid0.N, _)

/-- Every pair of a row block and a column block is some point's output block. -/
theorem idx_onto : ∀ (q0 : Fin 4) (q1 : Fin 32), ∃ t : Fin cfg0.N, win0_2.index t = ![q0.val, q1.val] :=
  (by decide +kernel : ∀ (q0 : Fin 4) (q1 : Fin 32), ∃ t : Fin grid0.N, win0_2.index t = ![q0.val, q1.val])

/-- A stored tile as a tile of the weight matrix. If `x0` is the code array's tile at row block `j`, column block `k`
    and `x1` the table array's tile of group `k`, row block `j`, then the tile the body stores from them is the tile of
    `deqArr` at row block `j`, column block `k`: inside the tile the column `k * 128 + q` belongs to group `k`. -/
theorem tile_eq (A : IVec Cert.Spec.SW 32) (E : FVec Ideal Cert.Spec.SE .bf16)
    (x0 : Vec Ideal S1024x128 .i32) (x1 : Vec Ideal S1x1024x16 .bf16) (j k : ℕ) (hj : j ≤ 3) (hk : k ≤ 31)
    (h0 : ∀ (p : Fin 1024) (q : Fin 128),
      x0 (ix2 p q) = A (ix2 (⟨j * 1024 + p.val, by omega⟩ : Fin 4096) (⟨k * 128 + q.val, by omega⟩ : Fin 4096)))
    (h1 : ∀ (p : Fin 1024) (cc : Fin 16),
      x1 (ix3 (0 : Fin 1) p cc) = E (ix3 (⟨k, by omega⟩ : Fin 32) (⟨j * 1024 + p.val, by omega⟩ : Fin 4096) cc))
    (y : S1024x128.Idx) :
    deqTile x0 x1 y
      = Cert.Spec.deqArr A E (ix2 (⟨j * 1024 + (y 0).val, by have := idx2_lt0 y; omega⟩ : Fin 4096)
          (⟨k * 128 + (y 1).val, by have := idx2_lt1 y; omega⟩ : Fin 4096)) := by
  obtain ⟨p, q, rfl⟩ : ∃ (p : Fin 1024) (q : Fin 128), y = ix2 p q := ⟨y 0, y 1, eq_ix2 y⟩
  rw [tile_at, h1, h0]
  show _ = Cert.Spec.deqAt A E (⟨j * 1024 + p.val, _⟩ : Fin 4096) (⟨k * 128 + q.val, _⟩ : Fin 4096)
  unfold Cert.Spec.deqAt
  refine congrArg (fun g : Fin 32 => E (ix3 g _ _)) (Fin.ext ?_)
  show k = (k * 128 + q.val) / 128
  have := q.isLt
  omega

/-- The tile written back at point `t` is the tile of the weight matrix, computed from the code array and the table
    array as the region finds them, that the output window names at `t`. -/
theorem flushed_eq (V : (c : Dev nD) → (b : Ref sig .tc) → Buf (Elt Ideal) ((c : Thread nD τ).loc b)) (c : Dev nD)
    (t : Fin cfg0.N) :
    (dat0 (F := Ideal) V c).flushed 2 t
      = ((cfg0.win 2).blk t).view.read (Elt Ideal) (Cert.Spec.deqArr (V c main_arg1) (V c main_v12)) := by
  show (cfg0.win 2).cut (grid0.coords t) ((dat0 V c).after 2 t) = _
  rw [dat0_after_2]
  obtain ⟨e0, e1, e2, e3, e4, b0, b1⟩ := idx_facts t
  funext y
  refine (tile_eq (V c main_arg1) (V c main_v12) (blk0 V c 0 t) (blk0 V c 1 t)
    (win0_2.index t (0 : Fin 2)) (win0_2.index t (1 : Fin 2)) b0 b1 ?_ ?_ y).trans ?_
  · intro p q
    show V c main_arg1 (((cfg0.win 0).blk t).view.emb (ix2 p q)) = _
    refine congrArg (V c main_arg1) (funext fun a => Fin.ext ?_)
    match a with
    | ⟨0, _⟩ => show win0_0.index t (0 : Fin 2) * 1024 + 1 * p.val = win0_2.index t (0 : Fin 2) * 1024 + p.val; omega
    | ⟨1, _⟩ => show win0_0.index t (1 : Fin 2) * 128 + 1 * q.val = win0_2.index t (1 : Fin 2) * 128 + q.val; omega
  · intro p cc
    show V c main_v12 (((cfg0.win 1).blk t).view.emb (ix3 (0 : Fin 1) p cc)) = _
    refine congrArg (V c main_v12) (funext fun a => Fin.ext ?_)
    match a with
    | ⟨0, _⟩ => show win0_1.index t (0 : Fin 3) * 1 + 1 * 0 = win0_2.index t (1 : Fin 2); omega
    | ⟨1, _⟩ => show win0_1.index t (1 : Fin 3) * 1024 + 1 * p.val = win0_2.index t (0 : Fin 2) * 1024 + p.val; omega
    | ⟨2, _⟩ => show win0_1.index t (2 : Fin 3) * 16 + 1 * cc.val = cc.val; omega
  · show _ = Cert.Spec.deqArr (V c main_arg1) (V c main_v12) (((cfg0.win 2).blk t).view.emb y)
    refine congrArg (Cert.Spec.deqArr (V c main_arg1) (V c main_v12)) (funext fun a => Fin.ext ?_)
    match a with
    | ⟨0, _⟩ => show win0_2.index t (0 : Fin 2) * 1024 + (y 0).val = win0_2.index t (0 : Fin 2) * 1024 + 1 * (y 0).val; omega
    | ⟨1, _⟩ => show win0_2.index t (1 : Fin 2) * 128 + (y 1).val = win0_2.index t (1 : Fin 2) * 128 + 1 * (y 1).val; omega

/-- An index of the output array is in point `t`'s tile iff each coordinate is in the tile's range on its axis. -/
theorem mem_blk (t : Fin cfg0.N) (i : S4096x4096.Idx) :
    i ∈ ((cfg0.win 2).blk t).view.set ↔ ∀ a : Fin 2, win0_2.index t a * S1024x128.size a ≤ (i a).val
      ∧ (i a).val < win0_2.index t a * S1024x128.size a + S1024x128.size a := by
  show i ∈ ((View.whole main_v13).slice (win0_2.rect t)).set ↔ _
  rw [View.set_slice_whole, Rect.mem_set_unit]
  exact Iff.rfl

/-- The 128 tiles cover the array: row `o`, column `i` lies in the tile of row block `o / 1024`, column block
    `i / 128`, and every point writes its tile back. -/
theorem covered (i : S4096x4096.Idx) :
    ∃ t : Fin cfg0.N, (cfg0.win 2).flush t = true ∧ i ∈ ((cfg0.win 2).blk t).view.set := by
  have hi0 : (i 0).val < 4096 := (i 0).isLt
  have hi1 : (i 1).val < 4096 := (i 1).isLt
  obtain ⟨t, ht⟩ := idx_onto ⟨(i 0).val / 1024, by omega⟩ ⟨(i 1).val / 128, by omega⟩
  have q0 : win0_2.index t (0 : Fin 2) = (i 0).val / 1024 := congrFun ht 0
  have q1 : win0_2.index t (1 : Fin 2) = (i 1).val / 128 := congrFun ht 1
  refine ⟨t, flush0_2 t, ?_⟩
  rw [mem_blk]
  intro a
  match a with
  | ⟨0, _⟩ =>
    show win0_2.index t (0 : Fin 2) * 1024 ≤ (i 0).val ∧ (i 0).val < win0_2.index t (0 : Fin 2) * 1024 + 1024
    omega
  | ⟨1, _⟩ =>
    show win0_2.index t (1 : Fin 2) * 128 ≤ (i 1).val ∧ (i 1).val < win0_2.index t (1 : Fin 2) * 128 + 128
    omega

end Lookup

/-- The lookup region's output array, whatever contents `V` the region is entered at. -/
theorem lookup_array (V : (c : Dev nD) → (b : Ref sig .tc) → Buf (Elt Ideal) ((c : Thread nD τ).loc b)) (c : Dev nD) :
    (dat0 (F := Ideal) V c).arrAt 2 cfg0.N = Cert.Spec.deqArr (V c main_arg1) (V c main_v12) := by
  exact (dat0 (F := Ideal) V c).arrAt_eq_of_cover 2 (Cert.Spec.deqArr (V c main_arg1) (V c main_v12))
    (fun t _ => Lookup.flushed_eq V c t) Lookup.covered

end Cert.KernelIdeal.Val

end
-- ==== Proof.KIVal1.lean ====
/-
  The value of the matmul region: after its 256 grid points (8 row tiles × 2 column tiles × 16 K-steps, K fastest)
  the output array holds, at row `r` and column `o`, the contraction `∑ i, x[r, i] · q[o, i]` over all 4096 inputs
  plus the bias — the accumulator after K-step `k` of a tile is the sum of the first `k + 1` blocks of 256 products,
  the tile is written out (with the bias added) at K-step 15 only, and the 16 written tiles partition the array.
-/
import proofs.«404060_j2997887172647_3_alg».proof.Proof.KIReg1
import proofs.«404060_j2997887172647_3_alg».proof.Proof.Spec
import Idealize.ShloMosaic.Lib.ValueIdx
import Idealize.ShloMosaic.Lib.ValueLayout
import Idealize.ShloMosaic.Lib.Pipeline.Value
import Idealize.ShloMosaic.PureOps.Ideal.Laws
import Idealize.ShloMosaic.Lib.StableHlo.Run

set_option maxRecDepth 16384

noncomputable section

namespace Cert.KernelIdeal.Val

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Hand

namespace Matmul

/-! ## The three payloads at an index -/

/-- The accumulator's reset value is zero at every index: the word `0x00000000` is the real number zero. -/
theorem accZero_apply (j : S1024x2048.Idx) : accZero (F := Ideal) j = 0 := by
  unfold accZero k1_pay1
  rw [shapeCast_self]
  exact Ideal.ofBits_zero_f32

/-- What the last K-step writes out, at row `p` and column `o` of the tile: the accumulator's entry plus the bias row's entry
    of that column. -/
theorem withBias_apply (a : Vec Ideal S1024x2048 .f32) (b : Vec Ideal S1x2048 .f32) (p : Fin 1024) (o : Fin 2048) :
    withBias a b (ix2 p o) = a (ix2 p o) + b (ix2 (0 : Fin 1) o) := by
  unfold withBias k1_pay3
  rw [shapeCast_self]
  show a (ix2 p o) + broadcastTo S1024x2048 b broadcasts_S1x2048_S1024x2048 (ix2 p o) = _
  rw [broadcastTo_1b_ab_apply]

/-! The contraction of the K-step's product: the left operand is read at (row of the output, contraction index), the right
    operand at (column of the output, contraction index) — both operands carry the contracted axis last. -/

theorem lhs_step_0 (i : S1024x2048.Idx) (q : dot_S1024x256_S2048x256_S1024x2048_1_1_0_0_n_n.contr.Idx) :
    (dot_S1024x256_S2048x256_S1024x2048_1_1_0_0_n_n.lhsIdx i q 0).val = (i 0).val := by
  unfold DotDims.lhsIdx
  rw [dif_neg (show ¬(0 : Fin S1024x256.rank) ∈ dot_S1024x256_S2048x256_S1024x2048_1_1_0_0_n_n.lhsBatch by decide), dif_pos (show (0 : Fin S1024x256.rank) ∈ dot_S1024x256_S2048x256_S1024x2048_1_1_0_0_n_n.lhsNonContracting by decide)]
  rfl
theorem lhs_step_1 (i : S1024x2048.Idx) (q : dot_S1024x256_S2048x256_S1024x2048_1_1_0_0_n_n.contr.Idx) :
    (dot_S1024x256_S2048x256_S1024x2048_1_1_0_0_n_n.lhsIdx i q 1).val = (q ⟨0, by decide⟩).val :=
  dot_S1024x256_S2048x256_S1024x2048_1_1_0_0_n_n.lhsIdx_val_of_single rfl i q
theorem rhs_step_0 (i : S1024x2048.Idx) (q : dot_S1024x256_S2048x256_S1024x2048_1_1_0_0_n_n.contr.Idx) :
    (dot_S1024x256_S2048x256_S1024x2048_1_1_0_0_n_n.rhsIdx i q 0).val = (i 1).val := by
  unfold DotDims.rhsIdx
  rw [dif_neg (show ¬(0 : Fin S2048x256.rank) ∈ dot_S1024x256_S2048x256_S1024x2048_1_1_0_0_n_n.rhsBatch by decide), dif_pos (show (0 : Fin S2048x256.rank) ∈ dot_S1024x256_S2048x256_S1024x2048_1_1_0_0_n_n.rhsNonContracting by decide)]
  rfl
theorem rhs_step_1 (i : S1024x2048.Idx) (q : dot_S1024x256_S2048x256_S1024x2048_1_1_0_0_n_n.contr.Idx) :
    (dot_S1024x256_S2048x256_S1024x2048_1_1_0_0_n_n.rhsIdx i q 1).val = (q ⟨0, by decide⟩).val :=
  dot_S1024x256_S2048x256_S1024x2048_1_1_0_0_n_n.rhsIdx_val_of_single rfl i q

/-- The product of one K-step at row `p` and column `o` of the tile: the sum over the 256 contraction indices of
    activation times weight (the rounding of the activations to the weights' format is the identity on extended reals,
    and the product starts from the zero word). -/
theorem step_matmul_apply (x : FVec Ideal S1024x256 .bf16) (w : FVec Ideal S2048x256 .bf16) (p : Fin 1024) (o : Fin 2048) :
    FloatOps.matmul dot_S1024x256_S2048x256_S1024x2048_1_1_0_0_n_n none x w (constant (F := Ideal) S1024x2048 .f32 0x00000000#32) (ix2 p o)
      = ∑ k : Fin 256, x (ix2 p k) * w (ix2 o k) := by
  rw [Ideal.matmul_constant_zero_apply, ← Equiv.sum_comp (ValueIdx.contrEquiv1 dot_S1024x256_S2048x256_S1024x2048_1_1_0_0_n_n 256 rfl rfl).symm]
  refine Finset.sum_congr rfl fun k _ => ?_
  have hk := ValueIdx.contrEquiv1_symm_val dot_S1024x256_S2048x256_S1024x2048_1_1_0_0_n_n 256 rfl rfl k
  have el : dot_S1024x256_S2048x256_S1024x2048_1_1_0_0_n_n.lhsIdx (ix2 p o) ((ValueIdx.contrEquiv1 dot_S1024x256_S2048x256_S1024x2048_1_1_0_0_n_n 256 rfl rfl).symm k) = ix2 p k := funext fun a => Fin.ext (by
    match a with
    | ⟨0, _⟩ => exact lhs_step_0 _ _
    | ⟨1, _⟩ => exact (lhs_step_1 _ _).trans hk)
  have er : dot_S1024x256_S2048x256_S1024x2048_1_1_0_0_n_n.rhsIdx (ix2 p o) ((ValueIdx.contrEquiv1 dot_S1024x256_S2048x256_S1024x2048_1_1_0_0_n_n 256 rfl rfl).symm k) = ix2 o k := funext fun a => Fin.ext (by
    match a with
    | ⟨0, _⟩ => exact rhs_step_0 _ _
    | ⟨1, _⟩ => exact (rhs_step_1 _ _).trans hk)
  rw [el, er]

/-- One K-step at row `p` and column `o` of the tile: the accumulator's entry plus the 256 products of this step. -/
theorem accStep_apply (x : Vec Ideal S1024x256 .f32) (w : Vec Ideal S2048x256 .bf16) (a : Vec Ideal S1024x2048 .f32)
    (p : Fin 1024) (o : Fin 2048) :
    accStep x w a (ix2 p o) = a (ix2 p o) + ∑ k : Fin 256, x (ix2 p k) * w (ix2 o k) := by
  unfold accStep k1_pay2
  rw [shapeCast_self, shapeCast_self]
  show a (ix2 p o) + FloatOps.matmul dot_S1024x256_S2048x256_S1024x2048_1_1_0_0_n_n none (truncf .bf16 x bitsLt_bf16_f32) w (constant (F := Ideal) S1024x2048 .f32 0x00000000#32) (ix2 p o) = _
  rw [step_matmul_apply]
  rfl

/-! ## The contraction axis, block by block

The contraction over the 4096 inputs is written as a sum over an initial segment of the naturals, so that the sum of the
first `k + 1` blocks of 256 products is the sum of the first `k` blocks plus the block `k`, and the sum of all 16 blocks
is the sum over the whole axis. Addition of extended reals is commutative and associative, so these are laws of finite
sums in a commutative monoid; no finiteness of the entries is used. -/

/-- The `n`-th product of the contraction of activation row `r` with weight row `o` (zero from 4096 on, where no sum below reaches). -/
def term (X : FVec Ideal Cert.Spec.SX .f32) (Q : FVec Ideal Cert.Spec.SW .bf16) (r : Fin 8192) (o : Fin 4096) (n : ℕ) : EReal :=
  if h : n < 4096 then X (ix2 r ⟨n, h⟩) * Q (ix2 o ⟨n, h⟩) else 0

theorem term_of_lt (X : FVec Ideal Cert.Spec.SX .f32) (Q : FVec Ideal Cert.Spec.SW .bf16) (r : Fin 8192) (o : Fin 4096)
    (i : Fin 4096) : term X Q r o i.val = X (ix2 r i) * Q (ix2 o i) := dif_pos i.isLt

/-- All 4096 products: the contraction itself. -/
theorem sum_term_all (X : FVec Ideal Cert.Spec.SX .f32) (Q : FVec Ideal Cert.Spec.SW .bf16) (r : Fin 8192) (o : Fin 4096) :
    ∑ n ∈ Finset.range 4096, term X Q r o n = ∑ i : Fin 4096, X (ix2 r i) * Q (ix2 o i) := by
  rw [Finset.sum_range]
  exact Finset.sum_congr rfl fun i _ => term_of_lt X Q r o i

/-- The first `kb + 1` blocks are the first `kb` blocks and then block `kb`. -/
theorem sum_term_block (X : FVec Ideal Cert.Spec.SX .f32) (Q : FVec Ideal Cert.Spec.SW .bf16) (r : Fin 8192) (o : Fin 4096) (kb : ℕ) :
    ∑ n ∈ Finset.range (256 * (kb + 1)), term X Q r o n
      = ∑ n ∈ Finset.range (256 * kb), term X Q r o n + ∑ k : Fin 256, term X Q r o (256 * kb + k.val) := by
  rw [Nat.mul_succ, Finset.sum_range_add]
  exact congrArg (∑ n ∈ Finset.range (256 * kb), term X Q r o n + ·) (Finset.sum_range fun m => term X Q r o (256 * kb + m))

/-! ## Where a tile's entries sit in the arrays

Grid point `n` (of 256, the K index fastest) is row tile `n / 32`, column tile `(n / 16) % 2`, K-step `n % 16`. -/

theorem lt256 {n : ℕ} (hn : n < cfg1.N) : n < 256 := Nat.lt_of_lt_of_eq hn N_1

/-- The array row under row `p` of the tiles of point `n`. -/
def rowOf (n : ℕ) (hn : n < 256) (p : Fin 1024) : Fin 8192 := ⟨n / 32 * 1024 + p.val, by omega⟩
/-- The array column (a weight row) under column `o` of the tiles of point `n`. -/
def colOf (n : ℕ) (hn : n < 256) (o : Fin 2048) : Fin 4096 := ⟨n / 16 % 2 * 2048 + o.val, by omega⟩
/-- The contraction index under index `k` of the K-block of point `n`. -/
def kOf (n : ℕ) (hn : n < 256) (k : Fin 256) : Fin 4096 := ⟨256 * (n % 16) + k.val, by omega⟩

/-- The printed index maps in closed form, decided over the grid. -/
theorem index_facts : ∀ t : Fin cfg1.N,
    win1_0.index t (0 : Fin 2) = t.val / 32 ∧ win1_0.index t (1 : Fin 2) = t.val % 16
    ∧ win1_1.index t (0 : Fin 2) = t.val / 16 % 2 ∧ win1_1.index t (1 : Fin 2) = t.val % 16
    ∧ win1_2.index t (0 : Fin 2) = 0 ∧ win1_2.index t (1 : Fin 2) = t.val / 16 % 2
    ∧ win1_3.index t (0 : Fin 2) = t.val / 32 ∧ win1_3.index t (1 : Fin 2) = t.val / 16 % 2 :=
  (by decide +kernel : ∀ t : Fin grid1.N, _)

section Region

variable (V : (c : Dev nD) → (b : Ref sig .tc) → Buf (Elt Ideal) ((c : Thread nD τ).loc b))

/-- The activations, the weights and the bias row as the region finds them. -/
abbrev Xa (c : Dev nD) : FVec Ideal Cert.Spec.SX .f32 := V c main_arg0
abbrev Qa (c : Dev nD) : FVec Ideal Cert.Spec.SW .bf16 := V c main_v13
abbrev Ba (c : Dev nD) : FVec Ideal Cert.Spec.SB2 .f32 := V c main_v14

/-- The tiles of the three input windows at point `t`, at their literal types. -/
abbrev xblk (c : Dev nD) (t : Fin cfg1.N) : Vec Ideal S1024x256 .f32 := blk1 V c 0 t
abbrev wblk (c : Dev nD) (t : Fin cfg1.N) : Vec Ideal S2048x256 .bf16 := blk1 V c 1 t
abbrev bblk (c : Dev nD) (t : Fin cfg1.N) : Vec Ideal S1x2048 .f32 := blk1 V c 2 t

/-- The activation tile of point `t` holds rows `1024·(t/32) …` and contraction indices `256·(t%16) …` of the activations. -/
theorem xblk_apply (c : Dev nD) (t : Fin cfg1.N) (p : Fin 1024) (k : Fin 256) :
    xblk V c t (ix2 p k) = Xa V c (ix2 (rowOf t.val (lt256 t.isLt) p) (kOf t.val (lt256 t.isLt) k)) := by
  show Xa V c (((cfg1.win 0).blk t).view.emb (ix2 p k)) = _
  refine congrArg (Xa V c) (funext fun a => Fin.ext ?_)
  obtain ⟨e0, e1, -⟩ := index_facts t
  match a with
  | ⟨0, _⟩ => show win1_0.index t (0 : Fin 2) * 1024 + 1 * p.val = t.val / 32 * 1024 + p.val; rw [e0]; omega
  | ⟨1, _⟩ => show win1_0.index t (1 : Fin 2) * 256 + 1 * k.val = 256 * (t.val % 16) + k.val; rw [e1]; omega

/-- The weight tile of point `t` holds weight rows `2048·((t/16)%2) …` and contraction indices `256·(t%16) …`. -/
theorem wblk_apply (c : Dev nD) (t : Fin cfg1.N) (o : Fin 2048) (k : Fin 256) :
    wblk V c t (ix2 o k) = Qa V c (ix2 (colOf t.val (lt256 t.isLt) o) (kOf t.val (lt256 t.isLt) k)) := by
  show Qa V c (((cfg1.win 1).blk t).view.emb (ix2 o k)) = _
  refine congrArg (Qa V c) (funext fun a => Fin.ext ?_)
  obtain ⟨-, -, e0, e1, -⟩ := index_facts t
  match a with
  | ⟨0, _⟩ => show win1_1.index t (0 : Fin 2) * 2048 + 1 * o.val = t.val / 16 % 2 * 2048 + o.val; rw [e0]; omega
  | ⟨1, _⟩ => show win1_1.index t (1 : Fin 2) * 256 + 1 * k.val = 256 * (t.val % 16) + k.val; rw [e1]; omega

/-- The bias tile of point `t` holds columns `2048·((t/16)%2) …` of the bias row. -/
theorem bblk_apply (c : Dev nD) (t : Fin cfg1.N) (o : Fin 2048) :
    bblk V c t (ix2 (0 : Fin 1) o) = Ba V c (ix2 (0 : Fin 1) (colOf t.val (lt256 t.isLt) o)) := by
  show Ba V c (((cfg1.win 2).blk t).view.emb (ix2 (0 : Fin 1) o)) = _
  refine congrArg (Ba V c) (funext fun a => Fin.ext ?_)
  obtain ⟨-, -, -, -, e0, e1, -⟩ := index_facts t
  match a with
  | ⟨0, _⟩ => show win1_2.index t (0 : Fin 2) * 1 + 1 * (0 : Fin 1).val = (0 : Fin 1).val; rw [e0]; rfl
  | ⟨1, _⟩ => show win1_2.index t (1 : Fin 2) * 2048 + 1 * o.val = t.val / 16 % 2 * 2048 + o.val; rw [e1]; omega

/-! ## The accumulator in closed form -/

/-- The 256 products of the K-step of point `n`, at row `p` and column `o` of the tile, are block `n % 16` of the contraction
    of the array row under `p` with the weight row under `o`. -/
theorem step_sum (c : Dev nD) (n : ℕ) (hn : n < cfg1.N) (p : Fin 1024) (o : Fin 2048) :
    ∑ k : Fin 256, xblk V c ⟨n, hn⟩ (ix2 p k) * wblk V c ⟨n, hn⟩ (ix2 o k)
      = ∑ k : Fin 256, term (Xa V c) (Qa V c) (rowOf n (lt256 hn) p) (colOf n (lt256 hn) o) (256 * (n % 16) + k.val) :=
  Finset.sum_congr rfl fun k _ => by
    rw [xblk_apply V c ⟨n, hn⟩ p k, wblk_apply V c ⟨n, hn⟩ o k]
    exact (term_of_lt (Xa V c) (Qa V c) (rowOf n (lt256 hn) p) (colOf n (lt256 hn) o) (kOf n (lt256 hn) k)).symm

/-- At the first K-step of a tile the accumulator is reset and then holds block 0 of the contraction. -/
theorem acc_at_reset (c : Dev nD) (n : ℕ) (hn : n < cfg1.N) (h : n % 16 = 0) (p : Fin 1024) (o : Fin 2048) :
    accAt1 V c n hn (ix2 p o)
      = ∑ m ∈ Finset.range (256 * (n % 16 + 1)), term (Xa V c) (Qa V c) (rowOf n (lt256 hn) p) (colOf n (lt256 hn) o) m := by
  have hs : accAt1 V c n hn = accStep (blk1 V c 0 ⟨n, hn⟩) (blk1 V c 1 ⟨n, hn⟩) accZero := accAt1_reset V c ⟨n, hn⟩ h
  rw [hs]
  refine (accStep_apply (xblk V c ⟨n, hn⟩) (wblk V c ⟨n, hn⟩) accZero p o).trans ?_
  rw [accZero_apply, zero_add, step_sum V c n hn p o,
    sum_term_block (Xa V c) (Qa V c) (rowOf n (lt256 hn) p) (colOf n (lt256 hn) o) (n % 16)]
  have e : Finset.range (256 * (n % 16)) = ∅ := by rw [h]; rfl
  rw [e, Finset.sum_empty, zero_add]

/-- THE ACCUMULATOR AFTER POINT `n`, at row `p` and column `o` of the tile: the first `n % 16 + 1` blocks of 256 products of
    the contraction of the array row under `p` with the weight row under `o` — by induction over the points: a reset starts
    the sum afresh, any other point continues the sum of the point before, which is a point of the same tile. -/
theorem acc_closed (c : Dev nD) : ∀ (n : ℕ) (hn : n < cfg1.N) (p : Fin 1024) (o : Fin 2048),
    accAt1 V c n hn (ix2 p o)
      = ∑ m ∈ Finset.range (256 * (n % 16 + 1)), term (Xa V c) (Qa V c) (rowOf n (lt256 hn) p) (colOf n (lt256 hn) o) m
  | 0, hn, p, o => acc_at_reset V c 0 hn rfl p o
  | n + 1, hn, p, o => by
    by_cases h : (n + 1) % 16 = 0
    · exact acc_at_reset V c (n + 1) hn h p o
    · have ih := acc_closed c n (Nat.lt_of_succ_lt hn) p o
      have hs : accAt1 V c (n + 1) hn
          = accStep (blk1 V c 0 ⟨n + 1, hn⟩) (blk1 V c 1 ⟨n + 1, hn⟩) (accAt1 V c n (Nat.lt_of_succ_lt hn)) :=
        accAt1_step V c ⟨n + 1, hn⟩ h
      rw [hs]
      refine (accStep_apply (xblk V c ⟨n + 1, hn⟩) (wblk V c ⟨n + 1, hn⟩) (accAt1 V c n (Nat.lt_of_succ_lt hn)) p o).trans ?_
      have h256 := lt256 hn
      have e1 : (n + 1) % 16 = n % 16 + 1 := by omega
      have er : rowOf n (lt256 (Nat.lt_of_succ_lt hn)) p = rowOf (n + 1) (lt256 hn) p :=
        Fin.ext (by show n / 32 * 1024 + p.val = (n + 1) / 32 * 1024 + p.val; omega)
      have ec : colOf n (lt256 (Nat.lt_of_succ_lt hn)) o = colOf (n + 1) (lt256 hn) o :=
        Fin.ext (by show n / 16 % 2 * 2048 + o.val = (n + 1) / 16 % 2 * 2048 + o.val; omega)
      rw [ih, step_sum V c (n + 1) hn p o,
        sum_term_block (Xa V c) (Qa V c) (rowOf (n + 1) (lt256 hn) p) (colOf (n + 1) (lt256 hn) o) ((n + 1) % 16),
        e1, er, ec]

/-- At the last K-step of a tile the accumulator holds the whole contraction. -/
theorem acc_last (c : Dev nD) (t : Fin cfg1.N) (h : t.val % 16 = 15) (p : Fin 1024) (o : Fin 2048) :
    accAt1 V c t.val t.isLt (ix2 p o)
      = ∑ i : Fin 4096, Xa V c (ix2 (rowOf t.val (lt256 t.isLt) p) i) * Qa V c (ix2 (colOf t.val (lt256 t.isLt) o) i) := by
  rw [acc_closed V c t.val t.isLt p o, h]
  exact sum_term_all (Xa V c) (Qa V c) _ _

/-! ## From the tiles to the array -/

/-- The output tile of point `t` sits at rows `1024·(t/32) …` and columns `2048·((t/16)%2) …` of the output array. -/
theorem oblk_emb (t : Fin cfg1.N) (p : Fin 1024) (o : Fin 2048) :
    ((cfg1.win 3).blk t).view.emb (ix2 p o)
      = (ix2 (rowOf t.val (lt256 t.isLt) p) (colOf t.val (lt256 t.isLt) o) : S8192x4096.Idx) := by
  funext a; apply Fin.ext
  obtain ⟨-, -, -, -, -, -, e0, e1⟩ := index_facts t
  match a with
  | ⟨0, _⟩ => show win1_3.index t (0 : Fin 2) * 1024 + 1 * p.val = t.val / 32 * 1024 + p.val; rw [e0]; omega
  | ⟨1, _⟩ => show win1_3.index t (1 : Fin 2) * 2048 + 1 * o.val = t.val / 16 % 2 * 2048 + o.val; rw [e1]; omega

/-- WHAT A LAST K-STEP WRITES BACK is its tile of the operator's output: the whole contraction plus the bias. -/
theorem flushed_eq (c : Dev nD) (t : Fin cfg1.N) (hf : (cfg1.win 3).flush t = true) :
    (dat1 (F := Ideal) V c).flushed 3 t
      = ((cfg1.win 3).blk t).view.read (Elt Ideal) (Cert.Spec.outArr (Xa V c) (Qa V c) (Ba V c)) := by
  have h15 : t.val % 16 = 15 := (flush1_3 t).mp hf
  show (cfg1.win 3).cut (grid1.coords t) ((dat1 (F := Ideal) V c).after 3 t) = _
  rw [dat1_after_3]
  funext j
  obtain ⟨p, o, rfl⟩ : ∃ (p : Fin 1024) (o : Fin 2048), j = ix2 p o := ⟨j 0, j 1, eq_ix2 j⟩
  show withBias (accAt1 V c t.val t.isLt) (bblk V c t) (ix2 p o)
    = Cert.Spec.outArr (Xa V c) (Qa V c) (Ba V c) (((cfg1.win 3).blk t).view.emb (ix2 p o))
  rw [oblk_emb]
  refine (withBias_apply (accAt1 V c t.val t.isLt) (bblk V c t) p o).trans ?_
  rw [acc_last V c t h15 p o, bblk_apply V c t o]
  rfl

end Region

/-- An index of the output array is in point `t`'s tile iff each coordinate is in the tile's range on its axis. -/
theorem mem_oblk (t : Fin cfg1.N) (i : S8192x4096.Idx) :
    i ∈ ((cfg1.win 3).blk t).view.set ↔ ∀ a : Fin 2, win1_3.index t a * S1024x2048.size a ≤ (i a).val ∧ (i a).val < win1_3.index t a * S1024x2048.size a + S1024x2048.size a := by
  show i ∈ ((View.whole main_v15).slice (win1_3.rect t)).set ↔ _
  rw [View.set_slice_whole, Rect.mem_set_unit]
  exact Iff.rfl

/-- The 16 tiles written back partition the array: entry (row, column) is in the tile of the last K-step of row tile
    `row / 1024` and column tile `column / 2048`. -/
theorem covered (i : S8192x4096.Idx) :
    ∃ t : Fin cfg1.N, (cfg1.win 3).flush t = true ∧ i ∈ ((cfg1.win 3).blk t).view.set := by
  have hi0 : (i 0).val < 8192 := idx2_lt0 i
  have hi1 : (i 1).val < 4096 := idx2_lt1 i
  obtain ⟨t, ht⟩ : ∃ t : Fin cfg1.N, t.val = ((i 0).val / 1024 * 2 + (i 1).val / 2048) * 16 + 15 :=
    ⟨⟨_, Nat.lt_of_lt_of_eq (by omega) N_1.symm⟩, rfl⟩
  obtain ⟨-, -, -, -, -, -, e0, e1⟩ := index_facts t
  refine ⟨t, (flush1_3 t).mpr (by omega), ?_⟩
  rw [mem_oblk]
  intro a
  match a with
  | ⟨0, _⟩ =>
    show win1_3.index t (0 : Fin 2) * 1024 ≤ (i 0).val ∧ (i 0).val < win1_3.index t (0 : Fin 2) * 1024 + 1024
    rw [e0]; omega
  | ⟨1, _⟩ =>
    show win1_3.index t (1 : Fin 2) * 2048 ≤ (i 1).val ∧ (i 1).val < win1_3.index t (1 : Fin 2) * 2048 + 2048
    rw [e1]; omega

end Matmul

/-- The matmul region's output array, whatever contents `V` the region is entered at. -/
theorem matmul_array (V : (c : Dev nD) → (b : Ref sig .tc) → Buf (Elt Ideal) ((c : Thread nD τ).loc b)) (c : Dev nD) :
    (dat1 (F := Ideal) V c).arrAt 3 cfg1.N = Cert.Spec.outArr (V c main_arg0) (V c main_v13) (V c main_v14) :=
  (dat1 (F := Ideal) V c).arrAt_eq_of_cover 3 (Cert.Spec.outArr (V c main_arg0) (V c main_v13) (V c main_v14))
    (fun t hf => Matmul.flushed_eq V c t hf) Matmul.covered

end Cert.KernelIdeal.Val

end
-- ==== Proof.KIHost.lean ====
/-
  What the two host stretches compute, read at an index: the effective table `lut · scale + zero` of every group
  (the first stretch: two slices, broadcasts, a product, a sum, a change of float format) and the bias as a row
  (the second stretch: a reshape).
-/
import proofs.«404060_j2997887172647_3_alg».proof.Proof.KIRun
import proofs.«404060_j2997887172647_3_alg».proof.Proof.Gen.KernelIdeal.Regions
import proofs.«404060_j2997887172647_3_alg».proof.Proof.Spec
import Idealize.ShloMosaic.Lib.ValueIdx
import Idealize.ShloMosaic.Lib.ValueLayout
import Idealize.ShloMosaic.Lib.Pipeline.Value
import Idealize.ShloMosaic.PureOps.Ideal.Laws
import Idealize.ShloMosaic.Lib.StableHlo.Run

set_option maxRecDepth 16384

noncomputable section

namespace Cert.KernelIdeal.Val

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Hand
-- the generated region module has boundary valuations of its own under the same short names: here `V1`, `V3` are this proof's
open Cert.KernelIdeal.Gen hiding V0 V1 V2 V3 V4

variable (m : (ℓ : Loc nD τ sig) → Buf (Elt Ideal) ℓ)

/-! ## The first stretch as one term, read at an index -/

/-- Column `q` (0: scale, 1: zero point) of the scale/zero-point argument, broadcast along the 16 table columns:
    a slice of the last axis, the unit axis dropped, put back, and broadcast. -/
def colTerm (x3 : FVec Ideal S32x4096x2 .f32) (q : Fin 2) (hq : S32x4096x2.Slices ![0, 0, q.val] S32x4096x1) :
    FVec Ideal S32x4096x16 .f32 :=
  broadcastInDim S32x4096x16 ![0, 1, 2] bcast_S32x4096x1_S32x4096x16_0_1_2
    (broadcastInDim S32x4096x1 ![0, 1] bcast_S32x4096_S32x4096x1_0_1
      (shapeCast S32x4096 (extractStridedSlice S32x4096x1 ![0, 0, q.val] x3 hq) shapeCasts_S32x4096x1_S32x4096))

/-- Its entry at group `g`, row `o`, any column: the argument at `(g, o, q)`. -/
theorem colTerm_apply (x3 : FVec Ideal S32x4096x2 .f32) (q : Fin 2) (hq : S32x4096x2.Slices ![0, 0, q.val] S32x4096x1)
    (g : Fin 32) (o : Fin 4096) (k : Fin 16) : colTerm x3 q hq (ix3 g o k) = x3 (ix3 g o q) := by
  unfold colTerm
  rw [broadcastInDim_apply _ bcast_S32x4096x1_S32x4096x16_0_1_2 _ (ix3 g o k) (ix3 g o (0 : Fin 1))
        (fun a => match a with
          | ⟨0, _⟩ => by show g.val = if (32 : Nat) = 1 then 0 else g.val; rw [if_neg (by decide)]
          | ⟨1, _⟩ => by show o.val = if (4096 : Nat) = 1 then 0 else o.val; rw [if_neg (by decide)]
          | ⟨2, _⟩ => by show 0 = if (1 : Nat) = 1 then 0 else k.val; rw [if_pos rfl]),
      broadcastInDim_apply _ bcast_S32x4096_S32x4096x1_0_1 _ (ix3 g o (0 : Fin 1)) (ix2 g o)
        (fun a => match a with
          | ⟨0, _⟩ => by show g.val = if (32 : Nat) = 1 then 0 else g.val; rw [if_neg (by decide)]
          | ⟨1, _⟩ => by show o.val = if (4096 : Nat) = 1 then 0 else o.val; rw [if_neg (by decide)]),
      shapeCast_apply _ shapeCasts_S32x4096x1_S32x4096 (ix2 g o) (ix3 g o (0 : Fin 1))
        (by rw [Shape.rowMajor_val_two, Shape.rowMajor_val_three]; show (g.val * 4096 + o.val) * 1 + 0 = g.val * 4096 + o.val; omega),
      extractStridedSlice_apply ![0, 0, q.val] x3 hq (ix3 g o (0 : Fin 1)) (ix3 g o q)
        (fun a => match a with
          | ⟨0, _⟩ => by show g.val = 0 + g.val; omega
          | ⟨1, _⟩ => by show o.val = 0 + o.val; omega
          | ⟨2, _⟩ => by show q.val = q.val + 0; omega)]

/-- The table argument broadcast over the 32 groups (a unit axis in front, then the broadcast). -/
def lutTerm (x2 : FVec Ideal S4096x16 .f32) : FVec Ideal S32x4096x16 .f32 :=
  broadcastInDim S32x4096x16 ![0, 1, 2] bcast_S1x4096x16_S32x4096x16_0_1_2
    (broadcastInDim S1x4096x16 ![1, 2] bcast_S4096x16_S1x4096x16_1_2 x2)

/-- Its entry at any group: the table at `(o, k)`. -/
theorem lutTerm_apply (x2 : FVec Ideal S4096x16 .f32) (g : Fin 32) (o : Fin 4096) (k : Fin 16) :
    lutTerm x2 (ix3 g o k) = x2 (ix2 o k) := by
  unfold lutTerm
  rw [broadcastInDim_apply _ bcast_S1x4096x16_S32x4096x16_0_1_2 _ (ix3 g o k) (ix3 (0 : Fin 1) o k)
        (fun a => match a with
          | ⟨0, _⟩ => by show 0 = if (1 : Nat) = 1 then 0 else g.val; rw [if_pos rfl]
          | ⟨1, _⟩ => by show o.val = if (4096 : Nat) = 1 then 0 else o.val; rw [if_neg (by decide)]
          | ⟨2, _⟩ => by show k.val = if (16 : Nat) = 1 then 0 else k.val; rw [if_neg (by decide)]),
      broadcastInDim_apply _ bcast_S4096x16_S1x4096x16_1_2 _ (ix3 (0 : Fin 1) o k) (ix2 o k)
        (fun a => match a with
          | ⟨0, _⟩ => by show o.val = if (4096 : Nat) = 1 then 0 else o.val; rw [if_neg (by decide)]
          | ⟨1, _⟩ => by show k.val = if (16 : Nat) = 1 then 0 else k.val; rw [if_neg (by decide)])]

/-- The thirteen operations of the first stretch composed: table times scale plus zero point, in the narrower format. -/
def effTerm (x2 : FVec Ideal S4096x16 .f32) (x3 : FVec Ideal S32x4096x2 .f32) : FVec Ideal S32x4096x16 .bf16 :=
  truncf .bf16
    (addf (mulf (lutTerm x2) (colTerm x3 0 slices_S32x4096x2_S32x4096x1_0_0_0))
      (colTerm x3 1 slices_S32x4096x2_S32x4096x1_0_0_1)) bitsLt_bf16_f32

theorem effTerm_apply (x2 : FVec Ideal S4096x16 .f32) (x3 : FVec Ideal S32x4096x2 .f32) (g : Fin 32) (o : Fin 4096) (k : Fin 16) :
    effTerm x2 x3 (ix3 g o k) = x2 (ix2 o k) * x3 (ix3 g o (0 : Fin 2)) + x3 (ix3 g o (1 : Fin 2)) := by
  unfold effTerm
  rw [truncf_apply, addf_apply, mulf_apply, lutTerm_apply, colTerm_apply, colTerm_apply]

/-- Entering the lookup region the table operand holds the effective table of the launch arguments. -/
theorem V1_main_v12 (c : Dev nD) :
    V1 (F := Ideal) m c main_v12 = Cert.Spec.effLut (m ((c : Thread nD τ).loc main_arg2)) (m ((c : Thread nD τ).loc main_arg3)) := by
  have e : (V1 (F := Ideal) m c main_v12 : S32x4096x16.Idx → EReal)
      = effTerm (m ((c : Thread nD τ).loc main_arg2)) (m ((c : Thread nD τ).loc main_arg3)) := by
    show StableHlo.after hostOps0 (fun b => m (c, b)) (Proc.devRef .tc main_v12) = _
    after_results
    rfl
  rw [e]
  funext j
  obtain ⟨g, o, k, rfl⟩ : ∃ (g : Fin 32) (o : Fin 4096) (k : Fin 16), j = ix3 g o k := ⟨j 0, j 1, j 2, eq_ix3 j⟩
  rw [effTerm_apply]
  rfl

/-- The bias argument is no array of the lookup region and no result of the first stretch: it reaches the second
    stretch as launched. -/
theorem W2_main_arg4 (c : Dev nD) :
    W2 (F := Ideal) m c (Proc.devRef .tc main_arg4) = m ((c : Thread nD τ).loc main_arg4) := by
  unfold W2
  rw [Pipeline.withArrays_of_ne spec0 c _ _ main_arg4 (by exact (by decide : ∀ w, Pipeline.arrRef spec0 w ≠ main_arg4))]
  exact StableHlo.after_of_writes_sub hostOps0 _ hostOps0_writes (by decide)

/-- Entering the matmul region the bias operand holds the bias argument as a row. -/
theorem V3_main_v14_row (c : Dev nD) :
    V3 (F := Ideal) m c main_v14 = Cert.Spec.biasRow (m ((c : Thread nD τ).loc main_arg4)) := by
  have e : (V3 (F := Ideal) m c main_v14 : S1x4096.Idx → EReal)
      = shapeCast S1x4096 (W2 (F := Ideal) m c (Proc.devRef .tc main_arg4)) shapeCasts_S4096_S1x4096 := by
    show StableHlo.after hostOps1 (W2 (F := Ideal) m c) (Proc.devRef .tc main_v14) = _
    after_results
    rfl
  rw [e, W2_main_arg4]
  funext j
  obtain ⟨z, o, rfl⟩ : ∃ (z : Fin 1) (o : Fin 4096), j = ix2 z o := ⟨j 0, j 1, eq_ix2 j⟩
  rw [shapeCast_apply _ shapeCasts_S4096_S1x4096 (ix2 z o) (ix1 o)
        (by rw [Shape.rowMajor_val_one, Shape.rowMajor_val_two]; show o.val = z.val * 4096 + o.val; omega)]
  rfl

end Cert.KernelIdeal.Val

end
-- ==== Proof.KIValue.lean ====
/-
  The idealized kernel's result as the operator of its arguments: the two regions' values composed through the
  boundary contents.
-/
import proofs.«404060_j2997887172647_3_alg».proof.Proof.KIRun
import proofs.«404060_j2997887172647_3_alg».proof.Proof.Spec
import Idealize.ShloMosaic.Lib.ValueIdx
import Idealize.ShloMosaic.Lib.ValueLayout
import Idealize.ShloMosaic.Lib.Pipeline.Value
import Idealize.ShloMosaic.PureOps.Ideal.Laws
import Idealize.ShloMosaic.Lib.StableHlo.Run
import proofs.«404060_j2997887172647_3_alg».proof.Proof.KIVal0
import proofs.«404060_j2997887172647_3_alg».proof.Proof.KIVal1
import proofs.«404060_j2997887172647_3_alg».proof.Proof.KIHost

set_option maxRecDepth 16384

noncomputable section

namespace Cert.KernelIdeal.Val

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Hand
open Cert.KernelIdeal.Gen hiding V0 V1 V2 V3 V4

variable (m : (ℓ : Loc nD τ sig) → Buf (Elt Ideal) ℓ)

/-- At the end the result array holds the operator of the five launch arguments. -/
theorem result (c : Dev nD) :
    W4 (F := Ideal) m c (Proc.devRef .tc main_v15)
      = Cert.Spec.G (m ((c : Thread nD τ).loc main_arg0)) (m ((c : Thread nD τ).loc main_arg1)) (m ((c : Thread nD τ).loc main_arg2))
          (m ((c : Thread nD τ).loc main_arg3)) (m ((c : Thread nD τ).loc main_arg4)) := by
  rw [W4_main_v15, matmul_array (V3 m) c, V3_main_arg0, V3_main_v13, lookup_array (V1 m) c, V1_main_arg1, V1_main_v12, V3_main_v14_row]
  rfl

end Cert.KernelIdeal.Val

end
-- ==== Proof.RefRun.lean ====
/-
  The reference program's run: a straight line of 40 host operations (the table lookup with its range test, the two
  slices of scale and zero point, the scaling, the contraction, the bias).  Every weakly fair execution terminates with
  the result buffer at the last stage's value of the launch arguments — the stages as the read module names them, one
  operation each — and the arguments unchanged.
-/
import proofs.«404060_j2997887172647_3_alg».proof.Proof.RefRunP
import proofs.«404060_j2997887172647_3_alg».proof.Proof.RefReadP
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo
open Cert.ReferenceIdeal.ValueP Cert.ReferenceIdeal.ReadP

variable {F : FTy → Type} [FloatOps F]

/-! ## The buffers after the whole line, stage by stage

`Z V` is what the buffers hold once all forty operations have run from the contents `V`.  Each operation's result
buffer is written once and its operands are never written afterwards, so `Z V` at a result buffer is that operation's
function of `Z V` at its operands: both sides unfold to one and the same composed term below the operation (the first
`have` of each lemma).  Reading the operands by the lemmas already proved then gives the stage of the read module,
which is that same function of the operands' stages by definition. -/

variable (V : Valuation τ sig (Elt F))

/-- The buffers' contents after the line. -/
abbrev Z : Valuation τ sig (Elt F) := after ops V

/-- An equation between `Z V` at a result buffer and its operation applied to `Z V` at the operands: unfold the fold on
    both sides; what is left differs at most by the identity transports of this one operation. -/
local macro "read_op" : tactic => `(tactic| (after_results_simp <;> rfl))

-- The fold over an axis and the gather are compared as wholes, never unfolded: every comparison
-- below is between one operation applied to operands that are literally the same terms on both sides.
attribute [local irreducible] Host.reduce Host.gather

/-! ### The arguments are never written -/

theorem z_arg0 : Z V main_arg0 = V main_arg0 := by after_results_simp <;> rfl
theorem z_arg1 : Z V main_arg1 = V main_arg1 := by after_results_simp <;> rfl
theorem z_arg2 : Z V main_arg2 = V main_arg2 := by after_results_simp <;> rfl
theorem z_arg3 : Z V main_arg3 = V main_arg3 := by after_results_simp <;> rfl
theorem z_arg4 : Z V main_arg4 = V main_arg4 := by after_results_simp <;> rfl

/-! ### The lookup with its range test (the inlined callee) -/

theorem z_c : Z V main_call0_c = val_main_call0_c (F := F) := by read_op

theorem z_v0 : Z V main_call0_v0 = val_main_call0_v0 (F := F) := by
  have R : Z V main_call0_v0 = broadcastInDim S4096x4096 ![] bcast_S_S4096x4096 (Z V main_call0_c) := by read_op
  rw [R, z_c V]; rfl

theorem z_v1 : Z V main_call0_v1 = val_main_call0_v1 (F := F) (V main_arg1) := by
  have R : Z V main_call0_v1 = cmpi .slt (Z V main_arg1) (Z V main_call0_v0) := by read_op
  rw [R, z_arg1 V, z_v0 V]; rfl

theorem z_c_0 : Z V main_call0_c_0 = val_main_call0_c_0 (F := F) := by read_op

theorem z_v2 : Z V main_call0_v2 = val_main_call0_v2 (F := F) := by
  have R : Z V main_call0_v2 = broadcastInDim S4096x4096 ![] bcast_S_S4096x4096 (Z V main_call0_c_0) := by read_op
  rw [R, z_c_0 V]; rfl

theorem z_v3 : Z V main_call0_v3 = val_main_call0_v3 (F := F) (V main_arg1) := by
  have R : Z V main_call0_v3 = addi (Z V main_arg1) (Z V main_call0_v2) := by read_op
  rw [R, z_arg1 V, z_v2 V]; rfl

theorem z_v4 : Z V main_call0_v4 = val_main_call0_v4 (F := F) (V main_arg1) := by
  have R : Z V main_call0_v4 = select (Z V main_call0_v1) (Z V main_call0_v3) (Z V main_arg1) := by read_op
  rw [R, z_v1 V, z_v3 V, z_arg1 V]; rfl

theorem z_v5 : Z V main_call0_v5 = val_main_call0_v5 (F := F) (V main_arg1) := by
  have R : Z V main_call0_v5 = shapeCast _ (Z V main_call0_v4) shapeCasts_S4096x4096_S4096x4096x1 := by read_op
  rw [R, z_v4 V]; rfl

theorem z_c_1 : Z V main_call0_c_1 = val_main_call0_c_1 (F := F) := by read_op
theorem z_c_2 : Z V main_call0_c_2 = val_main_call0_c_2 (F := F) := by read_op

theorem z_v6 : Z V main_call0_v6 = val_main_call0_v6 (F := F) := by
  have R : Z V main_call0_v6 = broadcastInDim S4096x4096x1 ![] bcast_S_S4096x4096x1 (Z V main_call0_c_2) := by read_op
  rw [R, z_c_2 V]; rfl

theorem z_v7 : Z V main_call0_v7 = val_main_call0_v7 (F := F) (V main_arg1) := by
  have R : Z V main_call0_v7 = cmpi .sge (Z V main_call0_v5) (Z V main_call0_v6) := by read_op
  rw [R, z_v5 V, z_v6 V]; rfl

theorem z_v8 : Z V main_call0_v8 = val_main_call0_v8 (F := F) := by
  have R : Z V main_call0_v8 = broadcastInDim S1x1x1 ![2] bcast_S1_S1x1x1_2 (Z V main_call0_c_1) := by read_op
  rw [R, z_c_1 V]; rfl

theorem z_v9 : Z V main_call0_v9 = val_main_call0_v9 (F := F) := by
  have R : Z V main_call0_v9
      = broadcastInDim S4096x4096x1 ![0, 1, 2] bcast_S1x1x1_S4096x4096x1_0_1_2 (Z V main_call0_v8) := by read_op
  rw [R, z_v8 V]; rfl

theorem z_v10 : Z V main_call0_v10 = val_main_call0_v10 (F := F) (V main_arg1) := by
  have R : Z V main_call0_v10 = cmpi .sle (Z V main_call0_v5) (Z V main_call0_v9) := by read_op
  rw [R, z_v5 V, z_v9 V]; rfl

theorem z_v11 : Z V main_call0_v11 = val_main_call0_v11 (F := F) (V main_arg1) := by
  have R : Z V main_call0_v11 = andi (Z V main_call0_v7) (Z V main_call0_v10) := by read_op
  rw [R, z_v7 V, z_v10 V]; rfl

theorem z_c_3 : Z V main_call0_c_3 = val_main_call0_c_3 (F := F) := by read_op

theorem z_v12 : Z V main_call0_v12 = val_main_call0_v12 (F := F) (V main_arg1) := by
  have R : Z V main_call0_v12
      = Host.reduce IntOp.andi (Z V main_call0_v11) (Z V main_call0_c_3) reducesTo_S4096x4096x1_S4096x4096_d2 h_S_ := by read_op
  rw [R, z_v11 V, z_c_3 V]; rfl

theorem z_v13 : Z V main_call0_v13 = val_main_call0_v13 (F := F) (V main_arg1) (V main_arg2) := by
  have R : Z V main_call0_v13
      = Host.gather gather_S4096x16_S4096x4096x1_S4096x4096_n_1_0_0_1_2_11 (Z V main_arg2) (Z V main_call0_v5) := by read_op
  rw [R, z_arg2 V, z_v5 V]; rfl

theorem z_cst : Z V main_call0_cst = val_main_call0_cst (F := F) := by read_op

theorem z_v14 : Z V main_call0_v14 = val_main_call0_v14 (F := F) := by
  have R : Z V main_call0_v14 = broadcastInDim S4096x4096 ![] bcast_S_S4096x4096 (Z V main_call0_cst) := by read_op
  rw [R, z_cst V]; rfl

/-- The callee's result: the looked-up table entry where the code is in range. -/
theorem z_main_v0 : Z V main_v0 = val_main_v0 (F := F) (V main_arg1) (V main_arg2) := by
  have R : Z V main_v0 = select (Z V main_call0_v12) (Z V main_call0_v13) (Z V main_call0_v14) := by read_op
  rw [R, z_v12 V, z_v13 V, z_v14 V]; rfl

/-! ### Scale and zero point: the two slices, laid out per group -/

theorem z_main_v1 : Z V main_v1 = val_main_v1 (F := F) (V main_arg3) := by
  have R : Z V main_v1 = extractStridedSlice S32x4096x1 ![0, 0, 0] (Z V main_arg3) slices_S32x4096x2_S32x4096x1_0_0_0 := by read_op
  rw [R, z_arg3 V]; rfl

theorem z_main_v2 : Z V main_v2 = val_main_v2 (F := F) (V main_arg3) := by
  have R : Z V main_v2 = shapeCast _ (Z V main_v1) shapeCasts_S32x4096x1_S32x4096 := by read_op
  rw [R, z_main_v1 V]; rfl

theorem z_main_v3 : Z V main_v3 = val_main_v3 (F := F) (V main_arg3) := by
  have R : Z V main_v3 = transpose S4096x32 [1, 0] (Z V main_v2) transposes_S32x4096_S4096x32_1_0 := by read_op
  rw [R, z_main_v2 V]; rfl

theorem z_main_v4 : Z V main_v4 = val_main_v4 (F := F) (V main_arg3) := by
  have R : Z V main_v4 = extractStridedSlice S32x4096x1 ![0, 0, 1] (Z V main_arg3) slices_S32x4096x2_S32x4096x1_0_0_1 := by read_op
  rw [R, z_arg3 V]; rfl

theorem z_main_v5 : Z V main_v5 = val_main_v5 (F := F) (V main_arg3) := by
  have R : Z V main_v5 = shapeCast _ (Z V main_v4) shapeCasts_S32x4096x1_S32x4096 := by read_op
  rw [R, z_main_v4 V]; rfl

theorem z_main_v6 : Z V main_v6 = val_main_v6 (F := F) (V main_arg3) := by
  have R : Z V main_v6 = transpose S4096x32 [1, 0] (Z V main_v5) transposes_S32x4096_S4096x32_1_0 := by read_op
  rw [R, z_main_v5 V]; rfl

/-! ### The scaling: entry times scale plus zero point, group by group -/

theorem z_main_v7 : Z V main_v7 = val_main_v7 (F := F) (V main_arg1) (V main_arg2) := by
  have R : Z V main_v7 = shapeCast _ (Z V main_v0) shapeCasts_S4096x4096_S4096x32x128 := by read_op
  rw [R, z_main_v0 V]; rfl

theorem z_main_v8 : Z V main_v8 = val_main_v8 (F := F) (V main_arg3) := by
  have R : Z V main_v8 = broadcastInDim S4096x32x1 ![0, 1] bcast_S4096x32_S4096x32x1_0_1 (Z V main_v3) := by read_op
  rw [R, z_main_v3 V]; rfl

theorem z_main_v9 : Z V main_v9 = val_main_v9 (F := F) (V main_arg3) := by
  have R : Z V main_v9 = broadcastInDim S4096x32x128 ![0, 1, 2] bcast_S4096x32x1_S4096x32x128_0_1_2 (Z V main_v8) := by read_op
  rw [R, z_main_v8 V]; rfl

theorem z_main_v10 : Z V main_v10 = val_main_v10 (F := F) (V main_arg1) (V main_arg2) (V main_arg3) := by
  have R : Z V main_v10 = mulf (Z V main_v7) (Z V main_v9) := by read_op
  rw [R, z_main_v7 V, z_main_v9 V]; rfl

theorem z_main_v11 : Z V main_v11 = val_main_v11 (F := F) (V main_arg3) := by
  have R : Z V main_v11 = broadcastInDim S4096x32x1 ![0, 1] bcast_S4096x32_S4096x32x1_0_1 (Z V main_v6) := by read_op
  rw [R, z_main_v6 V]; rfl

theorem z_main_v12 : Z V main_v12 = val_main_v12 (F := F) (V main_arg3) := by
  have R : Z V main_v12 = broadcastInDim S4096x32x128 ![0, 1, 2] bcast_S4096x32x1_S4096x32x128_0_1_2 (Z V main_v11) := by read_op
  rw [R, z_main_v11 V]; rfl

theorem z_main_v13 : Z V main_v13 = val_main_v13 (F := F) (V main_arg1) (V main_arg2) (V main_arg3) := by
  have R : Z V main_v13 = addf (Z V main_v10) (Z V main_v12) := by read_op
  rw [R, z_main_v10 V, z_main_v12 V]; rfl

theorem z_main_v14 : Z V main_v14 = val_main_v14 (F := F) (V main_arg1) (V main_arg2) (V main_arg3) := by
  have R : Z V main_v14 = shapeCast _ (Z V main_v13) shapeCasts_S4096x32x128_S4096x4096 := by read_op
  rw [R, z_main_v13 V]; rfl

/-! ### The contraction and the bias -/

theorem z_main_v15 : Z V main_v15 = val_main_v15 (F := F) (V main_arg0) (V main_arg1) (V main_arg2) (V main_arg3) := by
  have R : Z V main_v15
      = Host.dotGeneral dot_S8192x4096_S4096x4096_S8192x4096_1_1_0_0_n_n none (Z V main_arg0) (Z V main_v14) := by read_op
  rw [R, z_arg0 V, z_main_v14 V]; rfl

theorem z_main_v16 : Z V main_v16 = val_main_v16 (F := F) (V main_arg4) := by
  have R : Z V main_v16 = broadcastInDim S1x4096 ![1] bcast_S4096_S1x4096_1 (Z V main_arg4) := by read_op
  rw [R, z_arg4 V]; rfl

theorem z_main_v17 : Z V main_v17 = val_main_v17 (F := F) (V main_arg4) := by
  have R : Z V main_v17 = broadcastInDim S8192x4096 ![0, 1] bcast_S1x4096_S8192x4096_0_1 (Z V main_v16) := by read_op
  rw [R, z_main_v16 V]; rfl

/-- The result buffer holds the last stage. -/
theorem z_main_v18 : Z V main_v18
    = val_main_v18 (F := F) (V main_arg0) (V main_arg1) (V main_arg2) (V main_arg3) (V main_arg4) := by
  have R : Z V main_v18 = addf (Z V main_v15) (Z V main_v17) := by read_op
  rw [R, z_main_v15 V, z_main_v17 V]; rfl

/-- The run, its result stated as the last stage. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v18)
          = val_main_v18 (F := F) (m ((c.tc : Thread nD τ).loc main_arg0)) (m ((c.tc : Thread nD τ).loc main_arg1))
              (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
      ⟨(h c main_v18).trans (z_main_v18 (launchContents m c)),
       (h c main_arg0).trans (z_arg0 (launchContents m c)),
       (h c main_arg1).trans (z_arg1 (launchContents m c)),
       (h c main_arg2).trans (z_arg2 (launchContents m c)),
       (h c main_arg3).trans (z_arg3 (launchContents m c)),
       (h c main_arg4).trans (z_arg4 (launchContents m c))⟩)
    (run_seq scopedRefs_eq scopedSems_eq defs main (fun _ => ops) main_eq (fun _ => ops_sub) m ρ)

end Cert.ReferenceIdeal.RefRun

end
-- ==== Proof.RefG.lean ====
/-
  The reference program's result, read index by index, is the operator `Cert.Spec.G` of its arguments whenever
  every code lies in 0..15: the lookup then reads the table at the code itself (no wrap of a negative code, no fill
  for a code past the table), and the group's scale and zero point reach entry `(o, i)` through the reshape
  `[4096, 4096] → [4096, 32, 128]` as those of group `i / 128`.
-/
import proofs.«404060_j2997887172647_3_alg».proof.Proof.RefRunP
import proofs.«404060_j2997887172647_3_alg».proof.Proof.RefReadP
import proofs.«404060_j2997887172647_3_alg».proof.Proof.Spec
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx

/-! ### Codes in 0..15 as signed numbers -/

/-- A code below 16 is not negative. -/
theorem code_slt_zero (k : BitVec 32) (hk : k.toNat < 16) : IntOp.cmpi .slt k 0#32 = 0#1 := by
  have h : k.slt 0#32 = false := by simp [BitVec.slt, BitVec.toInt]; omega
  unfold IntOp.cmpi; simp only [h]; rfl

/-- A code below 16 is at least 0 (signed). -/
theorem code_sge_zero (k : BitVec 32) (hk : k.toNat < 16) : IntOp.cmpi .sge k 0#32 = 1#1 := by
  have h : (0#32 : BitVec 32).sle k = true := by simp [BitVec.sle, BitVec.toInt]; omega
  unfold IntOp.cmpi; simp only [h]; rfl

/-- A code below 16 is at most 15 (signed). -/
theorem code_sle_fifteen (k : BitVec 32) (hk : k.toNat < 16) : IntOp.cmpi .sle k 15#32 = 1#1 := by
  have h : k.sle 15#32 = true := by simp [BitVec.sle, BitVec.toInt]; omega
  unfold IntOp.cmpi; simp only [h]; rfl

/-- Read signed, a code below 16 is the same number. -/
theorem code_toInt_toNat (k : BitVec 32) (hk : k.toNat < 16) : k.toInt.toNat = k.toNat := by
  have : k.toInt = (k.toNat : Int) := by simp [BitVec.toInt]; omega
  rw [this]; rfl

/-! ### A conjunction of ones over any axes is one -/

theorem reduce_andi_ones {s t u : Shape} {axes : List (Fin s.rank)} (x : s.Idx → BitVec 1) (init : u.Idx → BitVec 1)
    (h : s.ReducesTo axes t) (hu : 0 < u.numel) (hx : ∀ i, x i = 1#1) (hi : ∀ k, init k = 1#1) (j : t.Idx) :
    Host.reduce IntOp.andi x init h hu j = 1#1 := by
  unfold Host.reduce
  rw [hi]
  generalize (List.filter (fun n => decide (h.drop (s.rowMajor.symm n) = j)) (List.finRange s.numel)) = l
  induction l with
  | nil => rfl
  | cons n l ih =>
    rw [List.foldl_cons, hx, show IntOp.andi (1#1 : BitVec 1) 1#1 = 1#1 by decide]
    exact ih

/-! ### The row-wise lookup read at an index -/

/-- The lookup with a batching axis reads, at `(o, i)`, row `o` of the table at the column the index array holds
    at `(o, i, 0)`, when that column is in range (an in-range column is not clamped). -/
theorem gather_row_apply {α : Type} (x : S4096x16.Idx → α) (idx : IVec S4096x4096x1 32) (o i : Fin 4096)
    (hlt : (idx (ix3 o i (0 : Fin 1))).toNat < 16) :
    Host.gather gather_S4096x16_S4096x4096x1_S4096x4096_n_1_0_0_1_2_11 x idx (ix2 o i)
      = x (ix2 o ⟨(idx (ix3 o i (0 : Fin 1))).toNat, hlt⟩) := by
  unfold Host.gather
  congr 1
  funext a
  refine Fin.ext ?_
  match a with
  | ⟨0, _⟩ =>
    -- the row axis is the batching axis: no start, no offset, the result's own row
    show gather_S4096x16_S4096x4096x1_S4096x4096_n_1_0_0_1_2_11.start (ix2 o i) idx 0
      + gather_S4096x16_S4096x4096x1_S4096x4096_n_1_0_0_1_2_11.batchCoord (ix2 o i) 0
      + gather_S4096x16_S4096x4096x1_S4096x4096_n_1_0_0_1_2_11.offCoord (ix2 o i) 0 = o.val
    rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    rfl
  | ⟨1, _⟩ =>
    -- the column axis is collapsed and indexed: the start index, clamped into 0..15
    show gather_S4096x16_S4096x4096x1_S4096x4096_n_1_0_0_1_2_11.start (ix2 o i) idx 1
      + gather_S4096x16_S4096x4096x1_S4096x4096_n_1_0_0_1_2_11.batchCoord (ix2 o i) 1
      + gather_S4096x16_S4096x4096x1_S4096x4096_n_1_0_0_1_2_11.offCoord (ix2 o i) 1 = (idx (ix3 o i (0 : Fin 1))).toNat
    rw [GatherDims.batchCoord_eq_zero _ _ _ (by decide),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ gather_S4096x16_S4096x4096x1_S4096x4096_n_1_0_0_1_2_11.startIndexMap from
      List.mem_singleton.mpr rfl)]
    have hsi : gather_S4096x16_S4096x4096x1_S4096x4096_n_1_0_0_1_2_11.siIdx (ix2 o i)
        ⟨List.idxOf (1 : Fin 2) gather_S4096x16_S4096x4096x1_S4096x4096_n_1_0_0_1_2_11.startIndexMap,
          List.idxOf_lt_length_iff.2 (List.mem_singleton.mpr rfl)⟩ = ix3 o i (0 : Fin 1) := by
      funext b; refine Fin.ext ?_
      match b with
      | ⟨0, _⟩ => rfl
      | ⟨1, _⟩ => rfl
      | ⟨2, _⟩ => rfl
    rw [hsi, code_toInt_toNat _ hlt]
    show min (idx (ix3 o i (0 : Fin 1))).toNat (16 - 1) = _
    omega

/-! ### The lookup stages under the range hypothesis -/

section Stages

variable (x1 : IVec S4096x4096 32) (hw : ∀ j : S4096x4096.Idx, (x1 j).toNat < 16)
include hw

/-- No code is negative, so none is wrapped: the index array holds the codes. -/
theorem call0_v5_of_lt (j : S4096x4096x1.Idx) :
    ReadP.val_main_call0_v5 (F := Ideal) x1 j = x1 (ix2 (j 0) (j 1)) := by
  have e : ReadP.idx_main_call0_v5 j = ix2 (j 0) (j 1) := by
    funext a; refine Fin.ext ?_
    have h0 : (j 0).val < 4096 := (j 0).isLt
    have h1 : (j 1).val < 4096 := (j 1).isLt
    have h2 : (j 2).val < 1 := (j 2).isLt
    match a with
    | ⟨0, _⟩ => show (((j 0).val * 4096 + (j 1).val) * 1 + (j 2).val) / 4096 = (j 0).val; omega
    | ⟨1, _⟩ => show (((j 0).val * 4096 + (j 1).val) * 1 + (j 2).val) % 4096 = (j 1).val; omega
  rw [ReadP.val_main_call0_v5_apply, ReadP.val_main_call0_v4_apply, ReadP.val_main_call0_v1_apply,
    ReadP.val_main_call0_v0_apply, ReadP.val_main_call0_c_apply, code_slt_zero _ (hw _), select_zero, e]
  rfl

/-- Every code passes the range test, so the conjunction over the unit axis is one everywhere. -/
theorem call0_v12_of_lt (y : S4096x4096.Idx) : ReadP.val_main_call0_v12 (F := Ideal) x1 y = 1#1 := by
  unfold ReadP.val_main_call0_v12
  refine reduce_andi_ones _ _ _ _ (fun j => ?_) (fun k => rfl) y
  rw [ReadP.val_main_call0_v11_apply, ReadP.val_main_call0_v7_apply, ReadP.val_main_call0_v10_apply,
    call0_v5_of_lt x1 hw, ReadP.val_main_call0_v6_apply, ReadP.val_main_call0_c_2_apply,
    ReadP.val_main_call0_v9_apply, ReadP.val_main_call0_v8_apply, ReadP.val_main_call0_c_1_apply,
    code_sge_zero _ (hw _), code_sle_fifteen _ (hw _)]
  decide

/-- The lookup reads row `o` of the table at the code. -/
theorem call0_v13_of_lt (x2 : FVec Ideal S4096x16 .f32) (o i : Fin 4096) :
    ReadP.val_main_call0_v13 (F := Ideal) x1 x2 (ix2 o i) = x2 (ix2 o ⟨(x1 (ix2 o i)).toNat, hw _⟩) := by
  unfold ReadP.val_main_call0_v13
  have e : ReadP.val_main_call0_v5 (F := Ideal) x1 (ix3 o i (0 : Fin 1)) = x1 (ix2 o i) := call0_v5_of_lt x1 hw _
  have hlt : (ReadP.val_main_call0_v5 (F := Ideal) x1 (ix3 o i (0 : Fin 1))).toNat < 16 := by rw [e]; exact hw _
  rw [gather_row_apply _ _ o i hlt]
  have : (⟨_, hlt⟩ : Fin 16) = ⟨(x1 (ix2 o i)).toNat, hw _⟩ := Fin.ext (congrArg BitVec.toNat e)
  rw [this]

/-- The looked-up table entry: the range test passes, so no fill value. -/
theorem v0_of_lt (x2 : FVec Ideal S4096x16 .f32) (o i : Fin 4096) :
    ReadP.val_main_v0 (F := Ideal) x1 x2 (ix2 o i) = x2 (ix2 o ⟨(x1 (ix2 o i)).toNat, hw _⟩) := by
  rw [ReadP.val_main_v0_apply, call0_v12_of_lt x1 hw, select_one, call0_v13_of_lt x1 hw]

end Stages

/-! ### Scales and zero points through slice, transpose and broadcast -/

/-- The scale broadcast over a group: entry `(o, g, l)` is the scale of group `g`, row `o`. -/
theorem v9_at (x3 : FVec Ideal S32x4096x2 .f32) (o : Fin 4096) (g : Fin 32) (l : Fin 128) :
    ReadP.val_main_v9 (F := Ideal) x3 (ix3 o g l) = x3 (ix3 g o (0 : Fin 2)) := by
  rw [ReadP.val_main_v9_apply, ReadP.val_main_v8_apply, ReadP.val_main_v3_apply, ReadP.val_main_v2_apply,
    ReadP.val_main_v1_apply]
  congr 1
  funext a; refine Fin.ext ?_
  have hg : g.val < 32 := g.isLt
  have ho : o.val < 4096 := o.isLt
  match a with
  | ⟨0, _⟩ => show (g.val * 4096 + o.val) / 4096 = g.val; omega
  | ⟨1, _⟩ => show (g.val * 4096 + o.val) / 1 % 4096 = o.val; omega
  | ⟨2, _⟩ => rfl

/-- The zero point broadcast over a group: entry `(o, g, l)` is the zero point of group `g`, row `o`. -/
theorem v12_at (x3 : FVec Ideal S32x4096x2 .f32) (o : Fin 4096) (g : Fin 32) (l : Fin 128) :
    ReadP.val_main_v12 (F := Ideal) x3 (ix3 o g l) = x3 (ix3 g o (1 : Fin 2)) := by
  rw [ReadP.val_main_v12_apply, ReadP.val_main_v11_apply, ReadP.val_main_v6_apply, ReadP.val_main_v5_apply,
    ReadP.val_main_v4_apply]
  congr 1
  funext a; refine Fin.ext ?_
  have hg : g.val < 32 := g.isLt
  have ho : o.val < 4096 := o.isLt
  match a with
  | ⟨0, _⟩ => show (g.val * 4096 + o.val) / 4096 = g.val; omega
  | ⟨1, _⟩ => show (g.val * 4096 + o.val) / 1 % 4096 = o.val; omega
  | ⟨2, _⟩ => rfl

/-! ### One weight entry, then the contraction and the bias -/

/-- Entry `(o, i)` of the reference's weight matrix: the table entry at the code, times the scale of group `i / 128`,
    plus its zero point; the two reshapes send `(o, i)` to `(o, i / 128, i % 128)` and back. -/
theorem v14_entry (x1 : IVec S4096x4096 32) (x2 : FVec Ideal S4096x16 .f32) (x3 : FVec Ideal S32x4096x2 .f32)
    (hw : ∀ j : S4096x4096.Idx, (x1 j).toNat < 16) (o i : Fin 4096) :
    ReadP.val_main_v14 (F := Ideal) x1 x2 x3 (ix2 o i) = Cert.Spec.deqAt x1 (Cert.Spec.effLut x2 x3) o i := by
  have ho : o.val < 4096 := o.isLt
  have hi : i.val < 4096 := i.isLt
  have e14 : ReadP.idx_main_v14 (ix2 o i)
      = ix3 o (⟨i.val / 128, by omega⟩ : Fin 32) (⟨i.val % 128, Nat.mod_lt _ (by decide)⟩ : Fin 128) := by
    funext a; refine Fin.ext ?_
    match a with
    | ⟨0, _⟩ => show (o.val * 4096 + i.val) / 4096 = o.val; omega
    | ⟨1, _⟩ => show (o.val * 4096 + i.val) / 128 % 32 = i.val / 128; omega
    | ⟨2, _⟩ => show (o.val * 4096 + i.val) % 128 = i.val % 128; omega
  have e7 : ReadP.idx_main_v7 (ix3 o (⟨i.val / 128, by omega⟩ : Fin 32) (⟨i.val % 128, Nat.mod_lt _ (by decide)⟩ : Fin 128))
      = ix2 o i := by
    funext a; refine Fin.ext ?_
    match a with
    | ⟨0, _⟩ => show ((o.val * 32 + i.val / 128) * 128 + i.val % 128) / 4096 = o.val; omega
    | ⟨1, _⟩ => show ((o.val * 32 + i.val / 128) * 128 + i.val % 128) % 4096 = i.val; omega
  rw [ReadP.val_main_v14_apply, e14, ReadP.val_main_v13_apply, ReadP.val_main_v10_apply, ReadP.val_main_v7_apply, e7,
    v0_of_lt x1 hw, v9_at, v12_at]
  unfold Cert.Spec.deqAt Cert.Spec.effLut Cert.Spec.effLutAt
  rw [Cert.Spec.codeIx_of_lt _ (hw _)]
  rfl

/-- With every code in 0..15 the reference's last stage is the operator. -/
theorem ref_eq (x0 : FVec Ideal S8192x4096 .f32) (x1 : IVec S4096x4096 32) (x2 : FVec Ideal S4096x16 .f32)
    (x3 : FVec Ideal S32x4096x2 .f32) (x4 : FVec Ideal S4096 .f32) (hw : ∀ j : S4096x4096.Idx, (x1 j).toNat < 16) :
    Cert.ReferenceIdeal.ReadP.val_main_v18 (F := Ideal) x0 x1 x2 x3 x4 = Cert.Spec.G x0 x1 x2 x3 x4 := by
  funext y
  obtain ⟨r, o, rfl⟩ : ∃ (r : Fin 8192) (o : Fin 4096), y = ix2 r o := ⟨y 0, y 1, eq_ix2 y⟩
  rw [ReadP.val_main_v18_apply, ReadP.val_main_v15_apply, ReadP.val_main_v17_apply, ReadP.val_main_v16_apply]
  show (∑ k : Fin 4096, x0 (ReadP.lidx_main_v15 (ix2 r o) k)
        * ReadP.val_main_v14 (F := Ideal) x1 x2 x3 (ReadP.ridx_main_v15 (ix2 r o) k))
      + x4 (ReadP.idx_main_v16 (ReadP.idx_main_v17 (ix2 r o)))
    = (∑ i : Fin 4096, x0 (ix2 r i) * Cert.Spec.deqAt x1 (Cert.Spec.effLut x2 x3) o i) + x4 (ix1 o)
  congr 1
  · refine Finset.sum_congr rfl fun k _ => ?_
    have el : ReadP.lidx_main_v15 (ix2 r o) k = ix2 r k := by
      funext a; refine Fin.ext ?_
      match a with
      | ⟨0, _⟩ => rfl
      | ⟨1, _⟩ => rfl
    have er : ReadP.ridx_main_v15 (ix2 r o) k = ix2 o k := by
      funext a; refine Fin.ext ?_
      match a with
      | ⟨0, _⟩ => rfl
      | ⟨1, _⟩ => rfl
    rw [el, er, v14_entry x1 x2 x3 hw]
  · congr 1
    funext a; refine Fin.ext ?_
    match a with
    | ⟨0, _⟩ => rfl

end Cert.ReferenceIdeal.RefValue

end
-- ==== Proof.PreDecode.lean ====
/-
  What the precondition says of the integer argument: every code is a number in 0..15.
-/
import proofs.«404060_j2997887172647_3_alg».proof.Proof.Gen.Pre_finite_inputs
import Idealize.ShloMosaic.Lib.ReduceAll
import Idealize.ShloMosaic.Lib.StableHlo.Predicate
import Idealize.ShloMosaic.Lib.ValueIdx

noncomputable section

namespace Cert.Pre_finite_inputs.Decode

open Cert.Pre_finite_inputs Idealize.ShloMosaic Idealize.ShloMosaic.ValueIdx

variable {F : FTy → Type} [FloatOps F]

/-- The scalar shape has one index. -/
instance subsingleton_S_ : Subsingleton S_.Idx := ⟨fun a b => funext fun d => d.elim0⟩

/-- A 32-bit word that is signed-at-least 0 and signed-below 16 is a number below 16. -/
theorem word_lt_16 (x : BitVec 32) (h0 : IntOp.cmpi .sge x 0#32 = 1#1) (h1 : IntOp.cmpi .slt x 16#32 = 1#1) :
    x.toNat < 16 := by
  have e0 : (0#32 : BitVec 32).toInt = 0 := by decide
  have e16 : (16#32 : BitVec 32).toInt = 16 := by decide
  simp only [IntOp.cmpi, StableHlo.Predicate.ofBool_eq_one_iff, BitVec.sle, BitVec.slt, decide_eq_true_eq, e0, e16] at h0 h1
  rw [BitVec.toInt_eq_toNat_cond] at h0 h1
  split at h0 <;> omega

/-- The printed predicate all ones forces every code into 0..15 (its last conjunct is the reduction by `and` over
    all entries of `0 ≤ w ∧ w < 16`, signed). -/
theorem codes_in_range (a0 : FVec F S8192x4096 .f32) (a1 : IVec S4096x4096 32) (a2 : FVec F S4096x16 .f32)
    (a3 : FVec F S32x4096x2 .f32) (a4 : FVec F S4096 .f32)
    (h : Cert.Pre_finite_inputs.fn (F := F) a0 a1 a2 a3 a4 = fun _ => 1#1) :
    ∀ j : S4096x4096.Idx, (a1 j).toNat < 16 := by
  intro j
  have h1 := congrFun h ValueIdx.ix0
  dsimp only [Cert.Pre_finite_inputs.fn, Cert.Pre_finite_inputs.fn_part1] at h1
  -- the outermost `and` of two scalars: keep its second operand, the reduction over the integer argument
  have h2 := (IntOp.andi_eq_one.1 h1).2
  have h3 := Host.reduce_andi_all _ _ _ _ _ h2 j
  obtain ⟨hge, hlt⟩ := IntOp.andi_eq_one.1 h3
  exact word_lt_16 (a1 j) hge hlt

end Cert.Pre_finite_inputs.Decode

end
-- ==== Proof.lean ====
/-
  The certificate of a 4-bit look-up-table linear layer against its plain reference.

  Both programs compute, for activations `x [8192, 4096]`, codes `w [4096, 4096]`, a table `lut [4096, 16]`,
  per-group scales and zero points `sz [32, 4096, 2]` (groups of 128 input columns) and a bias `b [4096]`,

      y[r, o] = (∑ i, x[r, i] · (lut[o, w[o,i]] · sz[i/128, o, 0] + sz[i/128, o, 1])) + b[o]

  (`Cert.Spec.G`).  The kernel folds scale and zero point into a per-group table on the host, looks the codes up in it
  tile by tile with a chain of 16 selects over the code clamped to 0..15, and multiplies in 16 blocks of 256 input
  columns, carrying the partial sums in a scratch accumulator and adding the bias at the last block.  The reference
  looks the code up directly (wrapping a negative code, filling past the table), scales, and contracts in one
  product.  The two agree whenever every code lies in 0..15, which the precondition states; the regrouping of the
  sum and the order of scaling use only commutativity and associativity of the extended reals, so the finiteness of
  the float arguments is never used.

  The three frames: the word-level kernel and its idealization run as four segments (host operations, the look-up
  region, one host operation, the matmul region) with the accumulator carried in the second region's invariant
  (`Cert.Kernel.Hand.frame`, `Cert.KernelIdeal.Hand.frame`: one text, generic in the float family); the reference is
  a straight line of host operations (`Cert.ReferenceIdeal.RefRun.run`).  The idealization rewrote nothing, so
  `preserves` is trivial.
-/
import proofs.«404060_j2997887172647_3_alg».proof.Defs
import proofs.«404060_j2997887172647_3_alg».proof.Proof.Gen.Kernel
import proofs.«404060_j2997887172647_3_alg».proof.Proof.Gen.KernelIdeal
import proofs.«404060_j2997887172647_3_alg».proof.Proof.Gen.ReferenceIdeal
import proofs.«404060_j2997887172647_3_alg».proof.Proof.Gen.Pre_finite_inputs
import proofs.«404060_j2997887172647_3_alg».proof.Proof.KRun
import proofs.«404060_j2997887172647_3_alg».proof.Proof.KIRun
import proofs.«404060_j2997887172647_3_alg».proof.Proof.KIValue
import proofs.«404060_j2997887172647_3_alg».proof.Proof.RefRun
import proofs.«404060_j2997887172647_3_alg».proof.Proof.RefG
import proofs.«404060_j2997887172647_3_alg».proof.Proof.PreDecode
import Idealize.ShloMosaic.Adequacy
import Idealize.ShloMosaic.Init

noncomputable section

namespace Cert.Proof

open Idealize.ShloMosaic Idealize.ShloMosaic.TcCoe Idealize.SL.Sem

/-- The word-level kernel runs and leaves its arguments as launched. -/
theorem frame_kernel : Cert.frame_Kernel := fun m ρ _ => Cert.Kernel.Hand.frame m ρ

/-- So does its idealization. -/
theorem frame_kernelIdeal : Cert.frame_KernelIdeal := fun m ρ _ => Cert.KernelIdeal.Hand.frame m ρ

/-- So does the reference: its run with the result dropped. -/
theorem frame_referenceIdeal : Cert.frame_ReferenceIdeal := fun m ρ _ =>
  (θ_run Cert.ReferenceIdeal.defs _ _).mono (fun _ h c => (h c).2) (Cert.ReferenceIdeal.RefRun.run (F := Ideal) m ρ)

/-- The idealization rewrote no operation. -/
theorem preserves : Cert.preserves_Kernel_KernelIdeal := trivial

/-- From memories agreeing on the arguments, with every code in 0..15, both programs end with the operator
    `Cert.Spec.G` of the arguments in their result arrays. -/
theorem algebraic : Cert.algebraic_KernelIdeal_ReferenceIdeal := by
  intro m ρ m' ρ' hpre hagree
  refine ⟨fun c => Cert.Spec.G
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · exact (θ_run Cert.KernelIdeal.defs _ _).mono (fun r h c =>
      ⟨(h c _ (Cert.KernelIdeal.Hand.mem_uc Cert.KernelIdeal.main_v15 (by decide))).trans (Cert.KernelIdeal.Val.result m c),
       (h c _ (Cert.KernelIdeal.Hand.mem_uc Cert.KernelIdeal.main_arg0 (by decide))).trans (Cert.KernelIdeal.Hand.W4_main_arg0 m c),
       (h c _ (Cert.KernelIdeal.Hand.mem_uc Cert.KernelIdeal.main_arg1 (by decide))).trans (Cert.KernelIdeal.Hand.W4_main_arg1 m c),
       (h c _ (Cert.KernelIdeal.Hand.mem_uc Cert.KernelIdeal.main_arg2 (by decide))).trans (Cert.KernelIdeal.Hand.W4_main_arg2 m c),
       (h c _ (Cert.KernelIdeal.Hand.mem_uc Cert.KernelIdeal.main_arg3 (by decide))).trans (Cert.KernelIdeal.Hand.W4_main_arg3 m c),
       (h c _ (Cert.KernelIdeal.Hand.mem_uc Cert.KernelIdeal.main_arg4 (by decide))).trans (Cert.KernelIdeal.Hand.W4_main_arg4 m c)⟩)
      (Cert.KernelIdeal.Hand.run_main m ρ)
  · refine (θ_run Cert.ReferenceIdeal.defs _ _).mono (fun r h c => ⟨?_, (h c).2⟩)
      (Cert.ReferenceIdeal.RefRun.run (F := Ideal) m' ρ')
    rw [(h c).1, (hagree c).1, (hagree c).2.1, (hagree c).2.2.1, (hagree c).2.2.2.1, (hagree c).2.2.2.2]
    exact Cert.ReferenceIdeal.RefValue.ref_eq _ _ _ _ _
      (Cert.Pre_finite_inputs.Decode.codes_in_range _ _ _ _ _ (hpre c))

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
